-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩
abbrev S2048x2048 : Shape := ⟨2, ![2048, 2048]⟩
abbrev S2048x1024 : Shape := ⟨2, ![2048, 1024]⟩
abbrev S128 : Shape := ⟨1, ![128]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  reducesTo_S_S_d : S_.ReducesTo [] S_
  bcast_S_S2048x2048 : S_.BroadcastsInDim S2048x2048 (![] : Fin 0 → Fin S2048x2048.rank)
  reducesTo_S2048x2048_S_d0_1 : S2048x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg6 : IVec S128 32) (main_v30 : IVec S_ 1) (main_v32 : IVec S128 1) : IVec S_ 1 :=
  let main_c_13 : IVec S_ 1 := constantI S_ 1 1#1
  let main_v33 : IVec S_ 1 := (fun x v => Host.reduce IntOp.andi x v reducesTo_S128_S_d0 h_S_) main_v32 main_c_13
  let main_v34 : IVec S_ 1 := andi main_v30 main_v33
  let main_c_14 : IVec S_ 32 := constantI S_ 32 2048#32
  let main_v35 : IVec S128 32 := broadcastInDim S128 ![] bcast_S_S128 main_c_14
  let main_v36 : IVec S128 1 := cmpi .slt main_arg6 main_v35
  let main_c_15 : IVec S_ 1 := constantI S_ 1 1#1
  let main_v37 : IVec S_ 1 := (fun x v => Host.reduce IntOp.andi x v reducesTo_S128_S_d0 h_S_) main_v36 main_c_15
  let main_v38 : IVec S_ 1 := andi main_v34 main_v37
  main_v38

def fn_part1 {F : FTy → Type} [FloatOps F] (main_arg4 : FVec F S2048x1024 .f32) (main_arg5 : IVec S128 32) (main_arg6 : IVec S128 32) (main_v12 : IVec S_ 1) (main_v15 : IVec S2048x2048 1) (main_c_5 : IVec S_ 1) : IVec S_ 1 :=
  let main_v16 : IVec S_ 1 := (fun x v => Host.reduce IntOp.andi x v reducesTo_S2048x2048_S_d0_1 h_S_) main_v15 main_c_5
  let main_v17 : IVec S_ 1 := andi main_v12 main_v16
  let main_v18 : FVec F S2048x1024 .f32 := Host.absf main_arg4
  let main_cst_6 : FVec F S_ .f32 := constant S_ .f32 0x7F800000#32
  let main_v19 : FVec F S2048x1024 .f32 := broadcastInDim S2048x1024 ![] bcast_S_S2048x1024 main_cst_6
  let main_v20 : IVec S2048x1024 1 := cmpf .olt main_v18 main_v19
  let main_c_7 : IVec S_ 1 := constantI S_ 1 1#1
  let main_v21 : IVec S_ 1 := (fun x v => Host.reduce IntOp.andi x v reducesTo_S2048x1024_S_d0_1 h_S_) main_v20 main_c_7
  let main_v22 : IVec S_ 1 := andi main_v17 main_v21
  let main_c_8 : IVec S_ 32 := constantI S_ 32 0#32
  let main_v23 : IVec S128 32 := broadcastInDim S128 ![] bcast_S_S128 main_c_8
  let main_v24 : IVec S128 1 := cmpi .sge main_arg5 main_v23
  let main_c_9 : IVec S_ 1 := constantI S_ 1 1#1
  let main_v25 : IVec S_ 1 := (fun x v => Host.reduce IntOp.andi x v reducesTo_S128_S_d0 h_S_) main_v24 main_c_9
  let main_v26 : IVec S_ 1 := andi main_v22 main_v25
  let main_c_10 : IVec S_ 32 := constantI S_ 32 2048#32
  let main_v27 : IVec S128 32 := broadcastInDim S128 ![] bcast_S_S128 main_c_10
  let main_v28 : IVec S128 1 := cmpi .slt main_arg5 main_v27
  let main_c_11 : IVec S_ 1 := constantI S_ 1 1#1
  let main_v29 : IVec S_ 1 := (fun x v => Host.reduce IntOp.andi x v reducesTo_S128_S_d0 h_S_) main_v28 main_c_11
  let main_v30 : IVec S_ 1 := andi main_v26 main_v29
  let main_c_12 : IVec S_ 32 := constantI S_ 32 0#32
  let main_v31 : IVec S128 32 := broadcastInDim S128 ![] bcast_S_S128 main_c_12
  let main_v32 : IVec S128 1 := cmpi .sge main_arg6 main_v31
  fn_part2 (F := F) main_arg6 main_v30 main_v32

def fn {F : FTy → Type} [FloatOps F] (main_arg0 : FVec F S4096x4096 .f32) (main_arg1 : FVec F S4096x4096 .f32) (main_arg2 : FVec F S_ .f32) (main_arg3 : FVec F S2048x2048 .f32) (main_arg4 : FVec F S2048x1024 .f32) (main_arg5 : IVec S128 32) (main_arg6 : IVec S128 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S2048x2048 .f32 := Host.absf main_arg3
  let main_cst_4 : FVec F S_ .f32 := constant S_ .f32 0x7F800000#32
  let main_v14 : FVec F S2048x2048 .f32 := broadcastInDim S2048x2048 ![] bcast_S_S2048x2048 main_cst_4
  let main_v15 : IVec S2048x2048 1 := cmpf .olt main_v13 main_v14
  let main_c_5 : IVec S_ 1 := constantI S_ 1 1#1
  fn_part1 (F := F) main_arg4 main_arg5 main_arg6 main_v12 main_v15 main_c_5
-- ==== Kernel.lean ====
abbrev S4096x4096 : Shape := ⟨2, ![4096, 4096]⟩
abbrev S_ : Shape := ⟨0, ![]⟩
abbrev S2048x2048 : Shape := ⟨2, ![2048, 2048]⟩
abbrev S2048x1024 : Shape := ⟨2, ![2048, 1024]⟩
abbrev S128 : Shape := ⟨1, ![128]⟩
abbrev S8x1x128 : Shape := ⟨3, ![8, 1, 128]⟩
abbrev S512x4096 : Shape := ⟨2, ![512, 4096]⟩
abbrev S1x1x128 : Shape := ⟨3, ![1, 1, 128]⟩
abbrev S1x512x4096 : Shape := ⟨3, ![1, 512, 4096]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩
abbrev S2048 : Shape := ⟨1, ![2048]⟩
abbrev S128x1 : Shape := ⟨2, ![128, 1]⟩
abbrev S1x2048 : Shape := ⟨2, ![1, 2048]⟩
abbrev S128x2048 : Shape := ⟨2, ![128, 2048]⟩
abbrev S1x128 : Shape := ⟨2, ![1, 128]⟩
abbrev S128x128 : Shape := ⟨2, ![128, 128]⟩
abbrev S1x1 : Shape := ⟨2, ![1, 1]⟩
abbrev S512x2048 : Shape := ⟨2, ![512, 2048]⟩
abbrev S1x512x2048 : Shape := ⟨3, ![1, 512, 2048]⟩
abbrev S128x512 : Shape := ⟨2, ![128, 512]⟩
abbrev S128x1024 : Shape := ⟨2, ![128, 1024]⟩
abbrev S1024x128 : Shape := ⟨2, ![1024, 128]⟩
abbrev S2048x128 : Shape := ⟨2, ![2048, 128]⟩
abbrev S1x128x128 : Shape := ⟨3, ![1, 128, 128]⟩

abbrev nBuf : Space → Nat
  | .hbm => 40
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S128, .i32⟩
  | .hbm, ⟨6, _⟩ => ⟨S128, .i32⟩
  | .hbm, ⟨7, _⟩ => ⟨S8x1x128, .f32⟩
  | .hbm, ⟨8, _⟩ => ⟨S8x1x1, .f32⟩
  | .hbm, ⟨9, _⟩ => ⟨S8, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048, .i32⟩
  | .hbm, ⟨14, _⟩ => ⟨S128x1, .i32⟩
  | .hbm, ⟨15, _⟩ => ⟨S1x2048, .i32⟩
  | .hbm, ⟨16, _⟩ => ⟨S128x2048, .i32⟩
  | .hbm, ⟨17, _⟩ => ⟨S128x2048, .i32⟩
  | .hbm, ⟨18, _⟩ => ⟨S128x2048, .i1⟩
  | .hbm, ⟨19, _⟩ => ⟨S128x2048, .f32⟩
  | .hbm, ⟨20, _⟩ => ⟨S128x1, .i32⟩
  | .hbm, ⟨21, _⟩ => ⟨S1x2048, .i32⟩
  | .hbm, ⟨22, _⟩ => ⟨S128x2048, .i32⟩
  | .hbm, ⟨23, _⟩ => ⟨S128x2048, .i32⟩
  | .hbm, ⟨24, _⟩ => ⟨S128x2048, .i1⟩
  | .hbm, ⟨25, _⟩ => ⟨S128x2048, .f32⟩
  | .hbm, ⟨26, _⟩ => ⟨S128x1, .i32⟩
  | .hbm, ⟨27, _⟩ => ⟨S1x128, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S128x128, .f32⟩
  | .hbm, ⟨32, _⟩ => ⟨S1x1, .f32⟩
  | .hbm, ⟨33, _⟩ => ⟨S1x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1x128, .f32⟩
  | .local _ .vmem, ⟨5, _⟩ => ⟨S1x1x128, .f32⟩
  | .local _ .vmem, ⟨6, _⟩ => ⟨S512x2048, .f32⟩
  | .local _ .vmem, ⟨7, _⟩ => ⟨S512x2048, .f32⟩
  | .local _ .vmem, ⟨8, _⟩ => ⟨S128x2048, .f32⟩
  | .local _ .vmem, ⟨9, _⟩ => ⟨S2048x1024, .f32⟩
  | .local _ .vmem, ⟨10, _⟩ => ⟨S128x2048, .f32⟩
  | .local _ .vmem, ⟨11, _⟩ => ⟨S128x128, .f32⟩
  | .local _ .vmem, ⟨12, _⟩ => ⟨S1x1, .f32⟩
  | .local _ .vmem, ⟨13, _⟩ => ⟨S1x1, .f32⟩
  | .local _ .vmem, ⟨14, _⟩ => ⟨S128x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def k1_mult1 (i : grid1.Coords) : BitVec 32 :=
  let arg0 : BitVec 32 := BitVec.ofNat 32 (i 0).val
  let c512_i32 : BitVec 32 := 512#32
  let v16 : BitVec 32 := Scalar.muli arg0 c512_i32
  v16
def k1_off1 (i : grid1.Coords) : Fin 2 → Nat :=
  let c0_7 : Index := 0#32
  let arg0 : BitVec 32 := BitVec.ofNat 32 (i 0).val
  let c512_i32 : BitVec 32 := 512#32
  let v16 : BitVec 32 := Scalar.muli arg0 c512_i32
  let v17 : BitVec 32 := v16
  let v18 : Index := Scalar.indexCast v17
  ![0, v18.toNat]
def k1_cond2 (i : grid1.Coords) : BitVec 1 :=
  let arg0 : BitVec 32 := BitVec.ofNat 32 (i 0).val
  let c3_i32 : BitVec 32 := 3#32
  let v27 : BitVec 1 := Scalar.cmpi .eq arg0 c3_i32
  let v28 : BitVec 32 := Scalar.extui v27
  let c0_i32_13 : BitVec 32 := 0#32
  let v29 : BitVec 1 := Scalar.cmpi .ne v28 c0_i32_13
  v29

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  inb_S512x4096_S512x4096_0_0 : ∀ a, (![0, 0] : Fin 2 → Nat) a + S512x4096.size a ≤ S512x4096.size a
  h_S512x4096 : 0 < S512x4096.numel
  shapeCasts_S512x4096_S1x512x4096 : S512x4096.ShapeCasts S1x512x4096
  reduces_S1x512x4096_S1 : S1x512x4096.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  bcast_S128_S128x1_0 : S128.BroadcastsInDim S128x1 (![0] : Fin 1 → Fin S128x1.rank)
  bcast_S2048_S1x2048_1 : S2048.BroadcastsInDim S1x2048 (![1] : Fin 1 → Fin S1x2048.rank)
  bcast_S128x1_S128x2048_0_1 : S128x1.BroadcastsInDim S128x2048 (![0, 1] : Fin 2 → Fin S128x2048.rank)
  bcast_S1x2048_S128x2048_0_1 : S1x2048.BroadcastsInDim S128x2048 (![0, 1] : Fin 2 → Fin S128x2048.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  inb_S1x1_S1x1_0_0 : ∀ a, (![0, 0] : Fin 2 → Nat) a + S1x1.size a ≤ S1x1.size a
  h_S1x1 : 0 < S1x1.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S512x2048_S512x2048_0_0 : ∀ a, (![0, 0] : Fin 2 → Nat) a + S512x2048.size a ≤ S512x2048.size a
  h_S512x2048 : 0 < S512x2048.numel
  shapeCasts_S512x2048_S1x512x2048 : S512x2048.ShapeCasts S1x512x2048
  reduces_S1x512x2048_S1 : S1x512x2048.Reduces [1, 2] S1
  shapeCasts_S1x1_S1x1 : S1x1.ShapeCasts S1x1
  h_S128x512 : 0 < S128x512.numel
  shapeCasts_S128x512_S128x512 : S128x512.ShapeCasts S128x512
  inb_S2048x1024_S2048x1024_0_0 : ∀ a, (![0, 0] : Fin 2 → Nat) a + S2048x1024.size a ≤ S2048x1024.size a
  h_S2048x1024 : 0 < S2048x1024.numel
  reduces_S128x1024_S128 : S128x1024.Reduces [1] S128
  shapeCasts_S128_S128x1 : S128.ShapeCasts S128x1
  transposes_S128x1024_p1_0_S1024x128 : S128x1024.Transposes [1, 0] S1024x128
  transposes_S128x1_p1_0_S1x128 : S128x1.Transposes [1, 0] S1x128
  broadcasts_S128x1_S128x128 : S128x1.Broadcasts S128x128
  broadcasts_S1x128_S128x128 : S1x128.Broadcasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x2048_p1_0_S2048x128 : S128x2048.Transposes [1, 0] S2048x128
  shapeCasts_S128x128_S1x128x128 : S128x128.ShapeCasts S1x128x128
  reduces_S1x128x128_S1 : S1x128x128.Reduces [1, 2] S1
  shapeCasts_S1x1_S_ : S1x1.ShapeCasts S_
  dot_S128x512_S512x2048_S128x2048_1_0_0_1_n_n_wf : DotDims.WF S128x512 S512x2048 S128x2048 [1] [0] [0] [1] [] []
  dot_S128x2048_S2048x1024_S128x1024_1_0_0_1_n_n_wf : DotDims.WF S128x2048 S2048x1024 S128x1024 [1] [0] [0] [1] [] []
  dot_S128x1024_S1024x128_S128x128_1_0_0_1_n_n_wf : DotDims.WF S128x1024 S1024x128 S128x128 [1] [0] [0] [1] [] []
  dot_S128x2048_S2048x128_S128x128_1_0_0_1_n_n_wf : DotDims.WF S128x2048 S2048x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S128x512.size a ≤ S128x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S2048x2048.size a
  hwx1_0 : ∀ i : grid1.Coords, EltTy.bits .f32 = 32 ∨ (Rect.block (s := S2048x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S128x2048.size a
  hwx1_1 : ∀ i : grid1.Coords, EltTy.bits .f32 = 32 ∨ (Rect.block (s := S128x2048) S128x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S2048x1024.size a
  hwx1_2 : ∀ i : grid1.Coords, EltTy.bits .f32 = 32 ∨ (Rect.block (s := S2048x1024) S2048x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S128x2048.size a
  hwx1_3 : ∀ i : grid1.Coords, EltTy.bits .f32 = 32 ∨ (Rect.block (s := S128x2048) S128x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S2048x2048 : Shape := ⟨2, ![2048, 2048]⟩
abbrev S2048x1024 : Shape := ⟨2, ![2048, 1024]⟩
abbrev S128 : Shape := ⟨1, ![128]⟩
abbrev S128x1 : Shape := ⟨2, ![128, 1]⟩
abbrev S128x1024 : Shape := ⟨2, ![128, 1024]⟩
abbrev S128x1x1024 : Shape := ⟨3, ![128, 1, 1024]⟩
abbrev S1x128x1024 : Shape := ⟨3, ![1, 128, 1024]⟩
abbrev S128x128x1024 : Shape := ⟨3, ![128, 128, 1024]⟩
abbrev S128x128 : Shape := ⟨2, ![128, 128]⟩
abbrev S1x128 : Shape := ⟨2, ![1, 128]⟩
abbrev S128x128x1 : Shape := ⟨3, ![128, 128, 1]⟩
abbrev S128x128x2 : Shape := ⟨3, ![128, 128, 2]⟩

abbrev nBuf : Space → Nat
  | .hbm => 83
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S128, .i32⟩
  | .hbm, ⟨6, _⟩ => ⟨S128, .i32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128, .i32⟩
  | .hbm, ⟨21, _⟩ => ⟨S128x1, .i32⟩
  | .hbm, ⟨22, _⟩ => ⟨S128x1024, .f32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S128x1024, .f32⟩
  | .hbm, ⟨32, _⟩ => ⟨S128x1x1024, .f32⟩
  | .hbm, ⟨33, _⟩ => ⟨S1x128x1024, .f32⟩
  | .hbm, ⟨34, _⟩ => ⟨S128x128x1024, .f32⟩
  | .hbm, ⟨35, _⟩ => ⟨S128x128x1024, .f32⟩
  | .hbm, ⟨36, _⟩ => ⟨S128x128x1024, .f32⟩
  | .hbm, ⟨37, _⟩ => ⟨S128x128x1024, .f32⟩
  | .hbm, ⟨38, _⟩ => ⟨S_, .f32⟩
  | .hbm, ⟨39, _⟩ => ⟨S128x128, .f32⟩
  | .hbm, ⟨40, _⟩ => ⟨S_, .f32⟩
  | .hbm, ⟨41, _⟩ => ⟨S128x128, .f32⟩
  | .hbm, ⟨42, _⟩ => ⟨S128x128, .i1⟩
  | .hbm, ⟨43, _⟩ => ⟨S_, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x1, .i32⟩
  | .hbm, ⟨51, _⟩ => ⟨S1x128, .i32⟩
  | .hbm, ⟨52, _⟩ => ⟨S_, .i32⟩
  | .hbm, ⟨53, _⟩ => ⟨S128x1, .i32⟩
  | .hbm, ⟨54, _⟩ => ⟨S128x1, .i1⟩
  | .hbm, ⟨55, _⟩ => ⟨S_, .i32⟩
  | .hbm, ⟨56, _⟩ => ⟨S128x1, .i32⟩
  | .hbm, ⟨57, _⟩ => ⟨S128x1, .i32⟩
  | .hbm, ⟨58, _⟩ => ⟨S128x1, .i32⟩
  | .hbm, ⟨59, _⟩ => ⟨S_, .i32⟩
  | .hbm, ⟨60, _⟩ => ⟨S1x128, .i32⟩
  | .hbm, ⟨61, _⟩ => ⟨S1x128, .i1⟩
  | .hbm, ⟨62, _⟩ => ⟨S_, .i32⟩
  | .hbm, ⟨63, _⟩ => ⟨S1x128, .i32⟩
  | .hbm, ⟨64, _⟩ => ⟨S1x128, .i32⟩
  | .hbm, ⟨65, _⟩ => ⟨S1x128, .i32⟩
  | .hbm, ⟨66, _⟩ => ⟨S128x128, .i32⟩
  | .hbm, ⟨67, _⟩ => ⟨S128x128, .i32⟩
  | .hbm, ⟨68, _⟩ => ⟨S128x128x1, .i32⟩
  | .hbm, ⟨69, _⟩ => ⟨S128x128x1, .i32⟩
  | .hbm, ⟨70, _⟩ => ⟨S128x128x2, .i32⟩
  | .hbm, ⟨71, _⟩ => ⟨S128x128, .f32⟩
  | .hbm, ⟨72, _⟩ => ⟨S128x128, .f32⟩
  | .hbm, ⟨73, _⟩ => ⟨S_, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1024_S128x1x1024_0_2 : S128x1024.BroadcastsInDim S128x1x1024 (![0, 2] : Fin 2 → Fin S128x1x1024.rank)
  bcast_S128x1024_S1x128x1024_1_2 : S128x1024.BroadcastsInDim S1x128x1024 (![1, 2] : Fin 2 → Fin S1x128x1024.rank)
  bcast_S128x1x1024_S128x128x1024_0_1_2 : S128x1x1024.BroadcastsInDim S128x128x1024 (![0, 1, 2] : Fin 3 → Fin S128x128x1024.rank)
  bcast_S1x128x1024_S128x128x1024_0_1_2 : S1x128x1024.BroadcastsInDim S128x128x1024 (![0, 1, 2] : Fin 3 → Fin S128x128x1024.rank)
  reducesTo_S128x128x1024_S128x128_d2 : S128x128x1024.ReducesTo [2] S128x128
  bcast_S_S128x128 : S_.BroadcastsInDim S128x128 (![] : Fin 0 → Fin S128x128.rank)
  bcast_S128_S1x128_1 : S128.BroadcastsInDim S1x128 (![1] : Fin 1 → Fin S1x128.rank)
  bcast_S_S128x1 : S_.BroadcastsInDim S128x1 (![] : Fin 0 → Fin S128x1.rank)
  bcast_S_S1x128 : S_.BroadcastsInDim S1x128 (![] : Fin 0 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S128x128_S128x128x1_0_1 : S128x128.BroadcastsInDim S128x128x1 (![0, 1] : Fin 2 → Fin S128x128x1.rank)
  concatenates_S128x128x1_S128x128x1_S128x128x2_d2 : Shape.Concatenates [S128x128x1, S128x128x1] S128x128x2 2
  reducesTo_S128x128_S_d0_1 : S128x128.ReducesTo [0, 1] S_
  reducesTo_S4096x4096_S_d0_1 : S4096x4096.ReducesTo [0, 1] S_
  gather_S2048x1024_S128x1_S128x1024_1_0_n_n_0_1_11024_wf : GatherDims.WF S2048x1024 S128x1 S128x1024 [1] [0] [] [0] [] 1 ![1, 1024]
  gather_S2048x2048_S128x128x2_S128x128_n_01_n_n_01_2_11_wf : GatherDims.WF S2048x2048 S128x128x2 S128x128 [] [0, 1] [] [0, 1] [] 2 ![1, 1]

variable [Facts₀]

def gather_S2048x1024_S128x1_S128x1024_1_0_n_n_0_1_11024 : GatherDims S2048x1024 S128x1 S128x1024 where
  offsetDims := [1]
  collapsedSliceDims := [0]
  operandBatchingDims := []
  startIndicesBatchingDims := []
  startIndexMap := [0]
  indexVectorDim := 1
  sliceSizes := ![1, 1024]
  wf := gather_S2048x1024_S128x1_S128x1024_1_0_n_n_0_1_11024_wf
def gather_S2048x2048_S128x128x2_S128x128_n_01_n_n_01_2_11 : GatherDims S2048x2048 S128x128x2 S128x128 where
  offsetDims := []
  collapsedSliceDims := [0, 1]
  operandBatchingDims := []
  startIndicesBatchingDims := []
  startIndexMap := [0, 1]
  indexVectorDim := 2
  sliceSizes := ![1, 1]
  wf := gather_S2048x2048_S128x128x2_S128x128_n_01_n_n_01_2_11_wf

class Facts : Prop extends Facts₀ where

variable [Facts]
-- ==== Proof.KRegion0.lean ====
import proofs.«425603_j57767310131732_3_alg».proof.Proof.Gen.Kernel.Launch
import proofs.«425603_j57767310131732_3_alg».proof.Proof.Gen.Kernel.Skeleton
import proofs.«425603_j57767310131732_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: the sum of squared differences, one 512 x 4096 block per grid point

The first kernel region walks a grid of 8 points. At point `t` it is handed rows `512 t .. 512 t + 511` of the two
4096 x 4096 inputs and the `t`-th 1 x 1 x 128 slab of the output. Its body reads both input blocks whole, forms
`sum ((a - b)^2)` over the block, and writes that one number into all 128 lanes of the output slab. Nothing else
is touched. This module states that fact in the form the pipeline's frame rule wants: for any contents `V` the
core's buffers may hold when the region is entered, what each window's staging buffer holds after the body at each
point, and the body's Hoare triple to match. Everything is stated for an arbitrary float family `F`. -/

-- rectangle membership over extents of 512 and 4096 is checked by structural recursion on the coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents at the moment the region is entered; every statement below is relative to it
variable (V : (c : Dev nD) → (b : Ref sig .tc) → Buf (Elt F) ((c : Thread nD τ).loc b))

/-! ## The windows' blocks -/

/-- Window `w`'s block at grid point `t`, cut out of the window's array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point. The window is an input, is never idle and is
    not cut at the array's edge, so a buffer that was not refilled at `t` still holds the previous point's block,
    which has the same block index. This holds for any proof data whose array is `V`'s and whose body leaves the
    block where it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every access of the body is to a whole buffer: offset zero on every axis, extent the buffer's own. -/

abbrev rIn0 : Rect S512x4096 := Rect.unit (s := S512x4096) ![0, 0] S512x4096.size inb_S512x4096_S512x4096_0_0
abbrev rOut0 : Rect S1x1x128 := Rect.unit (s := S1x1x128) ![0, 0, 0] S1x1x128.size inb_S1x1x128_S1x1x128_0_0_0

theorem zero_off2 : (![0, 0] : Fin 2 → ℕ) = fun _ => 0 := by
  funext a; fin_cases a <;> rfl
theorem zero_off3 : (![0, 0, 0] : Fin 3 → ℕ) = fun _ => 0 := by
  funext a; fin_cases a <;> rfl

/-! ## What the body leaves in the output slab -/

/-- The output slab after the body, given the two input blocks: the body's single store, as a one-piece write list.
    The stored value is the block's sum of squared differences in every lane. -/
def out0_2 (x0 x1 : Vec F S512x4096 .f32) : Vec F S1x1x128 .f32 :=
  View.canon [⟨rOut0, k0_pay1 (View.ld x0 rIn0) (View.ld x1 rIn0)⟩]

/-- That one store is to the whole slab, so every index of the slab lies in it. -/
theorem cover0_2 (p0 : Vec F S1x1x128 .f32) (y : S1x1x128.Idx) :
    ∃ pc ∈ ([⟨rOut0, p0⟩] : List (View.Piece (Elt F) S1x1x128 .f32)), y ∈ pc.1.set :=
  View.cover_of_tiled [⟨rOut0, p0⟩] S1x1x128.size (by rfl) y

/-- A whole-buffer store leaves exactly its payload, and a whole-buffer load returns exactly the buffer: the slab
    ends up holding the payload evaluated at the two input blocks themselves. -/
theorem out0_2_eq (x0 x1 : Vec F S512x4096 .f32) : out0_2 x0 x1 = k0_pay1 x0 x1 := by
  unfold out0_2
  rw [View.canon_unit_zero zero_off3]
  simp only [View.ld_unit_zero (S := S512x4096) zero_off2]

/-! ## The body's triple -/

set_option maxHeartbeats 1000000 in
/-- Run on whole staging buffers, the inputs' holding `x0` and `x1` and the output's holding anything, the body
    ends with the inputs' buffers as they were and the output's at `out0_2 x0 x1`. The printed function is its
    skeleton of three loads and one store, which is executed symbolically; the load of the output slab reads a value
    the body never uses. -/
theorem sound_kernel0 (c : Dev nD) (E : Set ℕ) (i : grid0.Coords)
    (arg1 : Memref sig .tc .vmem S512x4096 .f32) (harg1 : arg1.IsWhole)
    (arg2 : Memref sig .tc .vmem S512x4096 .f32) (harg2 : arg2.IsWhole)
    (arg3 : Memref sig .tc .vmem S1x1x128 .f32) (harg3 : arg3.IsWhole)
    (x0 x1 : Vec F S512x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__sumsq_diff_kernel i arg1 harg1 arg2 harg2 arg3 harg3) K := by
  simp only [cc0__sumsq_diff_kernel_eq_skeleton]; unfold cc0__sumsq_diff_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`. The arrays are as the region finds them. After the body at point `t`
    each input's buffer still holds its block, and the output's holds `out0_2` of the two input blocks. The invariant
    carried from point to point is the plain one (the rest of the core's scoped memory and its generator register,
    untouched); every share is full and no wait is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2_canon (c : Dev nD) (t : Fin cfg0.N) :
    (dat0 V c).after 2 t = out0_2 (iblk0 V c 0 t) (iblk0 V c 1 t) := by dsimp only [dat0]

/-- The output slab after point `t` is the sum of squared differences of the two blocks of point `t`, in every lane. -/
theorem after0_2 (c : Dev nD) (t : Fin cfg0.N) : (dat0 V c).after 2 t = k0_pay1 (iblk0 V c 0 t) (iblk0 V c 1 t) := by
  rw [after0_2_canon]; exact out0_2_eq _ _

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is handed at point `t`: the invariant, the core's owed waits, and each window's current staging
    buffer at whatever the schedule left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. The inputs' buffers hold their blocks, so the body's triple applies with those blocks; the
    invariant and the owed waits are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2_canon]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation the frame rule asks for, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Runs.lean ====
/-
  Region 1's kernel, run whole on whole buffers, in each of the three control cases its grid meets.

  The kernel visits four grid points t = 0, 1, 2, 3. At every point it adds the sum of relu(P_t)^2 over the current
  512 x 2048 block P_t of P into a 1 x 1 accumulator, and adds the product of columns [512 t, 512 t + 512) of the
  first 0/1 table with P_t into a 128 x 2048 accumulator. Two conditionals on the coordinate surround this: at t = 0
  both accumulators are first set to zero; at t = 3 the pairwise term is computed from the finished 128 x 2048
  accumulator, S and the tables, and written to the second 1 x 1 output. So there are three cases: the first point
  (reset, accumulate), the middle points (accumulate only), the last point (accumulate, then the pairwise term).

  Every store of the kernel covers its whole buffer and every load but one reads a whole buffer, so each case is
  stated with the buffers' contents named outright: what a buffer holds afterwards is the last value stored into it,
  over the values loaded before, and a load that follows a store reads what was stored.
-/
import proofs.«425603_j57767310131732_3_alg».proof.Proof.Gen.Kernel.Launch
import proofs.«425603_j57767310131732_3_alg».proof.Proof.Gen.Kernel.Skeleton
import proofs.«425603_j57767310131732_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The first conditional's condition as the kernel computes it from the coordinate: "the coordinate is zero",
    through a comparison, a widening and a comparison with zero. -/
abbrev condReset (i : grid1.Coords) : Prop :=
  (Scalar.cmpi .ne (Scalar.extui (Scalar.cmpi .eq (BitVec.ofNat 32 (i 0).val) 0#32)) 0#32) = 1#1

/-- It holds exactly at coordinate 0 (the grid has four points: checked at each). -/
theorem condReset_iff : ∀ i : grid1.Coords, condReset i ↔ (i 0).val = 0 := by decide +kernel

/-- The second conditional's condition holds exactly at coordinate 3. -/
theorem condLast_iff : ∀ i : grid1.Coords, k1_cond2 i = 1#1 ↔ (i 0).val = 3 := by decide +kernel

/-! ## The one partial load -/

/-- Columns [512 t, 512 t + 512) of the first 0/1 table at the point of coordinate t: the 128 x 512 slice the
    kernel multiplies with the current block of P. -/
def oiSlice (i : grid1.Coords) (oi : Vec F S128x2048 .f32) : Vec F S128x512 .f32 :=
  View.ld oi (Rect.unit (s := S128x2048) (k1_off1 i) S128x512.size (k1_off1_inb i))

/-! ## Whole-buffer loads and stores

Every access of the kernel but one goes through the rectangle at offsets (0, 0) with the buffer's own extents. A load
through it reads the contents; one store through it leaves its value, whatever was there; a load after such a store
reads the stored value. -/

/-- The offsets (0, 0) as the program spells them are the zero offsets. -/
theorem off00 : (![0, 0] : Fin 2 → ℕ) = fun _ => 0 := by funext a; fin_cases a <;> rfl

section Whole

variable {sg : RefSig} {κ : Kind} {sp : Space} {S : Shape} {e : EltTy} {Val : EltTy → Type}

/-- A load of the whole buffer reads what the buffer holds. -/
theorem readAt_whole (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb (v.read Val f)

/-- After stores of which the LAST covers the whole buffer, the buffer reads that store's value. -/
theorem read_writes_whole_last [∀ e, Nonempty (Val e)] (v : View sg κ sp S e) (f : v.ty.Contents Val)
    {off : Fin S.rank → ℕ} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

end Whole

/-! ## The three runs -/

set_option maxHeartbeats 1000000 in
/-- FIRST point (coordinate 0). The accumulators hold anything on entry; they are set to zero and then added to, so
    they leave holding the first block's contributions over zero. The second output is not touched. -/
theorem run_first (c : Dev nD) (E : Set ℕ) (i : grid1.Coords)
    (arg1 : Memref sig .tc .vmem S512x2048 .f32) (harg1 : arg1.IsWhole) (arg2 : Memref sig .tc .vmem S128x2048 .f32) (harg2 : arg2.IsWhole)
    (arg3 : Memref sig .tc .vmem S2048x1024 .f32) (harg3 : arg3.IsWhole) (arg4 : Memref sig .tc .vmem S128x2048 .f32) (harg4 : arg4.IsWhole)
    (arg5 : Memref sig .tc .vmem S128x128 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S128x2048 .f32) (harg8 : arg8.IsWhole)
    (p : Vec F S512x2048 .f32) (oi oj : Vec F S128x2048 .f32) (s : Vec F S2048x1024 .f32) (eq : Vec F S128x128 .f32)
    (hi : (i 0).val = 0) (x7 : Vec F S1x1 .f32) (K : PUnit → sProp 𝕄) :
    iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
        ∗ (∃ d, owns (c : Thread nD τ) arg6 fullShare d) ∗ owns (c : Thread nD τ) arg7 fullShare x7 ∗ (∃ d, owns (c : Thread nD τ) arg8 fullShare d)
        ∗ (iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
            ∗ owns (c : Thread nD τ) arg6 fullShare (k1_pay3 p (k1_pay1 (F := F))) ∗ owns (c : Thread nD τ) arg7 fullShare x7
            ∗ owns (c : Thread nD τ) arg8 fullShare (k1_pay4 p (oiSlice i oi) (k1_pay2 (F := F)))) -∗ K ⟨⟩))
      ⊢ wp frame (wpE (defs₀ (F := F)) Variants.none c none) E
          (cc1__fused_p_kernel i arg1 harg1 arg2 harg2 arg3 harg3 arg4 harg4 arg5 harg5 arg6 harg6 arg7 harg7 arg8 harg8) K := by
  have hc0 : condReset i := (condReset_iff i).2 hi
  have hc1 : ¬ k1_cond2 i = 1#1 := fun h => by have := (condLast_iff i).1 h; omega
  simp only [cc1__fused_p_kernel_eq_skeleton]; unfold cc1__fused_p_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  subst hf1 hf2 hf3 hf4 hf5
  subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_whole_last _ _ off00]
    try rw [View.readCov_unit_zero _ off00]
    repeat rw [readAt_whole _ _ off00]
  isplitl [H7]
  · iexists f7; isplitr; · ipureintro; rfl
    iexact H7
  iexists _; isplitr
  swap; · iexact H8
  ipureintro
  sl_unfold_run_names
  rw [read_writes_whole_last _ _ off00]
  try rw [View.readCov_unit_zero _ off00]
  repeat rw [readAt_whole _ _ off00]
  rfl

set_option maxHeartbeats 1000000 in
/-- MIDDLE points (coordinate 1 or 2). Each accumulator leaves holding what it entered with plus this block's
    contribution. The second output is not touched. -/
theorem run_middle (c : Dev nD) (E : Set ℕ) (i : grid1.Coords)
    (arg1 : Memref sig .tc .vmem S512x2048 .f32) (harg1 : arg1.IsWhole) (arg2 : Memref sig .tc .vmem S128x2048 .f32) (harg2 : arg2.IsWhole)
    (arg3 : Memref sig .tc .vmem S2048x1024 .f32) (harg3 : arg3.IsWhole) (arg4 : Memref sig .tc .vmem S128x2048 .f32) (harg4 : arg4.IsWhole)
    (arg5 : Memref sig .tc .vmem S128x128 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S128x2048 .f32) (harg8 : arg8.IsWhole)
    (p : Vec F S512x2048 .f32) (oi oj : Vec F S128x2048 .f32) (s : Vec F S2048x1024 .f32) (eq : Vec F S128x128 .f32)
    (hi : (i 0).val = 1 ∨ (i 0).val = 2) (x6 x7 : Vec F S1x1 .f32) (x8 : Vec F S128x2048 .f32) (K : PUnit → sProp 𝕄) :
    iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
        ∗ owns (c : Thread nD τ) arg6 fullShare x6 ∗ owns (c : Thread nD τ) arg7 fullShare x7 ∗ owns (c : Thread nD τ) arg8 fullShare x8
        ∗ (iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
            ∗ owns (c : Thread nD τ) arg6 fullShare (k1_pay3 p x6) ∗ owns (c : Thread nD τ) arg7 fullShare x7
            ∗ owns (c : Thread nD τ) arg8 fullShare (k1_pay4 p (oiSlice i oi) x8)) -∗ K ⟨⟩))
      ⊢ wp frame (wpE (defs₀ (F := F)) Variants.none c none) E
          (cc1__fused_p_kernel i arg1 harg1 arg2 harg2 arg3 harg3 arg4 harg4 arg5 harg5 arg6 harg6 arg7 harg7 arg8 harg8) K := by
  have hc0 : ¬ condReset i := fun h => by have := (condReset_iff i).1 h; omega
  have hc1 : ¬ k1_cond2 i = 1#1 := fun h => by have := (condLast_iff i).1 h; omega
  simp only [cc1__fused_p_kernel_eq_skeleton]; unfold cc1__fused_p_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5
  subst hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_writes_whole_last _ _ off00, readAt_whole _ _ off00, readAt_whole _ _ off00]
  isplitl [H7]
  · iexists f7; isplitr; · ipureintro; rfl
    iexact H7
  iexists _; isplitr
  swap; · iexact H8
  ipureintro
  rw [read_writes_whole_last _ _ off00, readAt_whole _ _ off00, readAt_whole _ _ off00]
  rfl

set_option maxHeartbeats 1000000 in
/-- LAST point (coordinate 3). The accumulators are added to as at a middle point; then the pairwise term is computed
    from S, the two tables, the mask and the FINISHED 128 x 2048 accumulator, and stored whole into the second output,
    which held anything before. -/
theorem run_last (c : Dev nD) (E : Set ℕ) (i : grid1.Coords)
    (arg1 : Memref sig .tc .vmem S512x2048 .f32) (harg1 : arg1.IsWhole) (arg2 : Memref sig .tc .vmem S128x2048 .f32) (harg2 : arg2.IsWhole)
    (arg3 : Memref sig .tc .vmem S2048x1024 .f32) (harg3 : arg3.IsWhole) (arg4 : Memref sig .tc .vmem S128x2048 .f32) (harg4 : arg4.IsWhole)
    (arg5 : Memref sig .tc .vmem S128x128 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S128x2048 .f32) (harg8 : arg8.IsWhole)
    (p : Vec F S512x2048 .f32) (oi oj : Vec F S128x2048 .f32) (s : Vec F S2048x1024 .f32) (eq : Vec F S128x128 .f32)
    (hi : (i 0).val = 3) (x6 : Vec F S1x1 .f32) (x8 : Vec F S128x2048 .f32) (K : PUnit → sProp 𝕄) :
    iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
        ∗ owns (c : Thread nD τ) arg6 fullShare x6 ∗ (∃ d, owns (c : Thread nD τ) arg7 fullShare d) ∗ owns (c : Thread nD τ) arg8 fullShare x8
        ∗ (iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
            ∗ owns (c : Thread nD τ) arg6 fullShare (k1_pay3 p x6)
            ∗ owns (c : Thread nD τ) arg7 fullShare (k1_pay5 (k1_pay6 s oi oj eq (k1_pay4 p (oiSlice i oi) x8)))
            ∗ owns (c : Thread nD τ) arg8 fullShare (k1_pay4 p (oiSlice i oi) x8)) -∗ K ⟨⟩))
      ⊢ wp frame (wpE (defs₀ (F := F)) Variants.none c none) E
          (cc1__fused_p_kernel i arg1 harg1 arg2 harg2 arg3 harg3 arg4 harg4 arg5 harg5 arg6 harg6 arg7 harg7 arg8 harg8) K := by
  have hc0 : ¬ condReset i := fun h => by have := (condReset_iff i).1 h; omega
  have hc1 : k1_cond2 i = 1#1 := (condLast_iff i).2 hi
  simp only [cc1__fused_p_kernel_eq_skeleton]; unfold cc1__fused_p_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5
  subst hf6 hf8
  simp only [k1_part1_eq_skeleton]
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_whole_last _ _ off00]
    try rw [View.readCov_unit_zero _ off00]
    repeat rw [readAt_whole _ _ off00]
  isplitl [H7]
  · iexists _; isplitr
    swap; · iexact H7
    ipureintro
    sl_unfold_run_names
    rw [read_writes_whole_last _ _ off00]
    try rw [View.readCov_unit_zero _ off00]
    repeat rw [readAt_whole _ _ off00]
    rfl
  iexists _; isplitr
  swap; · iexact H8
  ipureintro
  sl_unfold_run_names
  rw [read_writes_whole_last _ _ off00]
  try rw [View.readCov_unit_zero _ off00]
  repeat rw [readAt_whole _ _ off00]
  rfl

end Cert.Kernel.Hand

end
-- ==== Proof.KRegion1.lean ====
/-
  Region 1 of the program: the second pipelined call, on a grid of four points, stated at the contents V the
  core's buffers hold when the region is entered.

  The call stages seven windows. Window 0 is the current 512 x 2048 block of P, a new block at every point.
  Windows 1 to 4 are whole arrays (the 0/1 table of the first word list, S, the 0/1 table of the second word
  list, the table of coincidences), staged once at the first point and found unchanged afterwards. Windows 5 and
  6 are the two 1 x 1 results, each written back to its array only after the last point. Beside the windows the
  kernel owns a 128 x 2048 buffer of its own, which the pipeline never touches and which therefore still holds
  at each point what the kernel stored at the point before.

  What the point t leaves behind, with P_t the block of P at t and T_t the columns [512 t, 512 t + 512) of the
  first table:

    * result 5 holds  accS t = (sum of relu(P_t)^2) + accS (t - 1),  with zero in place of accS (-1);
    * the kernel's own buffer holds  accT t = T_t * P_t + accT (t - 1),  with zero in place of accT (-1);
    * result 6 is stored at the last point only, from S, the tables and accT at that point; at the earlier points
      the kernel leaves its buffer as it found it, and the pipeline does not write it back there.

  Result 5's buffer is not written back between points, so at every point after the first the kernel finds in it
  what it left at the point before: that is what makes accS a running sum. The kernel's own buffer is carried by
  the region's invariant: before the first point it holds anything; before point t + 1 it holds accT t.

  The three whole-body runs (first point, middle points, last point) are taken from the module of the runs; here
  they are placed at the staging buffers the pipeline passes and at the contents the windows hold.
-/
import proofs.«425603_j57767310131732_3_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two running values -/

/-- Result 5's buffer after point `n`: the sum of relu(P_n)^2 added to what point `n - 1` left, to zero at the first point. -/
def accS (c : Dev nD) : (n : ℕ) → n < cfg1.N → Vec F S1x1 .f32
  | 0, h => k1_pay3 (iblk1 V c 0 ⟨0, h⟩) (k1_pay1 (F := F))
  | n + 1, h => k1_pay3 (iblk1 V c 0 ⟨n + 1, h⟩) (accS c n (Nat.lt_of_succ_lt h))

/-- The kernel's own buffer after point `n`: T_n * P_n added to what point `n - 1` left, to zero at the first point. -/
def accT (c : Dev nD) : (n : ℕ) → n < cfg1.N → Vec F S128x2048 .f32
  | 0, h => k1_pay4 (iblk1 V c 0 ⟨0, h⟩) (oiSlice (grid1.coords ⟨0, h⟩) (iblk1 V c 1 ⟨0, h⟩)) (k1_pay2 (F := F))
  | n + 1, h => k1_pay4 (iblk1 V c 0 ⟨n + 1, h⟩) (oiSlice (grid1.coords ⟨n + 1, h⟩) (iblk1 V c 1 ⟨n + 1, h⟩)) (accT c n (Nat.lt_of_succ_lt h))

theorem accS_zero (c : Dev nD) (h : 0 < cfg1.N) :
    accS V c 0 h = k1_pay3 (iblk1 V c 0 ⟨0, h⟩) (k1_pay1 (F := F)) := rfl
theorem accS_succ (c : Dev nD) (n : ℕ) (h : n + 1 < cfg1.N) :
    accS V c (n + 1) h = k1_pay3 (iblk1 V c 0 ⟨n + 1, h⟩) (accS V c n (Nat.lt_of_succ_lt h)) := rfl
theorem accT_zero (c : Dev nD) (h : 0 < cfg1.N) :
    accT V c 0 h = k1_pay4 (iblk1 V c 0 ⟨0, h⟩) (oiSlice (grid1.coords ⟨0, h⟩) (iblk1 V c 1 ⟨0, h⟩)) (k1_pay2 (F := F)) := rfl
theorem accT_succ (c : Dev nD) (n : ℕ) (h : n + 1 < cfg1.N) :
    accT V c (n + 1) h = k1_pay4 (iblk1 V c 0 ⟨n + 1, h⟩) (oiSlice (grid1.coords ⟨n + 1, h⟩) (iblk1 V c 1 ⟨n + 1, h⟩)) (accT V c n (Nat.lt_of_succ_lt h)) := rfl

/-! ## The invariant -/

/-- The kernel's own buffer, as the memref the pipeline passes beside the windows. -/
abbrev scM1 : Memref sig .tc .vmem S128x2048 .f32 := Memref.whole cc1_scratch0

/-- The core's scoped buffers that are no staging buffer of this call — the first call's six staging buffers, each at
    anything, and the kernel's own buffer as `X` describes it — and the generator register at some state. -/
def PhiWith (c : Dev nD) (X : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ X) ∗ (∃ r, prngReg c r))

/-- The region's invariant before position `n`. Before the first point: what the launch hands over, the kernel's own
    buffer at anything. Afterwards the same with the kernel's own buffer at what the point before left in it. -/
def PhiS1 (c : Dev nD) : (n : ℕ) → n ≤ cfg1.N → sProp 𝕄
  | 0, _ => Pipeline.ΦA spec1 c
  | n + 1, hn => PhiWith c (owns (c : Thread nD τ) scM1 fullShare (accT V c n hn))

/-! ## The pipeline's proof data -/

/-- The proof data of pipeline 1 on core `c`: the arrays as the region finds them; after the body at point `t` each
    input's buffer at its block, result 5's at the running sum, result 6's at the pairwise term computed from the
    blocks and the running product; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accS V c t.val t.isLt
    | ⟨6, _⟩ => k1_pay5 (k1_pay6 (iblk1 V c 2 t) (iblk1 V c 1 t) (iblk1 V c 3 t) (iblk1 V c 4 t) (accT V c t.val t.isLt))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = accS V c t.val t.isLt := by dsimp only [dat1]
theorem after1_6 (c : Dev nD) (t : Fin cfg1.N) :
    (dat1 V c).after 6 t = k1_pay5 (k1_pay6 (iblk1 V c 2 t) (iblk1 V c 1 t) (iblk1 V c 3 t) (iblk1 V c 4 t) (accT V c t.val t.isLt)) := by
  dsimp only [dat1]

/-! ## What the body finds in the windows' buffers -/

/-- An input window's current staging buffer holds its block at every point, staged there or not: where it is not
    staged anew its block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

/-- At a point after the first, result 5's buffer holds what the body left at the point before: the buffer was not
    written back between, and the window is whole and never idle. -/
theorem before1_5_pos (c : Dev nD) (t : Fin cfg1.N) (h0 : t.val ≠ 0) (d) :
    (dat1 V c).before 5 t d = accS V c (t.val - 1) (Nat.lt_of_le_of_lt (Nat.sub_le _ _) t.isLt) := by
  have hN : t.val < 4 := lt_of_lt_of_eq t.isLt (show cfg1.N = 4 from N_1)
  rw [Dat.before_out_kept _ 5 rfl t h0 (Bool.eq_false_iff.mpr fun h => by have := (flush1_5 _).mp h; dsimp only at this; omega)
    (fun _ => rfl) (fun _ _ => rfl)]
  dsimp only [dat1]

/-! ## The grid's points -/

/-- The one coordinate of a point is its position. -/
theorem coord1 : ∀ t : Fin cfg1.N, ((grid1.coords t) 0).val = t.val :=
  (by decide +kernel : ∀ t : Fin grid1.N, ((grid1.coords t) 0).val = t.val)

/-- The running values at the first point and at a later one, stated at the point. -/
theorem accS_first (c : Dev nD) (t : Fin cfg1.N) (h0 : t.val = 0) :
    accS V c t.val t.isLt = k1_pay3 (iblk1 V c 0 t) (k1_pay1 (F := F)) := by
  obtain ⟨n, hn⟩ := t
  cases n with
  | zero => rfl
  | succ n => exact absurd h0 (Nat.succ_ne_zero n)
theorem accS_later (c : Dev nD) (t : Fin cfg1.N) (h0 : t.val ≠ 0) :
    accS V c t.val t.isLt = k1_pay3 (iblk1 V c 0 t) (accS V c (t.val - 1) (Nat.lt_of_le_of_lt (Nat.sub_le _ _) t.isLt)) := by
  obtain ⟨n, hn⟩ := t
  cases n with
  | zero => exact absurd rfl h0
  | succ n => rfl
theorem accT_first (c : Dev nD) (t : Fin cfg1.N) (h0 : t.val = 0) :
    accT V c t.val t.isLt = k1_pay4 (iblk1 V c 0 t) (oiSlice (grid1.coords t) (iblk1 V c 1 t)) (k1_pay2 (F := F)) := by
  obtain ⟨n, hn⟩ := t
  cases n with
  | zero => rfl
  | succ n => exact absurd h0 (Nat.succ_ne_zero n)
theorem accT_later (c : Dev nD) (t : Fin cfg1.N) (h0 : t.val ≠ 0) :
    accT V c t.val t.isLt = k1_pay4 (iblk1 V c 0 t) (oiSlice (grid1.coords t) (iblk1 V c 1 t)) (accT V c (t.val - 1) (Nat.lt_of_le_of_lt (Nat.sub_le _ _) t.isLt)) := by
  obtain ⟨n, hn⟩ := t
  cases n with
  | zero => exact absurd rfl h0
  | succ n => rfl

/-! ## Where the windows are idle -/

/-- The inputs and result 5 are stored or read at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Result 6 is stored at the last point only: elsewhere the kernel leaves its buffer alone, -/
theorem idleAt1_6 : ∀ t : Fin cfg1.N, t.val ≠ 3 → cfg1.idle 6 (grid1.coords t) = true := by decide +kernel
theorem liveAt1_6 : ∀ t : Fin cfg1.N, t.val = 3 → cfg1.idle 6 (grid1.coords t) = false := by decide +kernel
/-- and the pipeline does not write it back there. -/
theorem noFlush1_6 (t : Fin cfg1.N) (h : t.val ≠ 3) : (cfg1.win 6).flush t = false :=
  Bool.eq_false_iff.mpr fun hf => by
    have := (flush1_6 t).mp hf
    have hN : t.val < 4 := lt_of_lt_of_eq t.isLt (show cfg1.N = 4 from N_1)
    omega

/-! ## The invariant, opened -/

/-- What the launch hands the region, with the kernel's own buffer as a memref owned at some contents. -/
theorem PhiA1_eq (c : Dev nD) :
    (Pipeline.ΦA spec1 c : sProp 𝕄) = PhiWith c (iprop(∃ d, owns (c : Thread nD τ) scM1 fullShare d)) := by
  unfold Pipeline.ΦA PhiWith; rw [scopedRest1_eq]; simp only [scM1, owns_whole]; try rfl

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith c (owns (c : Thread nD τ) scM1 fullShare (accT V c n hn)) := rfl
theorem PhiS1_pos (c : Dev nD) (n : ℕ) (h : n ≤ cfg1.N) (hz : n ≠ 0) :
    PhiS1 V c n h = PhiWith c (owns (c : Thread nD τ) scM1 fullShare (accT V c (n - 1) (by omega))) := by
  cases n with
  | zero => exact absurd rfl hz
  | succ n => rfl
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- Each window's current staging memref at point `t`, as the pipeline passes it to the body. -/
abbrev ms1_0 (t : Fin cfg1.N) : Memref sig .tc .vmem S512x2048 .f32 := win1_0.stage (cfg1.slots t 0)
abbrev ms1_1 (t : Fin cfg1.N) : Memref sig .tc .vmem S128x2048 .f32 := win1_1.stage (cfg1.slots t 1)
abbrev ms1_2 (t : Fin cfg1.N) : Memref sig .tc .vmem S2048x1024 .f32 := win1_2.stage (cfg1.slots t 2)
abbrev ms1_3 (t : Fin cfg1.N) : Memref sig .tc .vmem S128x2048 .f32 := win1_3.stage (cfg1.slots t 3)
abbrev ms1_4 (t : Fin cfg1.N) : Memref sig .tc .vmem S128x128 .f32 := win1_4.stage (cfg1.slots t 4)
abbrev ms1_5 (t : Fin cfg1.N) : Memref sig .tc .vmem S1x1 .f32 := win1_5.stage (cfg1.slots t 5)
abbrev ms1_6 (t : Fin cfg1.N) : Memref sig .tc .vmem S1x1 .f32 := win1_6.stage (cfg1.slots t 6)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks. At the first point the two running values' buffers
    hold anything and the first run applies; at a later point result 5's buffer holds the running sum and the
    invariant hands over the kernel's own buffer at the running product, and the middle or the last run applies. Each
    run hands the kernel's own buffer back at this point's running product, which is the invariant at the next
    position. Result 6's buffer passes through untouched except at the last point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  have hco : ((grid1.coords t) 0).val = t.val := coord1 t
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [PhiS1_castSucc V c t]
  by_cases h0 : t.val = 0
  · rw [Dat.leavesExact_idle (dat1 V c) 6 t (idleAt1_6 t (by omega)) (noFlush1_6 t (by omega))]
    rw [PhiS1_zero V c _ _ h0, PhiA1_eq, accS_first V c t h0, accT_first V c t h0]
    unfold PhiWith
    iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c Set.univ (grid1.coords t) _ _ _ _ _ _ _ _ _ _ _ _ _ _ _ _ (iblk1 V c 0 t) (iblk1 V c 1 t) (iblk1 V c 3 t) (iblk1 V c 2 t) (iblk1 V c 4 t) (hco.trans h0) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [A0 A1 A2 A3 A4 A5 HS Hg]
    · isplitl [A0 A1 A2 A3 A4 A5 HS]
      · isplitl [A0]; · iexact A0
        isplitl [A1]; · iexact A1
        isplitl [A2]; · iexact A2
        isplitl [A3]; · iexact A3
        isplitl [A4]; · iexact A4
        isplitl [A5]; · iexact A5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · simp only [before1_5_pos V c t h0]
    rw [PhiS1_pos V c _ _ h0, accS_later V c t h0, accT_later V c t h0]
    unfold PhiWith
    by_cases h3 : t.val = 3
    · rw [show (dat1 V c).leavesExact 6 t = owns (c : Thread nD τ) (ms1_6 t) fullShare ((dat1 V c).after 6 t) from by
        unfold Dat.leavesExact; rw [liveAt1_6 t h3], after1_6, accT_later V c t h0]
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid1.coords t) _ _ _ _ _ _ _ _ _ _ _ _ _ _ _ _ (iblk1 V c 0 t) (iblk1 V c 1 t) (iblk1 V c 3 t) (iblk1 V c 2 t) (iblk1 V c 4 t) (hco.trans h3) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t h3) (noFlush1_6 t h3)]
      have hi : ((grid1.coords t) 0).val = 1 ∨ ((grid1.coords t) 0).val = 2 := by rw [hco]; omega
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run_middle c Set.univ (grid1.coords t) _ _ _ _ _ _ _ _ _ _ _ _ _ _ _ _ (iblk1 V c 0 t) (iblk1 V c 1 t) (iblk1 V c 3 t) (iblk1 V c 2 t) (iblk1 V c 4 t) hi _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: what the kernel's own buffer holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 4 := N_1; omega), PhiA1_eq]
  unfold PhiWith
  iintro ⟨⟨A0, A1, A2, A3, A4, A5, HS⟩, Hg⟩
  isplitl [A0 A1 A2 A3 A4 A5 HS]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end Cert.Kernel.Hand

end
-- ==== Proof.KRun.lean ====
import proofs.«425603_j57767310131732_3_alg».proof.Proof.KRegion0
import proofs.«425603_j57767310131732_3_alg».proof.Proof.KRegion1
import proofs.«425603_j57767310131732_3_alg».proof.Proof.Gen.Kernel.Regions

/-! # The run of @main through its two kernel regions

@main is four items in a row: the first kernel region (the sums of squared differences, one per grid point), a
stretch of host operations (the first square root and the three 0/1 tables), the second kernel region (the sum of
`relu(P)^2` and the pairwise term), and a last stretch of host operations (the second square root and the final sum).

This module follows the TensorCore's unscoped buffers through those four items. Their contents at the five
boundaries are a fold from the launch memory: a kernel region replaces the contents of its windows' arrays by what
its write-backs leave and keeps every other buffer; a host stretch rewrites the buffers its operations write, in
order. No item writes an argument array, so read at an argument the fold walks back to the launch memory. Each item
is then a step between two consecutive boundaries' thread states ("every unscoped buffer held whole at the
boundary's contents, the generator register at some state, nothing owed"), the steps chain, and the launch rule for
a sequence of such steps gives: every weakly fair execution terminates, and the final memory holds every unscoped
buffer at the last boundary's contents. Everything is stated for an arbitrary float family. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- At launch: the memory the run starts from. -/
abbrev W0 : Dev nD → Valuation τ sig (Elt F) := fun c b => (s₀ m ρ).mem ((c : Dev nD), b)
/-- The same, read at the TensorCore's references: what the first region's proof data are stated at. -/
abbrev V0 : (c : Dev nD) → (b : Ref sig .tc) → Buf (Elt F) ((c : Thread nD τ).loc b) := fun c b => W0 m ρ c b
/-- After the first region: its three arrays at what the write-backs of the 8 grid points leave (the two inputs as
    they were, the output with every slab written), every other buffer as at launch. -/
def W1 (c : Dev nD) : Valuation τ sig (Elt F) :=
  Pipeline.withArrays spec0 c (W0 m ρ c) fun w => (dat0 (V0 m ρ) c).arrAt w cfg0.N
/-- Read at one of the region's arrays, the new contents; -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- read anywhere else, the old ones. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch. -/
abbrev W2 : Dev nD → Valuation τ sig (Elt F) := fun c => StableHlo.after hostOps1 (W1 m ρ c)
/-- The same, read at the TensorCore's references: what the second region's proof data are stated at. -/
abbrev V2 : (c : Dev nD) → (b : Ref sig .tc) → Buf (Elt F) ((c : Thread nD τ).loc b) := fun c b => W2 m ρ c b
/-- After the second region: its seven arrays at what the write-backs of the 4 grid points leave (the five inputs as
    they were, the two 1 x 1 outputs written), every other buffer as the region found it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: what the run ends with. -/
abbrev W4 : Dev nD → Valuation τ sig (Elt F) := fun c => StableHlo.after hostOps2 (W3 m ρ c)

/-! ### No item writes an argument

A host stretch keeps every buffer that is not the result of one of its operations, and every result is a fresh
intermediate, never an argument. A region keeps every buffer that is not one of its arrays, and an array that is an
INPUT window's is left as found, since only output windows are written back. The arguments are either no region's
array (the scalar weight, the two index vectors) or input windows (the two 4096 x 4096 operands in the first region;
P and S in the second). -/

/-- A host stretch step of the walk back. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h
/-- An input window's array through the first region, -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))
/-- and through the second. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := W1_in m ρ c 0 rfl
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_in m ρ c 1 rfl
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := W3_in m ρ c 0 rfl
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of m ρ c main_arg4 (by decide)
    _ = W2 m ρ c (Proc.devRef .tc main_arg4) := W3_in m ρ c 2 rfl
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of m ρ c main_arg5 (by decide)
    _ = W2 m ρ c (Proc.devRef .tc main_arg5) := W3_of_ne m ρ c main_arg5 (by decide)
    _ = W1 m ρ c (Proc.devRef .tc main_arg5) := W2_of m ρ c main_arg5 (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of m ρ c main_arg6 (by decide)
    _ = W2 m ρ c (Proc.devRef .tc main_arg6) := W3_of_ne m ρ c main_arg6 (by decide)
    _ = W1 m ρ c (Proc.devRef .tc main_arg6) := W2_of m ρ c main_arg6 (by decide)
    _ = W0 m ρ c (Proc.devRef .tc main_arg6) := W1_of_ne m ρ c main_arg6 (by decide)
    _ = m ((c : Thread nD τ).loc main_arg6) := rfl

/-! ## The proof data family and the thread state -/

/-- Neither pipeline prefetches a table: the admissible contents are the trivial ones. -/
abbrev adm : (p : Fin 2) → (pcfgs (F := F) p).Adm := fun p => (cfgs p).toPCfg_adm
/-- Each pipeline's proof data, taken at the contents its region is entered with: the launch memory for the first,
    the contents after the first host stretch for the second. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core waits on another: no level is assigned. -/
abbrev L : GSem nD τ sig → Finset Unit := fun _ => ∅
abbrev lv : GSem nD τ sig → Unit → ℕ := fun _ _ => 0
/-- What travels beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a step: from the unscoped buffers at `W` to the same buffers after the operations, `R` beside. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as steps

A region's step has four parts. ENTRY: out of "every unscoped buffer at the entry contents" come the region's own
arrays (at the contents its proof data name) and the rest, which bypasses the region; the generator register is set
aside for the invariant. IN: the register and the scoped buffers no window stages make the invariant at the first
grid point. OUT: the invariant at the last grid point gives them back. EXIT: the arrays, now at what the write-backs
left, rejoin the bypassing rest as "every unscoped buffer at the exit contents". For the first region the invariant
is the same at every point (the scoped rest and the register, untouched). For the second it is not, since it follows
the accumulator the body keeps in scratch memory between grid points; its first and last instances are related to the
plain form by the region's own two lemmas. -/

set_option backward.isDefEq.respectTransparency.types false in
/-- The first kernel region: from every unscoped buffer at `W0` to every unscoped buffer at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region: from every unscoped buffer at `W2` to every unscoped buffer at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as steps, and the launch -/

/-- @main's four items in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The last link of the chain: what the last host stretch leaves is the last thread state beside the core owing nothing
    (the same three conjuncts, bracketed the other way). -/
theorem last_link (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO
/-- @main is the run of those items. -/
theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- THE RUN. From any memory with zero counters, every weakly fair execution of @main on the TensorCores terminates,
    nothing faulting, and the final memory holds every unscoped buffer at the last boundary's contents `W4`: the launch
    makes the first thread state on every core, the four steps chain from it to the last, and the last is read against
    the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends holding what it was launched with, since the last boundary's contents at an
    argument are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Hand

end
-- ==== Proof.KIRegion0.lean ====
import proofs.«425603_j57767310131732_3_alg».proof.Proof.Gen.KernelIdeal.Launch
import proofs.«425603_j57767310131732_3_alg».proof.Proof.Gen.KernelIdeal.Skeleton
import proofs.«425603_j57767310131732_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: the sum of squared differences, one 512 x 4096 block per grid point

The first kernel region walks a grid of 8 points. At point `t` it is handed rows `512 t .. 512 t + 511` of the two
4096 x 4096 inputs and the `t`-th 1 x 1 x 128 slab of the output. Its body reads both input blocks whole, forms
`sum ((a - b)^2)` over the block, and writes that one number into all 128 lanes of the output slab. Nothing else
is touched. This module states that fact in the form the pipeline's frame rule wants: for any contents `V` the
core's buffers may hold when the region is entered, what each window's staging buffer holds after the body at each
point, and the body's Hoare triple to match. Everything is stated for an arbitrary float family `F`. -/

-- rectangle membership over extents of 512 and 4096 is checked by structural recursion on the coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents at the moment the region is entered; every statement below is relative to it
variable (V : (c : Dev nD) → (b : Ref sig .tc) → Buf (Elt F) ((c : Thread nD τ).loc b))

/-! ## The windows' blocks -/

/-- Window `w`'s block at grid point `t`, cut out of the window's array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point. The window is an input, is never idle and is
    not cut at the array's edge, so a buffer that was not refilled at `t` still holds the previous point's block,
    which has the same block index. This holds for any proof data whose array is `V`'s and whose body leaves the
    block where it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every access of the body is to a whole buffer: offset zero on every axis, extent the buffer's own. -/

abbrev rIn0 : Rect S512x4096 := Rect.unit (s := S512x4096) ![0, 0] S512x4096.size inb_S512x4096_S512x4096_0_0
abbrev rOut0 : Rect S1x1x128 := Rect.unit (s := S1x1x128) ![0, 0, 0] S1x1x128.size inb_S1x1x128_S1x1x128_0_0_0

theorem zero_off2 : (![0, 0] : Fin 2 → ℕ) = fun _ => 0 := by
  funext a; fin_cases a <;> rfl
theorem zero_off3 : (![0, 0, 0] : Fin 3 → ℕ) = fun _ => 0 := by
  funext a; fin_cases a <;> rfl

/-! ## What the body leaves in the output slab -/

/-- The output slab after the body, given the two input blocks: the body's single store, as a one-piece write list.
    The stored value is the block's sum of squared differences in every lane. -/
def out0_2 (x0 x1 : Vec F S512x4096 .f32) : Vec F S1x1x128 .f32 :=
  View.canon [⟨rOut0, k0_pay1 (View.ld x0 rIn0) (View.ld x1 rIn0)⟩]

/-- That one store is to the whole slab, so every index of the slab lies in it. -/
theorem cover0_2 (p0 : Vec F S1x1x128 .f32) (y : S1x1x128.Idx) :
    ∃ pc ∈ ([⟨rOut0, p0⟩] : List (View.Piece (Elt F) S1x1x128 .f32)), y ∈ pc.1.set :=
  View.cover_of_tiled [⟨rOut0, p0⟩] S1x1x128.size (by rfl) y

/-- A whole-buffer store leaves exactly its payload, and a whole-buffer load returns exactly the buffer: the slab
    ends up holding the payload evaluated at the two input blocks themselves. -/
theorem out0_2_eq (x0 x1 : Vec F S512x4096 .f32) : out0_2 x0 x1 = k0_pay1 x0 x1 := by
  unfold out0_2
  rw [View.canon_unit_zero zero_off3]
  simp only [View.ld_unit_zero (S := S512x4096) zero_off2]

/-! ## The body's triple -/

set_option maxHeartbeats 1000000 in
/-- Run on whole staging buffers, the inputs' holding `x0` and `x1` and the output's holding anything, the body
    ends with the inputs' buffers as they were and the output's at `out0_2 x0 x1`. The printed function is its
    skeleton of three loads and one store, which is executed symbolically; the load of the output slab reads a value
    the body never uses. -/
theorem sound_kernel0 (c : Dev nD) (E : Set ℕ) (i : grid0.Coords)
    (arg1 : Memref sig .tc .vmem S512x4096 .f32) (harg1 : arg1.IsWhole)
    (arg2 : Memref sig .tc .vmem S512x4096 .f32) (harg2 : arg2.IsWhole)
    (arg3 : Memref sig .tc .vmem S1x1x128 .f32) (harg3 : arg3.IsWhole)
    (x0 x1 : Vec F S512x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__sumsq_diff_kernel i arg1 harg1 arg2 harg2 arg3 harg3) K := by
  simp only [cc0__sumsq_diff_kernel_eq_skeleton]; unfold cc0__sumsq_diff_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`. The arrays are as the region finds them. After the body at point `t`
    each input's buffer still holds its block, and the output's holds `out0_2` of the two input blocks. The invariant
    carried from point to point is the plain one (the rest of the core's scoped memory and its generator register,
    untouched); every share is full and no wait is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2_canon (c : Dev nD) (t : Fin cfg0.N) :
    (dat0 V c).after 2 t = out0_2 (iblk0 V c 0 t) (iblk0 V c 1 t) := by dsimp only [dat0]

/-- The output slab after point `t` is the sum of squared differences of the two blocks of point `t`, in every lane. -/
theorem after0_2 (c : Dev nD) (t : Fin cfg0.N) : (dat0 V c).after 2 t = k0_pay1 (iblk0 V c 0 t) (iblk0 V c 1 t) := by
  rw [after0_2_canon]; exact out0_2_eq _ _

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is handed at point `t`: the invariant, the core's owed waits, and each window's current staging
    buffer at whatever the schedule left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. The inputs' buffers hold their blocks, so the body's triple applies with those blocks; the
    invariant and the owed waits are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2_canon]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation the frame rule asks for, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Runs.lean ====
/-
  Region 1's kernel, run whole on whole buffers, in each of the three control cases its grid meets.

  The kernel visits four grid points t = 0, 1, 2, 3. At every point it adds the sum of relu(P_t)^2 over the current
  512 x 2048 block P_t of P into a 1 x 1 accumulator, and adds the product of columns [512 t, 512 t + 512) of the
  first 0/1 table with P_t into a 128 x 2048 accumulator. Two conditionals on the coordinate surround this: at t = 0
  both accumulators are first set to zero; at t = 3 the pairwise term is computed from the finished 128 x 2048
  accumulator, S and the tables, and written to the second 1 x 1 output. So there are three cases: the first point
  (reset, accumulate), the middle points (accumulate only), the last point (accumulate, then the pairwise term).

  Every store of the kernel covers its whole buffer and every load but one reads a whole buffer, so each case is
  stated with the buffers' contents named outright: what a buffer holds afterwards is the last value stored into it,
  over the values loaded before, and a load that follows a store reads what was stored.
-/
import proofs.«425603_j57767310131732_3_alg».proof.Proof.Gen.KernelIdeal.Launch
import proofs.«425603_j57767310131732_3_alg».proof.Proof.Gen.KernelIdeal.Skeleton
import proofs.«425603_j57767310131732_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The first conditional's condition as the kernel computes it from the coordinate: "the coordinate is zero",
    through a comparison, a widening and a comparison with zero. -/
abbrev condReset (i : grid1.Coords) : Prop :=
  (Scalar.cmpi .ne (Scalar.extui (Scalar.cmpi .eq (BitVec.ofNat 32 (i 0).val) 0#32)) 0#32) = 1#1

/-- It holds exactly at coordinate 0 (the grid has four points: checked at each). -/
theorem condReset_iff : ∀ i : grid1.Coords, condReset i ↔ (i 0).val = 0 := by decide +kernel

/-- The second conditional's condition holds exactly at coordinate 3. -/
theorem condLast_iff : ∀ i : grid1.Coords, k1_cond2 i = 1#1 ↔ (i 0).val = 3 := by decide +kernel

/-! ## The one partial load -/

/-- Columns [512 t, 512 t + 512) of the first 0/1 table at the point of coordinate t: the 128 x 512 slice the
    kernel multiplies with the current block of P. -/
def oiSlice (i : grid1.Coords) (oi : Vec F S128x2048 .f32) : Vec F S128x512 .f32 :=
  View.ld oi (Rect.unit (s := S128x2048) (k1_off1 i) S128x512.size (k1_off1_inb i))

/-! ## Whole-buffer loads and stores

Every access of the kernel but one goes through the rectangle at offsets (0, 0) with the buffer's own extents. A load
through it reads the contents; one store through it leaves its value, whatever was there; a load after such a store
reads the stored value. -/

/-- The offsets (0, 0) as the program spells them are the zero offsets. -/
theorem off00 : (![0, 0] : Fin 2 → ℕ) = fun _ => 0 := by funext a; fin_cases a <;> rfl

section Whole

variable {sg : RefSig} {κ : Kind} {sp : Space} {S : Shape} {e : EltTy} {Val : EltTy → Type}

/-- A load of the whole buffer reads what the buffer holds. -/
theorem readAt_whole (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb (v.read Val f)

/-- After stores of which the LAST covers the whole buffer, the buffer reads that store's value. -/
theorem read_writes_whole_last [∀ e, Nonempty (Val e)] (v : View sg κ sp S e) (f : v.ty.Contents Val)
    {off : Fin S.rank → ℕ} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

end Whole

/-! ## The three runs -/

set_option maxHeartbeats 1000000 in
/-- FIRST point (coordinate 0). The accumulators hold anything on entry; they are set to zero and then added to, so
    they leave holding the first block's contributions over zero. The second output is not touched. -/
theorem run_first (c : Dev nD) (E : Set ℕ) (i : grid1.Coords)
    (arg1 : Memref sig .tc .vmem S512x2048 .f32) (harg1 : arg1.IsWhole) (arg2 : Memref sig .tc .vmem S128x2048 .f32) (harg2 : arg2.IsWhole)
    (arg3 : Memref sig .tc .vmem S2048x1024 .f32) (harg3 : arg3.IsWhole) (arg4 : Memref sig .tc .vmem S128x2048 .f32) (harg4 : arg4.IsWhole)
    (arg5 : Memref sig .tc .vmem S128x128 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S128x2048 .f32) (harg8 : arg8.IsWhole)
    (p : Vec F S512x2048 .f32) (oi oj : Vec F S128x2048 .f32) (s : Vec F S2048x1024 .f32) (eq : Vec F S128x128 .f32)
    (hi : (i 0).val = 0) (x7 : Vec F S1x1 .f32) (K : PUnit → sProp 𝕄) :
    iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
        ∗ (∃ d, owns (c : Thread nD τ) arg6 fullShare d) ∗ owns (c : Thread nD τ) arg7 fullShare x7 ∗ (∃ d, owns (c : Thread nD τ) arg8 fullShare d)
        ∗ (iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
            ∗ owns (c : Thread nD τ) arg6 fullShare (k1_pay3 p (k1_pay1 (F := F))) ∗ owns (c : Thread nD τ) arg7 fullShare x7
            ∗ owns (c : Thread nD τ) arg8 fullShare (k1_pay4 p (oiSlice i oi) (k1_pay2 (F := F)))) -∗ K ⟨⟩))
      ⊢ wp frame (wpE (defs₀ (F := F)) Variants.none c none) E
          (cc1__fused_p_kernel i arg1 harg1 arg2 harg2 arg3 harg3 arg4 harg4 arg5 harg5 arg6 harg6 arg7 harg7 arg8 harg8) K := by
  have hc0 : condReset i := (condReset_iff i).2 hi
  have hc1 : ¬ k1_cond2 i = 1#1 := fun h => by have := (condLast_iff i).1 h; omega
  simp only [cc1__fused_p_kernel_eq_skeleton]; unfold cc1__fused_p_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  subst hf1 hf2 hf3 hf4 hf5
  subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_whole_last _ _ off00]
    try rw [View.readCov_unit_zero _ off00]
    repeat rw [readAt_whole _ _ off00]
  isplitl [H7]
  · iexists f7; isplitr; · ipureintro; rfl
    iexact H7
  iexists _; isplitr
  swap; · iexact H8
  ipureintro
  sl_unfold_run_names
  rw [read_writes_whole_last _ _ off00]
  try rw [View.readCov_unit_zero _ off00]
  repeat rw [readAt_whole _ _ off00]
  rfl

set_option maxHeartbeats 1000000 in
/-- MIDDLE points (coordinate 1 or 2). Each accumulator leaves holding what it entered with plus this block's
    contribution. The second output is not touched. -/
theorem run_middle (c : Dev nD) (E : Set ℕ) (i : grid1.Coords)
    (arg1 : Memref sig .tc .vmem S512x2048 .f32) (harg1 : arg1.IsWhole) (arg2 : Memref sig .tc .vmem S128x2048 .f32) (harg2 : arg2.IsWhole)
    (arg3 : Memref sig .tc .vmem S2048x1024 .f32) (harg3 : arg3.IsWhole) (arg4 : Memref sig .tc .vmem S128x2048 .f32) (harg4 : arg4.IsWhole)
    (arg5 : Memref sig .tc .vmem S128x128 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S128x2048 .f32) (harg8 : arg8.IsWhole)
    (p : Vec F S512x2048 .f32) (oi oj : Vec F S128x2048 .f32) (s : Vec F S2048x1024 .f32) (eq : Vec F S128x128 .f32)
    (hi : (i 0).val = 1 ∨ (i 0).val = 2) (x6 x7 : Vec F S1x1 .f32) (x8 : Vec F S128x2048 .f32) (K : PUnit → sProp 𝕄) :
    iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
        ∗ owns (c : Thread nD τ) arg6 fullShare x6 ∗ owns (c : Thread nD τ) arg7 fullShare x7 ∗ owns (c : Thread nD τ) arg8 fullShare x8
        ∗ (iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
            ∗ owns (c : Thread nD τ) arg6 fullShare (k1_pay3 p x6) ∗ owns (c : Thread nD τ) arg7 fullShare x7
            ∗ owns (c : Thread nD τ) arg8 fullShare (k1_pay4 p (oiSlice i oi) x8)) -∗ K ⟨⟩))
      ⊢ wp frame (wpE (defs₀ (F := F)) Variants.none c none) E
          (cc1__fused_p_kernel i arg1 harg1 arg2 harg2 arg3 harg3 arg4 harg4 arg5 harg5 arg6 harg6 arg7 harg7 arg8 harg8) K := by
  have hc0 : ¬ condReset i := fun h => by have := (condReset_iff i).1 h; omega
  have hc1 : ¬ k1_cond2 i = 1#1 := fun h => by have := (condLast_iff i).1 h; omega
  simp only [cc1__fused_p_kernel_eq_skeleton]; unfold cc1__fused_p_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5
  subst hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_writes_whole_last _ _ off00, readAt_whole _ _ off00, readAt_whole _ _ off00]
  isplitl [H7]
  · iexists f7; isplitr; · ipureintro; rfl
    iexact H7
  iexists _; isplitr
  swap; · iexact H8
  ipureintro
  rw [read_writes_whole_last _ _ off00, readAt_whole _ _ off00, readAt_whole _ _ off00]
  rfl

set_option maxHeartbeats 1000000 in
/-- LAST point (coordinate 3). The accumulators are added to as at a middle point; then the pairwise term is computed
    from S, the two tables, the mask and the FINISHED 128 x 2048 accumulator, and stored whole into the second output,
    which held anything before. -/
theorem run_last (c : Dev nD) (E : Set ℕ) (i : grid1.Coords)
    (arg1 : Memref sig .tc .vmem S512x2048 .f32) (harg1 : arg1.IsWhole) (arg2 : Memref sig .tc .vmem S128x2048 .f32) (harg2 : arg2.IsWhole)
    (arg3 : Memref sig .tc .vmem S2048x1024 .f32) (harg3 : arg3.IsWhole) (arg4 : Memref sig .tc .vmem S128x2048 .f32) (harg4 : arg4.IsWhole)
    (arg5 : Memref sig .tc .vmem S128x128 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S128x2048 .f32) (harg8 : arg8.IsWhole)
    (p : Vec F S512x2048 .f32) (oi oj : Vec F S128x2048 .f32) (s : Vec F S2048x1024 .f32) (eq : Vec F S128x128 .f32)
    (hi : (i 0).val = 3) (x6 : Vec F S1x1 .f32) (x8 : Vec F S128x2048 .f32) (K : PUnit → sProp 𝕄) :
    iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
        ∗ owns (c : Thread nD τ) arg6 fullShare x6 ∗ (∃ d, owns (c : Thread nD τ) arg7 fullShare d) ∗ owns (c : Thread nD τ) arg8 fullShare x8
        ∗ (iprop(owns (c : Thread nD τ) arg1 fullShare p ∗ owns (c : Thread nD τ) arg2 fullShare oi ∗ owns (c : Thread nD τ) arg3 fullShare s
        ∗ owns (c : Thread nD τ) arg4 fullShare oj ∗ owns (c : Thread nD τ) arg5 fullShare eq
            ∗ owns (c : Thread nD τ) arg6 fullShare (k1_pay3 p x6)
            ∗ owns (c : Thread nD τ) arg7 fullShare (k1_pay5 (k1_pay6 s oi oj eq (k1_pay4 p (oiSlice i oi) x8)))
            ∗ owns (c : Thread nD τ) arg8 fullShare (k1_pay4 p (oiSlice i oi) x8)) -∗ K ⟨⟩))
      ⊢ wp frame (wpE (defs₀ (F := F)) Variants.none c none) E
          (cc1__fused_p_kernel i arg1 harg1 arg2 harg2 arg3 harg3 arg4 harg4 arg5 harg5 arg6 harg6 arg7 harg7 arg8 harg8) K := by
  have hc0 : ¬ condReset i := fun h => by have := (condReset_iff i).1 h; omega
  have hc1 : k1_cond2 i = 1#1 := (condLast_iff i).2 hi
  simp only [cc1__fused_p_kernel_eq_skeleton]; unfold cc1__fused_p_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5
  subst hf6 hf8
  simp only [k1_part1_eq_skeleton]
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_whole_last _ _ off00]
    try rw [View.readCov_unit_zero _ off00]
    repeat rw [readAt_whole _ _ off00]
  isplitl [H7]
  · iexists _; isplitr
    swap; · iexact H7
    ipureintro
    sl_unfold_run_names
    rw [read_writes_whole_last _ _ off00]
    try rw [View.readCov_unit_zero _ off00]
    repeat rw [readAt_whole _ _ off00]
    rfl
  iexists _; isplitr
  swap; · iexact H8
  ipureintro
  sl_unfold_run_names
  rw [read_writes_whole_last _ _ off00]
  try rw [View.readCov_unit_zero _ off00]
  repeat rw [readAt_whole _ _ off00]
  rfl

end Cert.KernelIdeal.Hand

end
-- ==== Proof.KIRegion1.lean ====
/-
  Region 1 of the program: the second pipelined call, on a grid of four points, stated at the contents V the
  core's buffers hold when the region is entered.

  The call stages seven windows. Window 0 is the current 512 x 2048 block of P, a new block at every point.
  Windows 1 to 4 are whole arrays (the 0/1 table of the first word list, S, the 0/1 table of the second word
  list, the table of coincidences), staged once at the first point and found unchanged afterwards. Windows 5 and
  6 are the two 1 x 1 results, each written back to its array only after the last point. Beside the windows the
  kernel owns a 128 x 2048 buffer of its own, which the pipeline never touches and which therefore still holds
  at each point what the kernel stored at the point before.

  What the point t leaves behind, with P_t the block of P at t and T_t the columns [512 t, 512 t + 512) of the
  first table:

    * result 5 holds  accS t = (sum of relu(P_t)^2) + accS (t - 1),  with zero in place of accS (-1);
    * the kernel's own buffer holds  accT t = T_t * P_t + accT (t - 1),  with zero in place of accT (-1);
    * result 6 is stored at the last point only, from S, the tables and accT at that point; at the earlier points
      the kernel leaves its buffer as it found it, and the pipeline does not write it back there.

  Result 5's buffer is not written back between points, so at every point after the first the kernel finds in it
  what it left at the point before: that is what makes accS a running sum. The kernel's own buffer is carried by
  the region's invariant: before the first point it holds anything; before point t + 1 it holds accT t.

  The three whole-body runs (first point, middle points, last point) are taken from the module of the runs; here
  they are placed at the staging buffers the pipeline passes and at the contents the windows hold.
-/
import proofs.«425603_j57767310131732_3_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two running values -/

/-- Result 5's buffer after point `n`: the sum of relu(P_n)^2 added to what point `n - 1` left, to zero at the first point. -/
def accS (c : Dev nD) : (n : ℕ) → n < cfg1.N → Vec F S1x1 .f32
  | 0, h => k1_pay3 (iblk1 V c 0 ⟨0, h⟩) (k1_pay1 (F := F))
  | n + 1, h => k1_pay3 (iblk1 V c 0 ⟨n + 1, h⟩) (accS c n (Nat.lt_of_succ_lt h))

/-- The kernel's own buffer after point `n`: T_n * P_n added to what point `n - 1` left, to zero at the first point. -/
def accT (c : Dev nD) : (n : ℕ) → n < cfg1.N → Vec F S128x2048 .f32
  | 0, h => k1_pay4 (iblk1 V c 0 ⟨0, h⟩) (oiSlice (grid1.coords ⟨0, h⟩) (iblk1 V c 1 ⟨0, h⟩)) (k1_pay2 (F := F))
  | n + 1, h => k1_pay4 (iblk1 V c 0 ⟨n + 1, h⟩) (oiSlice (grid1.coords ⟨n + 1, h⟩) (iblk1 V c 1 ⟨n + 1, h⟩)) (accT c n (Nat.lt_of_succ_lt h))

theorem accS_zero (c : Dev nD) (h : 0 < cfg1.N) :
    accS V c 0 h = k1_pay3 (iblk1 V c 0 ⟨0, h⟩) (k1_pay1 (F := F)) := rfl
theorem accS_succ (c : Dev nD) (n : ℕ) (h : n + 1 < cfg1.N) :
    accS V c (n + 1) h = k1_pay3 (iblk1 V c 0 ⟨n + 1, h⟩) (accS V c n (Nat.lt_of_succ_lt h)) := rfl
theorem accT_zero (c : Dev nD) (h : 0 < cfg1.N) :
    accT V c 0 h = k1_pay4 (iblk1 V c 0 ⟨0, h⟩) (oiSlice (grid1.coords ⟨0, h⟩) (iblk1 V c 1 ⟨0, h⟩)) (k1_pay2 (F := F)) := rfl
theorem accT_succ (c : Dev nD) (n : ℕ) (h : n + 1 < cfg1.N) :
    accT V c (n + 1) h = k1_pay4 (iblk1 V c 0 ⟨n + 1, h⟩) (oiSlice (grid1.coords ⟨n + 1, h⟩) (iblk1 V c 1 ⟨n + 1, h⟩)) (accT V c n (Nat.lt_of_succ_lt h)) := rfl

/-! ## The invariant -/

/-- The kernel's own buffer, as the memref the pipeline passes beside the windows. -/
abbrev scM1 : Memref sig .tc .vmem S128x2048 .f32 := Memref.whole cc1_scratch0

/-- The core's scoped buffers that are no staging buffer of this call — the first call's six staging buffers, each at
    anything, and the kernel's own buffer as `X` describes it — and the generator register at some state. -/
def PhiWith (c : Dev nD) (X : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ X) ∗ (∃ r, prngReg c r))

/-- The region's invariant before position `n`. Before the first point: what the launch hands over, the kernel's own
    buffer at anything. Afterwards the same with the kernel's own buffer at what the point before left in it. -/
def PhiS1 (c : Dev nD) : (n : ℕ) → n ≤ cfg1.N → sProp 𝕄
  | 0, _ => Pipeline.ΦA spec1 c
  | n + 1, hn => PhiWith c (owns (c : Thread nD τ) scM1 fullShare (accT V c n hn))

/-! ## The pipeline's proof data -/

/-- The proof data of pipeline 1 on core `c`: the arrays as the region finds them; after the body at point `t` each
    input's buffer at its block, result 5's at the running sum, result 6's at the pairwise term computed from the
    blocks and the running product; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accS V c t.val t.isLt
    | ⟨6, _⟩ => k1_pay5 (k1_pay6 (iblk1 V c 2 t) (iblk1 V c 1 t) (iblk1 V c 3 t) (iblk1 V c 4 t) (accT V c t.val t.isLt))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = accS V c t.val t.isLt := by dsimp only [dat1]
theorem after1_6 (c : Dev nD) (t : Fin cfg1.N) :
    (dat1 V c).after 6 t = k1_pay5 (k1_pay6 (iblk1 V c 2 t) (iblk1 V c 1 t) (iblk1 V c 3 t) (iblk1 V c 4 t) (accT V c t.val t.isLt)) := by
  dsimp only [dat1]

/-! ## What the body finds in the windows' buffers -/

/-- An input window's current staging buffer holds its block at every point, staged there or not: where it is not
    staged anew its block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

/-- At a point after the first, result 5's buffer holds what the body left at the point before: the buffer was not
    written back between, and the window is whole and never idle. -/
theorem before1_5_pos (c : Dev nD) (t : Fin cfg1.N) (h0 : t.val ≠ 0) (d) :
    (dat1 V c).before 5 t d = accS V c (t.val - 1) (Nat.lt_of_le_of_lt (Nat.sub_le _ _) t.isLt) := by
  have hN : t.val < 4 := lt_of_lt_of_eq t.isLt (show cfg1.N = 4 from N_1)
  rw [Dat.before_out_kept _ 5 rfl t h0 (Bool.eq_false_iff.mpr fun h => by have := (flush1_5 _).mp h; dsimp only at this; omega)
    (fun _ => rfl) (fun _ _ => rfl)]
  dsimp only [dat1]

/-! ## The grid's points -/

/-- The one coordinate of a point is its position. -/
theorem coord1 : ∀ t : Fin cfg1.N, ((grid1.coords t) 0).val = t.val :=
  (by decide +kernel : ∀ t : Fin grid1.N, ((grid1.coords t) 0).val = t.val)

/-- The running values at the first point and at a later one, stated at the point. -/
theorem accS_first (c : Dev nD) (t : Fin cfg1.N) (h0 : t.val = 0) :
    accS V c t.val t.isLt = k1_pay3 (iblk1 V c 0 t) (k1_pay1 (F := F)) := by
  obtain ⟨n, hn⟩ := t
  cases n with
  | zero => rfl
  | succ n => exact absurd h0 (Nat.succ_ne_zero n)
theorem accS_later (c : Dev nD) (t : Fin cfg1.N) (h0 : t.val ≠ 0) :
    accS V c t.val t.isLt = k1_pay3 (iblk1 V c 0 t) (accS V c (t.val - 1) (Nat.lt_of_le_of_lt (Nat.sub_le _ _) t.isLt)) := by
  obtain ⟨n, hn⟩ := t
  cases n with
  | zero => exact absurd rfl h0
  | succ n => rfl
theorem accT_first (c : Dev nD) (t : Fin cfg1.N) (h0 : t.val = 0) :
    accT V c t.val t.isLt = k1_pay4 (iblk1 V c 0 t) (oiSlice (grid1.coords t) (iblk1 V c 1 t)) (k1_pay2 (F := F)) := by
  obtain ⟨n, hn⟩ := t
  cases n with
  | zero => rfl
  | succ n => exact absurd h0 (Nat.succ_ne_zero n)
theorem accT_later (c : Dev nD) (t : Fin cfg1.N) (h0 : t.val ≠ 0) :
    accT V c t.val t.isLt = k1_pay4 (iblk1 V c 0 t) (oiSlice (grid1.coords t) (iblk1 V c 1 t)) (accT V c (t.val - 1) (Nat.lt_of_le_of_lt (Nat.sub_le _ _) t.isLt)) := by
  obtain ⟨n, hn⟩ := t
  cases n with
  | zero => exact absurd rfl h0
  | succ n => rfl

/-! ## Where the windows are idle -/

/-- The inputs and result 5 are stored or read at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Result 6 is stored at the last point only: elsewhere the kernel leaves its buffer alone, -/
theorem idleAt1_6 : ∀ t : Fin cfg1.N, t.val ≠ 3 → cfg1.idle 6 (grid1.coords t) = true := by decide +kernel
theorem liveAt1_6 : ∀ t : Fin cfg1.N, t.val = 3 → cfg1.idle 6 (grid1.coords t) = false := by decide +kernel
/-- and the pipeline does not write it back there. -/
theorem noFlush1_6 (t : Fin cfg1.N) (h : t.val ≠ 3) : (cfg1.win 6).flush t = false :=
  Bool.eq_false_iff.mpr fun hf => by
    have := (flush1_6 t).mp hf
    have hN : t.val < 4 := lt_of_lt_of_eq t.isLt (show cfg1.N = 4 from N_1)
    omega

/-! ## The invariant, opened -/

/-- What the launch hands the region, with the kernel's own buffer as a memref owned at some contents. -/
theorem PhiA1_eq (c : Dev nD) :
    (Pipeline.ΦA spec1 c : sProp 𝕄) = PhiWith c (iprop(∃ d, owns (c : Thread nD τ) scM1 fullShare d)) := by
  unfold Pipeline.ΦA PhiWith; rw [scopedRest1_eq]; simp only [scM1, owns_whole]; try rfl

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith c (owns (c : Thread nD τ) scM1 fullShare (accT V c n hn)) := rfl
theorem PhiS1_pos (c : Dev nD) (n : ℕ) (h : n ≤ cfg1.N) (hz : n ≠ 0) :
    PhiS1 V c n h = PhiWith c (owns (c : Thread nD τ) scM1 fullShare (accT V c (n - 1) (by omega))) := by
  cases n with
  | zero => exact absurd rfl hz
  | succ n => rfl
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- Each window's current staging memref at point `t`, as the pipeline passes it to the body. -/
abbrev ms1_0 (t : Fin cfg1.N) : Memref sig .tc .vmem S512x2048 .f32 := win1_0.stage (cfg1.slots t 0)
abbrev ms1_1 (t : Fin cfg1.N) : Memref sig .tc .vmem S128x2048 .f32 := win1_1.stage (cfg1.slots t 1)
abbrev ms1_2 (t : Fin cfg1.N) : Memref sig .tc .vmem S2048x1024 .f32 := win1_2.stage (cfg1.slots t 2)
abbrev ms1_3 (t : Fin cfg1.N) : Memref sig .tc .vmem S128x2048 .f32 := win1_3.stage (cfg1.slots t 3)
abbrev ms1_4 (t : Fin cfg1.N) : Memref sig .tc .vmem S128x128 .f32 := win1_4.stage (cfg1.slots t 4)
abbrev ms1_5 (t : Fin cfg1.N) : Memref sig .tc .vmem S1x1 .f32 := win1_5.stage (cfg1.slots t 5)
abbrev ms1_6 (t : Fin cfg1.N) : Memref sig .tc .vmem S1x1 .f32 := win1_6.stage (cfg1.slots t 6)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks. At the first point the two running values' buffers
    hold anything and the first run applies; at a later point result 5's buffer holds the running sum and the
    invariant hands over the kernel's own buffer at the running product, and the middle or the last run applies. Each
    run hands the kernel's own buffer back at this point's running product, which is the invariant at the next
    position. Result 6's buffer passes through untouched except at the last point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  have hco : ((grid1.coords t) 0).val = t.val := coord1 t
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [PhiS1_castSucc V c t]
  by_cases h0 : t.val = 0
  · rw [Dat.leavesExact_idle (dat1 V c) 6 t (idleAt1_6 t (by omega)) (noFlush1_6 t (by omega))]
    rw [PhiS1_zero V c _ _ h0, PhiA1_eq, accS_first V c t h0, accT_first V c t h0]
    unfold PhiWith
    iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c Set.univ (grid1.coords t) _ _ _ _ _ _ _ _ _ _ _ _ _ _ _ _ (iblk1 V c 0 t) (iblk1 V c 1 t) (iblk1 V c 3 t) (iblk1 V c 2 t) (iblk1 V c 4 t) (hco.trans h0) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [A0 A1 A2 A3 A4 A5 HS Hg]
    · isplitl [A0 A1 A2 A3 A4 A5 HS]
      · isplitl [A0]; · iexact A0
        isplitl [A1]; · iexact A1
        isplitl [A2]; · iexact A2
        isplitl [A3]; · iexact A3
        isplitl [A4]; · iexact A4
        isplitl [A5]; · iexact A5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · simp only [before1_5_pos V c t h0]
    rw [PhiS1_pos V c _ _ h0, accS_later V c t h0, accT_later V c t h0]
    unfold PhiWith
    by_cases h3 : t.val = 3
    · rw [show (dat1 V c).leavesExact 6 t = owns (c : Thread nD τ) (ms1_6 t) fullShare ((dat1 V c).after 6 t) from by
        unfold Dat.leavesExact; rw [liveAt1_6 t h3], after1_6, accT_later V c t h0]
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid1.coords t) _ _ _ _ _ _ _ _ _ _ _ _ _ _ _ _ (iblk1 V c 0 t) (iblk1 V c 1 t) (iblk1 V c 3 t) (iblk1 V c 2 t) (iblk1 V c 4 t) (hco.trans h3) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t h3) (noFlush1_6 t h3)]
      have hi : ((grid1.coords t) 0).val = 1 ∨ ((grid1.coords t) 0).val = 2 := by rw [hco]; omega
      iintro ⟨⟨⟨A0, A1, A2, A3, A4, A5, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run_middle c Set.univ (grid1.coords t) _ _ _ _ _ _ _ _ _ _ _ _ _ _ _ _ (iblk1 V c 0 t) (iblk1 V c 1 t) (iblk1 V c 3 t) (iblk1 V c 2 t) (iblk1 V c 4 t) hi _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [A0 A1 A2 A3 A4 A5 HS Hg]
      · isplitl [A0 A1 A2 A3 A4 A5 HS]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: what the kernel's own buffer holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 4 := N_1; omega), PhiA1_eq]
  unfold PhiWith
  iintro ⟨⟨A0, A1, A2, A3, A4, A5, HS⟩, Hg⟩
  isplitl [A0 A1 A2 A3 A4 A5 HS]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end Cert.KernelIdeal.Hand

end
-- ==== Proof.KIRun.lean ====
import proofs.«425603_j57767310131732_3_alg».proof.Proof.KIRegion0
import proofs.«425603_j57767310131732_3_alg».proof.Proof.KIRegion1
import proofs.«425603_j57767310131732_3_alg».proof.Proof.Gen.KernelIdeal.Regions

/-! # The run of @main through its two kernel regions

@main is four items in a row: the first kernel region (the sums of squared differences, one per grid point), a
stretch of host operations (the first square root and the three 0/1 tables), the second kernel region (the sum of
`relu(P)^2` and the pairwise term), and a last stretch of host operations (the second square root and the final sum).

This module follows the TensorCore's unscoped buffers through those four items. Their contents at the five
boundaries are a fold from the launch memory: a kernel region replaces the contents of its windows' arrays by what
its write-backs leave and keeps every other buffer; a host stretch rewrites the buffers its operations write, in
order. No item writes an argument array, so read at an argument the fold walks back to the launch memory. Each item
is then a step between two consecutive boundaries' thread states ("every unscoped buffer held whole at the
boundary's contents, the generator register at some state, nothing owed"), the steps chain, and the launch rule for
a sequence of such steps gives: every weakly fair execution terminates, and the final memory holds every unscoped
buffer at the last boundary's contents. Everything is stated for an arbitrary float family. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- At launch: the memory the run starts from. -/
abbrev W0 : Dev nD → Valuation τ sig (Elt F) := fun c b => (s₀ m ρ).mem ((c : Dev nD), b)
/-- The same, read at the TensorCore's references: what the first region's proof data are stated at. -/
abbrev V0 : (c : Dev nD) → (b : Ref sig .tc) → Buf (Elt F) ((c : Thread nD τ).loc b) := fun c b => W0 m ρ c b
/-- After the first region: its three arrays at what the write-backs of the 8 grid points leave (the two inputs as
    they were, the output with every slab written), every other buffer as at launch. -/
def W1 (c : Dev nD) : Valuation τ sig (Elt F) :=
  Pipeline.withArrays spec0 c (W0 m ρ c) fun w => (dat0 (V0 m ρ) c).arrAt w cfg0.N
/-- Read at one of the region's arrays, the new contents; -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- read anywhere else, the old ones. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch. -/
abbrev W2 : Dev nD → Valuation τ sig (Elt F) := fun c => StableHlo.after hostOps1 (W1 m ρ c)
/-- The same, read at the TensorCore's references: what the second region's proof data are stated at. -/
abbrev V2 : (c : Dev nD) → (b : Ref sig .tc) → Buf (Elt F) ((c : Thread nD τ).loc b) := fun c b => W2 m ρ c b
/-- After the second region: its seven arrays at what the write-backs of the 4 grid points leave (the five inputs as
    they were, the two 1 x 1 outputs written), every other buffer as the region found it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: what the run ends with. -/
abbrev W4 : Dev nD → Valuation τ sig (Elt F) := fun c => StableHlo.after hostOps2 (W3 m ρ c)

/-! ### No item writes an argument

A host stretch keeps every buffer that is not the result of one of its operations, and every result is a fresh
intermediate, never an argument. A region keeps every buffer that is not one of its arrays, and an array that is an
INPUT window's is left as found, since only output windows are written back. The arguments are either no region's
array (the scalar weight, the two index vectors) or input windows (the two 4096 x 4096 operands in the first region;
P and S in the second). -/

/-- A host stretch step of the walk back. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h
/-- An input window's array through the first region, -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))
/-- and through the second. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := W1_in m ρ c 0 rfl
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_in m ρ c 1 rfl
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := W3_in m ρ c 0 rfl
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of m ρ c main_arg4 (by decide)
    _ = W2 m ρ c (Proc.devRef .tc main_arg4) := W3_in m ρ c 2 rfl
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of m ρ c main_arg5 (by decide)
    _ = W2 m ρ c (Proc.devRef .tc main_arg5) := W3_of_ne m ρ c main_arg5 (by decide)
    _ = W1 m ρ c (Proc.devRef .tc main_arg5) := W2_of m ρ c main_arg5 (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of m ρ c main_arg6 (by decide)
    _ = W2 m ρ c (Proc.devRef .tc main_arg6) := W3_of_ne m ρ c main_arg6 (by decide)
    _ = W1 m ρ c (Proc.devRef .tc main_arg6) := W2_of m ρ c main_arg6 (by decide)
    _ = W0 m ρ c (Proc.devRef .tc main_arg6) := W1_of_ne m ρ c main_arg6 (by decide)
    _ = m ((c : Thread nD τ).loc main_arg6) := rfl

/-! ## The proof data family and the thread state -/

/-- Neither pipeline prefetches a table: the admissible contents are the trivial ones. -/
abbrev adm : (p : Fin 2) → (pcfgs (F := F) p).Adm := fun p => (cfgs p).toPCfg_adm
/-- Each pipeline's proof data, taken at the contents its region is entered with: the launch memory for the first,
    the contents after the first host stretch for the second. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core waits on another: no level is assigned. -/
abbrev L : GSem nD τ sig → Finset Unit := fun _ => ∅
abbrev lv : GSem nD τ sig → Unit → ℕ := fun _ _ => 0
/-- What travels beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a step: from the unscoped buffers at `W` to the same buffers after the operations, `R` beside. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as steps

A region's step has four parts. ENTRY: out of "every unscoped buffer at the entry contents" come the region's own
arrays (at the contents its proof data name) and the rest, which bypasses the region; the generator register is set
aside for the invariant. IN: the register and the scoped buffers no window stages make the invariant at the first
grid point. OUT: the invariant at the last grid point gives them back. EXIT: the arrays, now at what the write-backs
left, rejoin the bypassing rest as "every unscoped buffer at the exit contents". For the first region the invariant
is the same at every point (the scoped rest and the register, untouched). For the second it is not, since it follows
the accumulator the body keeps in scratch memory between grid points; its first and last instances are related to the
plain form by the region's own two lemmas. -/

set_option backward.isDefEq.respectTransparency.types false in
/-- The first kernel region: from every unscoped buffer at `W0` to every unscoped buffer at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region: from every unscoped buffer at `W2` to every unscoped buffer at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as steps, and the launch -/

/-- @main's four items in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The last link of the chain: what the last host stretch leaves is the last thread state beside the core owing nothing
    (the same three conjuncts, bracketed the other way). -/
theorem last_link (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO
/-- @main is the run of those items. -/
theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- THE RUN. From any memory with zero counters, every weakly fair execution of @main on the TensorCores terminates,
    nothing faulting, and the final memory holds every unscoped buffer at the last boundary's contents `W4`: the launch
    makes the first thread state on every core, the four steps chain from it to the last, and the last is read against
    the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends holding what it was launched with, since the last boundary's contents at an
    argument are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.Spec.lean ====
/-
  The mathematics both programs compute, stated once over the extended reals.

  For matrices a, b (4096 x 4096), a scalar lam, P (2048 x 2048), S (2048 x 1024) and two lists ii, jj of 128 row
  numbers, the loss is

      sqrt (sum_{r,c} (a - b)^2)  +  lam * ( sqrt (sum_{r,c} relu(P)^2)  +  sum_{x,y} relu(P)[ii x, jj y] * || S[ii x] - S[jj y] || ).

  A row number is an integer word read signed and clamped into [0, 2047] (rowOf): for a word already in that range it is
  the word's value, and that is the only range in which the two programs are compared.
-/
import Idealize.ShloMosaic.PureOps.Ideal
import Idealize.ShloMosaic.Lib.ValueIdx

noncomputable section

namespace Cert.Spec

open Idealize.ShloMosaic Idealize.ShloMosaic.ValueIdx

/-- A matrix of extended reals with literal extents. -/
abbrev Mat (n0 n1 : Nat) : Type := (⟨2, ![n0, n1]⟩ : Shape).Idx → EReal

/-- A list of 128 integer words. -/
abbrev Words : Type := (⟨1, ![128]⟩ : Shape).Idx → BitVec 32

/-- The row a word names: its signed value clamped into [0, 2047]. -/
def rowOf (v : BitVec 32) : Fin 2048 := ⟨min v.toInt.toNat 2047, by omega⟩

/-- A word is a row number of a 2048-row matrix. -/
def InRange (v : BitVec 32) : Prop := 0 ≤ v.toInt ∧ v.toInt < 2048

/-- The sum of the squared entries of a - b. -/
def sqDiff (a b : Mat 4096 4096) : EReal :=
  ∑ r : Fin 4096, ∑ c : Fin 4096, (a (ix2 r c) - b (ix2 r c)) * (a (ix2 r c) - b (ix2 r c))

/-- The sum of the squared entries of relu(P). -/
def reluSq (P : Mat 2048 2048) : EReal :=
  ∑ r : Fin 2048, ∑ c : Fin 2048, max (P (ix2 r c)) 0 * max (P (ix2 r c)) 0

/-- The squared distance between rows i and j of S. -/
def dist2 (S : Mat 2048 1024) (i j : Fin 2048) : EReal :=
  ∑ d : Fin 1024, (S (ix2 i d) - S (ix2 j d)) * (S (ix2 i d) - S (ix2 j d))

/-- The pairwise term: over the 128 x 128 pairs, relu(P) at the pair times the distance of the two rows of S. -/
def pairPen (P : Mat 2048 2048) (S : Mat 2048 1024) (ii jj : Words) : EReal :=
  ∑ x : Fin 128, ∑ y : Fin 128,
    max (P (ix2 (rowOf (ii (ix1 x))) (rowOf (jj (ix1 y))))) 0
      * Ideal.sqrt (dist2 S (rowOf (ii (ix1 x))) (rowOf (jj (ix1 y))))

/-- The loss. -/
def total (a b : Mat 4096 4096) (lam : EReal) (P : Mat 2048 2048) (S : Mat 2048 1024) (ii jj : Words) : EReal :=
  Ideal.sqrt (sqDiff a b) + lam * (Ideal.sqrt (reluSq P) + pairPen P S ii jj)

/-- The table with a one at (x, k) exactly when word x of the list is the number k. -/
def onehot (ww : Words) : Mat 128 2048 := fun j => if ww (ix1 (j 0)) = BitVec.ofNat 32 (j 1).val then 1 else 0

/-- The table with a one at (x, y) exactly when word x of the first list is word y of the second. -/
def eqmask (ii jj : Words) : Mat 128 128 := fun j => if ii (ix1 (j 0)) = jj (ix1 (j 1)) then 1 else 0

/-- Rows of S selected by a 0/1 table through a matrix product: entry (x, d) of table * S. -/
def rowsK (oh : Mat 128 2048) (S : Mat 2048 1024) (x : Fin 128) (d : Fin 1024) : EReal :=
  ∑ k : Fin 2048, oh (ix2 x k) * S (ix2 k d)

/-- The pairwise term in the form a matrix unit computes it: rows selected by products with 0/1 tables, the squared
    distance expanded as |u|^2 + |v|^2 - 2 u.v and clipped at zero, the root masked where the two words coincide. -/
def pairK (S : Mat 2048 1024) (oi oj : Mat 128 2048) (eq : Mat 128 128) (acc : Mat 128 2048) : EReal :=
  ∑ x : Fin 128, ∑ y : Fin 128,
    max (∑ k : Fin 2048, acc (ix2 x k) * oj (ix2 y k)) 0
      * (Ideal.sqrt (max (((∑ d : Fin 1024, rowsK oi S x d * rowsK oi S x d) + (∑ d : Fin 1024, rowsK oj S y d * rowsK oj S y d))
            - 2 * ∑ d : Fin 1024, rowsK oi S x d * rowsK oj S y d) 0)
          * (1 - eq (ix2 x y)))

/-- Every entry of a matrix is a real number. -/
def Finite {n0 n1 : Nat} (x : Mat n0 n1) : Prop := ∀ i, ∃ r : ℝ, x i = (r : EReal)

end Cert.Spec

end
-- ==== Proof.KIHost.lean ====
/-
  What the kernel program's two stretches of tensor operations compute, at the extended reals, from ANY contents of the
  buffers they read.

  The first stretch (between the two kernel calls) takes the eight partial sums of squares the first call left, adds them
  and takes the root; and it builds three 0/1 tables from the two lists of 128 row numbers: the table with a one at
  (x, k) where word x of a list is the number k (one per list), and the table with a one at (x, y) where word x of the
  first list is word y of the second. The second stretch (after the second call) takes the root of the first scalar the
  call left, adds the second, scales by the weight and adds the first stretch's root.
-/
import proofs.«425603_j57767310131732_3_alg».proof.Proof.Gen.KernelIdeal.Regions
import proofs.«425603_j57767310131732_3_alg».proof.Proof.Spec
import Idealize.ShloMosaic.Lib.StableHlo.Predicate
import Idealize.ShloMosaic.Lib.ValueIdx
import Idealize.ShloMosaic.Lib.ValueLayout
import Idealize.ShloMosaic.PureOps.Ideal.Laws

noncomputable section

namespace Cert.KernelIdeal.HostVal

open Idealize.ShloMosaic Idealize.ShloMosaic.TcCoe Idealize.ShloMosaic.ValueIdx
open Cert.KernelIdeal Cert.KernelIdeal.Gen

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index (p, q) of a rectangle, spelt either way. -/
theorem ij_eq_ix2 {n m : Nat} (p : Fin n) (q : Fin m) : StableHlo.Predicate.ij p q = ix2 p q := by
  funext d; match d with | ⟨0, _⟩ => rfl | ⟨1, _⟩ => rfl

/-- The index p of a vector, spelt either way. -/
theorem ofFin_eq_ix1 {n : Nat} (p : Fin n) : Shape.Idx.ofFin p = ix1 p := by
  funext d; match d with | ⟨0, _⟩ => rfl

/-- Comparing two words for equality and reading the resulting bit as a number gives one where they agree and zero
    where they differ. -/
theorem uitofp_cmpi_eq (a c : BitVec 32) :
    (FloatOps.uitofp (F := Ideal) .f32 (IntOp.cmpi .eq a c) : EReal) = if a = c then 1 else 0 := by
  by_cases h : a = c
  · rw [if_pos h, StableHlo.Predicate.cmpi_eq_iff.mpr h]
    show (((1#1 : BitVec 1).toNat : ℝ) : EReal) = 1
    simp
  · rw [if_neg h, eq_zero_of_ne_one (mt StableHlo.Predicate.cmpi_eq_iff.mp h)]
    show (((0#1 : BitVec 1).toNat : ℝ) : EReal) = 0
    simp

/-- The contents of every buffer the stretches can see. -/
abbrev Val : Type := Valuation τ sig (Elt Ideal)

/-- The eight partial sums the first call left, one per grid point, each repeated along 128 lanes. -/
abbrev partials (W : Val) : S8x1x128.Idx → EReal := W (Proc.devRef .tc main_v0)
/-- The root of the first term, as the first stretch leaves it. -/
abbrev rootA (W : Val) : S_.Idx → EReal := W (Proc.devRef .tc main_v4)
/-- The weight of the second term. -/
abbrev weight (W : Val) : S_.Idx → EReal := W (Proc.devRef .tc main_arg2)
/-- The first scalar the second call leaves: the sum of the squared positive parts. -/
abbrev outSq (W : Val) : S1x1.Idx → EReal := W (Proc.devRef .tc main_v24_0)
/-- The second scalar the second call leaves: the pairwise term. -/
abbrev outPair (W : Val) : S1x1.Idx → EReal := W (Proc.devRef .tc main_v24_1)
/-- The first list of row numbers. -/
abbrev wordsI (W : Val) : Cert.Spec.Words := W (Proc.devRef .tc main_arg5)
/-- The second list of row numbers. -/
abbrev wordsJ (W : Val) : Cert.Spec.Words := W (Proc.devRef .tc main_arg6)

/-- The table the first stretch builds from the first list: at (x, k) it compares word x, repeated along the row, with
    the position k, repeated down the column, and reads the outcome as a number: one exactly where word x is k. -/
theorem v11_apply (W : Val) (x : Fin 128) (k : Fin 2048) :
    (StableHlo.after (hostOps1 (F := Ideal)) W (Proc.devRef .tc main_v11) : S128x2048.Idx → EReal) (ix2 x k)
      = Cert.Spec.onehot (wordsI W) (ix2 x k) := by
  after_results
  show FloatOps.uitofp (F := Ideal) .f32 (IntOp.cmpi .eq
      (broadcastInDim S128x2048 ![0, 1] bcast_S128x1_S128x2048_0_1 (broadcastInDim S128x1 ![0] bcast_S128_S128x1_0 (wordsI W)) (ix2 x k))
      (broadcastInDim S128x2048 ![0, 1] bcast_S1x2048_S128x2048_0_1 (broadcastInDim S1x2048 ![1] bcast_S2048_S1x2048_1 (iotaInDim S2048 32 0)) (ix2 x k))) = _
  rw [uitofp_cmpi_eq, ← ij_eq_ix2, StableHlo.Predicate.bcast_rows, StableHlo.Predicate.bcast_cols, StableHlo.Predicate.iota_apply, ofFin_eq_ix1]
  rfl

/-- The same table from the second list. -/
theorem v17_apply (W : Val) (x : Fin 128) (k : Fin 2048) :
    (StableHlo.after (hostOps1 (F := Ideal)) W (Proc.devRef .tc main_v17) : S128x2048.Idx → EReal) (ix2 x k)
      = Cert.Spec.onehot (wordsJ W) (ix2 x k) := by
  after_results
  show FloatOps.uitofp (F := Ideal) .f32 (IntOp.cmpi .eq
      (broadcastInDim S128x2048 ![0, 1] bcast_S128x1_S128x2048_0_1 (broadcastInDim S128x1 ![0] bcast_S128_S128x1_0 (wordsJ W)) (ix2 x k))
      (broadcastInDim S128x2048 ![0, 1] bcast_S1x2048_S128x2048_0_1 (broadcastInDim S1x2048 ![1] bcast_S2048_S1x2048_1 (iotaInDim S2048 32 0)) (ix2 x k))) = _
  rw [uitofp_cmpi_eq, ← ij_eq_ix2, StableHlo.Predicate.bcast_rows, StableHlo.Predicate.bcast_cols, StableHlo.Predicate.iota_apply, ofFin_eq_ix1]
  rfl

/-- The table of coincidences: at (x, y) word x of the first list, repeated along the row, is compared with word y of
    the second, repeated down the column: one exactly where the two words are equal. -/
theorem v23_apply (W : Val) (x y : Fin 128) :
    (StableHlo.after (hostOps1 (F := Ideal)) W (Proc.devRef .tc main_v23) : S128x128.Idx → EReal) (ix2 x y)
      = Cert.Spec.eqmask (wordsI W) (wordsJ W) (ix2 x y) := by
  after_results
  show FloatOps.uitofp (F := Ideal) .f32 (IntOp.cmpi .eq
      (broadcastInDim S128x128 ![0, 1] bcast_S128x1_S128x128_0_1 (broadcastInDim S128x1 ![0] bcast_S128_S128x1_0 (wordsI W)) (ix2 x y))
      (broadcastInDim S128x128 ![0, 1] bcast_S1x128_S128x128_0_1 (broadcastInDim S1x128 ![1] bcast_S128_S1x128_1 (wordsJ W)) (ix2 x y))) = _
  rw [uitofp_cmpi_eq, ← ij_eq_ix2, StableHlo.Predicate.bcast_rows, StableHlo.Predicate.bcast_cols, ofFin_eq_ix1, ofFin_eq_ix1]
  rfl

/-- The first term's root: lane 0 of each of the eight partial sums is kept, the eight are added from zero, and the
    root of the total is taken. -/
theorem v4_eq (W : Val) :
    (StableHlo.after (hostOps1 (F := Ideal)) W (Proc.devRef .tc main_v4) : S_.Idx → EReal)
      = fun _ => Ideal.sqrt (∑ t : Fin 8, partials W (ix3 t (0 : Fin 1) (0 : Fin 128))) := by
  after_results
  funext j
  show Ideal.sqrt (Ideal.hostReduceAdd reducesTo_S8_S_d0
      (shapeCast S8 (extractStridedSlice S8x1x1 ![0, 0, 0] (partials W) slices_S8x1x128_S8x1x1_0_0_0) shapeCasts_S8x1x1_S8)
      (Ideal.ofBits .f32 0x00000000#32) j) = _
  rw [Ideal.hostReduceAdd_total reducesTo_S8_S_d0 (fun b => b.elim0), Ideal.ofBits_zero_f32, zero_add]
  refine congrArg Ideal.sqrt ?_
  rw [sum_idx1]
  refine Finset.sum_congr rfl fun t _ => ?_
  refine (shapeCast_apply _ shapeCasts_S8x1x1_S8 (ix1 t) (ix3 t (0 : Fin 1) (0 : Fin 1)) ?_).trans ?_
  · rw [Shape.rowMajor_val_three, Shape.rowMajor_val_one]
    show (t.val * 1 + 0) * 1 + 0 = t.val
    omega
  · refine extractStridedSlice_apply ![0, 0, 0] (partials W) slices_S8x1x128_S8x1x1_0_0_0 (ix3 t (0 : Fin 1) (0 : Fin 1))
      (ix3 t (0 : Fin 1) (0 : Fin 128)) fun a => ?_
    match a with
    | ⟨0, _⟩ => exact (Nat.zero_add _).symm
    | ⟨1, _⟩ => rfl
    | ⟨2, _⟩ => rfl

/-- The first stretch leaves every buffer it does not write as it found it. -/
theorem hostOps1_keeps (W : Val) (r : Ref sig .tc) (h : r ∉ hostOps1_W) :
    StableHlo.after (hostOps1 (F := Ideal)) W (Proc.devRef .tc r) = W (Proc.devRef .tc r) :=
  StableHlo.after_of_writes_sub hostOps1 W hostOps1_writes h

/-- So the first stretch changes none of the inputs it reads, nor the partial sums. -/
theorem partials_after1 (W : Val) : partials (StableHlo.after (hostOps1 (F := Ideal)) W) = partials W :=
  hostOps1_keeps W main_v0 (by decide)
theorem weight_after1 (W : Val) : weight (StableHlo.after (hostOps1 (F := Ideal)) W) = weight W :=
  hostOps1_keeps W main_arg2 (by decide)
theorem wordsI_after1 (W : Val) : wordsI (StableHlo.after (hostOps1 (F := Ideal)) W) = wordsI W :=
  hostOps1_keeps W main_arg5 (by decide)
theorem wordsJ_after1 (W : Val) : wordsJ (StableHlo.after (hostOps1 (F := Ideal)) W) = wordsJ W :=
  hostOps1_keeps W main_arg6 (by decide)

/-- The second stretch leaves every buffer it does not write as it found it. -/
theorem hostOps2_keeps (W : Val) (r : Ref sig .tc) (h : r ∉ hostOps2_W) :
    StableHlo.after (hostOps2 (F := Ideal)) W (Proc.devRef .tc r) = W (Proc.devRef .tc r) :=
  StableHlo.after_of_writes_sub hostOps2 W hostOps2_writes h

/-- The result: the root of the first scalar the second call left, plus the second scalar, times the weight, plus the
    first term's root. -/
theorem v30_eq (W : Val) :
    (StableHlo.after (hostOps2 (F := Ideal)) W (Proc.devRef .tc main_v30) : S_.Idx → EReal)
      = fun _ => rootA W ix0
          + weight W ix0 * (Ideal.sqrt (outSq W (ix2 (0 : Fin 1) (0 : Fin 1))) + outPair W (ix2 (0 : Fin 1) (0 : Fin 1))) := by
  after_results
  funext j
  show rootA W j + weight W j * (Ideal.sqrt (shapeCast S_ (outSq W) shapeCasts_S1x1_S_ j) + shapeCast S_ (outPair W) shapeCasts_S1x1_S_ j) = _
  obtain rfl := eq_ix0 j
  rw [shapeCast_apply (outSq W) shapeCasts_S1x1_S_ ix0 (ix2 (0 : Fin 1) (0 : Fin 1)) (by decide),
    shapeCast_apply (outPair W) shapeCasts_S1x1_S_ ix0 (ix2 (0 : Fin 1) (0 : Fin 1)) (by decide)]

end Cert.KernelIdeal.HostVal

end
-- ==== Proof.KIValCommon.lean ====
import proofs.«425603_j57767310131732_3_alg».proof.Proof.KIRun
import proofs.«425603_j57767310131732_3_alg».proof.Proof.KIHost
import proofs.«425603_j57767310131732_3_alg».proof.Proof.Spec

/-! # How the contents at the run's boundaries read, over the extended reals

The run of @main passes five boundaries: the launch, after the first kernel region, after the first stretch of host
operations, after the second kernel region, after the last stretch. This module reads the contents at the four later
boundaries at the buffers the value of the result depends on, each reading one small equation:

* an argument array holds its launch contents at every boundary (no item writes one);
* after the first region, the array of partial sums holds what the region's eight write-backs left;
* after the first host stretch, the first root is the root of the sum of the eight partial sums (lane 0 of each), and the
  three 0/1 tables are the tables of the two lists of row numbers as launched;
* after the second region, the first root and the weight are untouched and the two 1 x 1 results hold what the region's
  write-backs left;
* after the last host stretch, the result is the first root plus the weight times (the root of the first 1 x 1 result
  plus the second). -/

noncomputable section

namespace Cert.KernelIdeal.Value1

open Idealize.ShloMosaic Idealize.ShloMosaic.TcCoe Idealize.ShloMosaic.ValueIdx
open Cert.KernelIdeal Cert.KernelIdeal.Gen Cert.KernelIdeal.HostVal
open Cert.KernelIdeal.Hand (W0 W1 W2 W3 W4 dat0 dat1)

variable (m : (ℓ : Loc nD τ sig) → Buf (Elt Ideal) ℓ) (ρ : Dev nD → PrngReg) (c : Dev nD)

/-! ## After the first kernel region -/

/-- The two 4096 x 4096 operands are input windows' arrays of the first region: read, never written back. -/
theorem W1_arg0 : W1 m ρ c (Proc.devRef .tc main_arg0) = m ((c.tc : Thread nD τ).loc main_arg0) :=
  Hand.W1_in m ρ c 0 rfl
theorem W1_arg1 : W1 m ρ c (Proc.devRef .tc main_arg1) = m ((c.tc : Thread nD τ).loc main_arg1) :=
  Hand.W1_in m ρ c 1 rfl
/-- The other five arguments are no array of the first region. -/
theorem W1_arg2 : W1 m ρ c (Proc.devRef .tc main_arg2) = m ((c.tc : Thread nD τ).loc main_arg2) :=
  Hand.W1_of_ne m ρ c main_arg2 (by decide)
theorem W1_arg3 : W1 m ρ c (Proc.devRef .tc main_arg3) = m ((c.tc : Thread nD τ).loc main_arg3) :=
  Hand.W1_of_ne m ρ c main_arg3 (by decide)
theorem W1_arg4 : W1 m ρ c (Proc.devRef .tc main_arg4) = m ((c.tc : Thread nD τ).loc main_arg4) :=
  Hand.W1_of_ne m ρ c main_arg4 (by decide)
theorem W1_arg5 : W1 m ρ c (Proc.devRef .tc main_arg5) = m ((c.tc : Thread nD τ).loc main_arg5) :=
  Hand.W1_of_ne m ρ c main_arg5 (by decide)
theorem W1_arg6 : W1 m ρ c (Proc.devRef .tc main_arg6) = m ((c.tc : Thread nD τ).loc main_arg6) :=
  Hand.W1_of_ne m ρ c main_arg6 (by decide)
/-- The array of partial sums is the region's output window's: it holds what the eight write-backs left. -/
theorem W1_v0 : W1 m ρ c (Proc.devRef .tc main_v0) = (dat0 (Hand.V0 m ρ) c).arrAt 2 cfg0.N :=
  Hand.W1_arr m ρ c 2
/-- The first region is entered at the launch memory. -/
theorem V0_arg0 : Hand.V0 m ρ c main_arg0 = m ((c.tc : Thread nD τ).loc main_arg0) := rfl
theorem V0_arg1 : Hand.V0 m ρ c main_arg1 = m ((c.tc : Thread nD τ).loc main_arg1) := rfl

/-! ## After the first host stretch -/

/-- No operation of the stretch has an argument as its result. -/
theorem W2_arg0 : W2 m ρ c (Proc.devRef .tc main_arg0) = m ((c.tc : Thread nD τ).loc main_arg0) :=
  (Hand.W2_of m ρ c main_arg0 (by decide)).trans (W1_arg0 m ρ c)
theorem W2_arg1 : W2 m ρ c (Proc.devRef .tc main_arg1) = m ((c.tc : Thread nD τ).loc main_arg1) :=
  (Hand.W2_of m ρ c main_arg1 (by decide)).trans (W1_arg1 m ρ c)
theorem W2_arg2 : W2 m ρ c (Proc.devRef .tc main_arg2) = m ((c.tc : Thread nD τ).loc main_arg2) :=
  (Hand.W2_of m ρ c main_arg2 (by decide)).trans (W1_arg2 m ρ c)
theorem W2_arg3 : W2 m ρ c (Proc.devRef .tc main_arg3) = m ((c.tc : Thread nD τ).loc main_arg3) :=
  (Hand.W2_of m ρ c main_arg3 (by decide)).trans (W1_arg3 m ρ c)
theorem W2_arg4 : W2 m ρ c (Proc.devRef .tc main_arg4) = m ((c.tc : Thread nD τ).loc main_arg4) :=
  (Hand.W2_of m ρ c main_arg4 (by decide)).trans (W1_arg4 m ρ c)
theorem W2_arg5 : W2 m ρ c (Proc.devRef .tc main_arg5) = m ((c.tc : Thread nD τ).loc main_arg5) :=
  (Hand.W2_of m ρ c main_arg5 (by decide)).trans (W1_arg5 m ρ c)
theorem W2_arg6 : W2 m ρ c (Proc.devRef .tc main_arg6) = m ((c.tc : Thread nD τ).loc main_arg6) :=
  (Hand.W2_of m ρ c main_arg6 (by decide)).trans (W1_arg6 m ρ c)

/-- The first root, over the array of partial sums as the first region left it: lane 0 of each of the eight slabs, added,
    and the root taken. -/
theorem W2_v4_W1 :
    (W2 m ρ c (Proc.devRef .tc main_v4) : S_.Idx → EReal)
      = fun _ => Ideal.sqrt (∑ t : Fin 8, (W1 m ρ c (Proc.devRef .tc main_v0) : S8x1x128.Idx → EReal) (ix3 t (0 : Fin 1) (0 : Fin 128))) :=
  v4_eq (W1 m ρ c)
/-- The same with the array of partial sums named as what the eight write-backs left. -/
theorem W2_v4 :
    (W2 m ρ c (Proc.devRef .tc main_v4) : S_.Idx → EReal)
      = fun _ => Ideal.sqrt (∑ t : Fin 8, ((dat0 (Hand.V0 m ρ) c).arrAt 2 cfg0.N : S8x1x128.Idx → EReal) (ix3 t (0 : Fin 1) (0 : Fin 128))) := by
  rw [W2_v4_W1, W1_v0]

/-- The first 0/1 table: a one at (x, k) exactly where word x of the first list, as launched, is the number k. -/
theorem W2_v11 :
    (W2 m ρ c (Proc.devRef .tc main_v11) : Cert.Spec.Mat 128 2048) = Cert.Spec.onehot (m ((c.tc : Thread nD τ).loc main_arg5)) := by
  refine funext fun (j : (⟨2, ![128, 2048]⟩ : Shape).Idx) => ?_
  rw [eq_ix2 j]
  exact (v11_apply (W1 m ρ c) (j 0) (j 1)).trans
    (congrArg (fun ww : Cert.Spec.Words => Cert.Spec.onehot ww (ix2 (j 0) (j 1))) (W1_arg5 m ρ c))
/-- The second: the same of the second list. -/
theorem W2_v17 :
    (W2 m ρ c (Proc.devRef .tc main_v17) : Cert.Spec.Mat 128 2048) = Cert.Spec.onehot (m ((c.tc : Thread nD τ).loc main_arg6)) := by
  refine funext fun (j : (⟨2, ![128, 2048]⟩ : Shape).Idx) => ?_
  rw [eq_ix2 j]
  exact (v17_apply (W1 m ρ c) (j 0) (j 1)).trans
    (congrArg (fun ww : Cert.Spec.Words => Cert.Spec.onehot ww (ix2 (j 0) (j 1))) (W1_arg6 m ρ c))
/-- The third: a one at (x, y) exactly where word x of the first list is word y of the second. -/
theorem W2_v23 :
    (W2 m ρ c (Proc.devRef .tc main_v23) : Cert.Spec.Mat 128 128)
      = Cert.Spec.eqmask (m ((c.tc : Thread nD τ).loc main_arg5)) (m ((c.tc : Thread nD τ).loc main_arg6)) := by
  refine funext fun (j : (⟨2, ![128, 128]⟩ : Shape).Idx) => ?_
  rw [eq_ix2 j]
  exact (v23_apply (W1 m ρ c) (j 0) (j 1)).trans
    (congrArg₂ (fun a b : Cert.Spec.Words => Cert.Spec.eqmask a b (ix2 (j 0) (j 1))) (W1_arg5 m ρ c) (W1_arg6 m ρ c))

/-- The same facts at a TensorCore reference, as the second region's proof data read its entry contents. -/
theorem V2_arg3 : Hand.V2 m ρ c main_arg3 = m ((c.tc : Thread nD τ).loc main_arg3) := W2_arg3 m ρ c
theorem V2_arg4 : Hand.V2 m ρ c main_arg4 = m ((c.tc : Thread nD τ).loc main_arg4) := W2_arg4 m ρ c
theorem V2_v11 : (Hand.V2 m ρ c main_v11 : Cert.Spec.Mat 128 2048) = Cert.Spec.onehot (m ((c.tc : Thread nD τ).loc main_arg5)) :=
  W2_v11 m ρ c
theorem V2_v17 : (Hand.V2 m ρ c main_v17 : Cert.Spec.Mat 128 2048) = Cert.Spec.onehot (m ((c.tc : Thread nD τ).loc main_arg6)) :=
  W2_v17 m ρ c
theorem V2_v23 : (Hand.V2 m ρ c main_v23 : Cert.Spec.Mat 128 128)
    = Cert.Spec.eqmask (m ((c.tc : Thread nD τ).loc main_arg5)) (m ((c.tc : Thread nD τ).loc main_arg6)) :=
  W2_v23 m ρ c

/-! ## After the second kernel region -/

/-- The first root is no array of the second region; -/
theorem W3_v4 : W3 m ρ c (Proc.devRef .tc main_v4) = W2 m ρ c (Proc.devRef .tc main_v4) :=
  Hand.W3_of_ne m ρ c main_v4 (by decide)
/-- nor is the weight. -/
theorem W3_arg2 : W3 m ρ c (Proc.devRef .tc main_arg2) = m ((c.tc : Thread nD τ).loc main_arg2) :=
  (Hand.W3_of_ne m ρ c main_arg2 (by decide)).trans (W2_arg2 m ρ c)
/-- The two 1 x 1 results are the region's output windows' arrays: they hold what the write-backs left. -/
theorem W3_v24_0 : W3 m ρ c (Proc.devRef .tc main_v24_0) = (dat1 (Hand.V2 m ρ) c).arrAt 5 cfg1.N :=
  Hand.W3_arr m ρ c 5
theorem W3_v24_1 : W3 m ρ c (Proc.devRef .tc main_v24_1) = (dat1 (Hand.V2 m ρ) c).arrAt 6 cfg1.N :=
  Hand.W3_arr m ρ c 6

/-- The same four readings through the typed readers of the host stretches' account: the first root, the weight and
    the two 1 x 1 results, each as a function on its index set. -/
theorem rootA_W3 : rootA (W3 m ρ c)
    = fun _ => Ideal.sqrt (∑ t : Fin 8, ((dat0 (Hand.V0 m ρ) c).arrAt 2 cfg0.N : S8x1x128.Idx → EReal) (ix3 t (0 : Fin 1) (0 : Fin 128))) :=
  (W3_v4 m ρ c).trans (W2_v4 m ρ c)
theorem weight_W3 : weight (W3 m ρ c) = weight (W0 m ρ c) := W3_arg2 m ρ c
theorem outSq_W3 : outSq (W3 m ρ c) = (dat1 (Hand.V2 m ρ) c).arrAt 5 cfg1.N := W3_v24_0 m ρ c
theorem outPair_W3 : outPair (W3 m ρ c) = (dat1 (Hand.V2 m ρ) c).arrAt 6 cfg1.N := W3_v24_1 m ρ c

/-! ## After the last host stretch -/

/-- The result: the first root, plus the weight as launched times the sum of the root of the first 1 x 1 result and
    the second 1 x 1 result (the readers are those of the host stretches' account: `rootA W` is `W` at the first root's
    buffer, `weight W` at the weight's, `outSq W` and `outPair W` at the two results'). -/
theorem W4_v30 :
    (W4 m ρ c (Proc.devRef .tc main_v30) : S_.Idx → EReal)
      = fun _ => rootA (W3 m ρ c) ix0 + weight (W0 m ρ c) ix0
          * (Ideal.sqrt (outSq (W3 m ρ c) (ix2 (0 : Fin 1) (0 : Fin 1))) + outPair (W3 m ρ c) (ix2 (0 : Fin 1) (0 : Fin 1))) := by
  refine (v30_eq (W3 m ρ c)).trans ?_
  rw [weight_W3]

end Cert.KernelIdeal.Value1

end
-- ==== Proof.KIArrays.lean ====
/-
  What the arrays hold after each of the two kernel regions, read at an index.

  Region 0 walks 8 grid points; at point t its two input blocks are rows [512 t, 512 t + 512) of the two 4096 x 4096
  arguments, and its 1 x 1 x 128 output block is slab t of the 8 x 1 x 128 result. The slabs are pairwise apart, so
  after the run slab t holds exactly what point t wrote there.

  Region 1 walks 4 grid points; at point t its first input block is rows [512 t, 512 t + 512) of the 2048 x 2048
  argument, its other four inputs are whole arrays at every point, and its two 1 x 1 outputs are whole arrays written
  back once, at the last point. So after the run each of the two holds what the resident buffer held after point 3.

  A block's element sits in its array, on each axis, at (block index) x (block size) + (coordinate inside the block);
  the block indices are the printed index maps, evaluated once over each grid.
-/
import proofs.«425603_j57767310131732_3_alg».proof.Proof.KIRegion0
import proofs.«425603_j57767310131732_3_alg».proof.Proof.KIRegion1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Bounds over the two grids -/

/-- Region 0's grid has 8 points. -/
theorem pt0_lt (t : Fin cfg0.N) : t.val < 8 := by
  have h : cfg0.N = 8 := N_0
  have := t.isLt; omega

/-- Region 1's grid has 4 points. -/
theorem pt1_lt (t : Fin cfg1.N) : t.val < 4 := by
  have h : cfg1.N = 4 := N_1
  have := t.isLt; omega

/-- Row r of block t of a 4096-row array, 512 rows to the block. -/
theorem row0_lt (t : Fin cfg0.N) (r : Fin 512) : 512 * t.val + r.val < 4096 := by
  have := pt0_lt t; have := r.isLt; omega

/-- Row r of block t of a 2048-row array, 512 rows to the block. -/
theorem row1_lt (t : Fin cfg1.N) (r : Fin 512) : 512 * t.val + r.val < 2048 := by
  have := pt1_lt t; have := r.isLt; omega

/-- The last point of region 1's grid. -/
theorem last1_lt : 3 < cfg1.N := by
  have h : cfg1.N = 4 := N_1
  omega

/-! ## The block indices, evaluated over the grids -/

/-- Region 0: every window's block index is the point's number on the leading axis and zero on the others. -/
theorem arr_idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Region 0's output slabs: distinct points have distinct block indices. -/
theorem arr_idx0_2_inj : ∀ t t' : Fin cfg0.N, win0_2.index t = win0_2.index t' → t = t' :=
  (by decide +kernel : ∀ t t' : Fin grid0.N, win0_2.index t = win0_2.index t' → t = t')

/-- Region 1: the first window's block index is the point's number on the row axis; every other window's block index
    is zero on both axes at every point. -/
theorem arr_idx1 : ∀ t : Fin cfg1.N,
    win1_0.index t (0 : Fin 2) = t.val ∧ win1_0.index t (1 : Fin 2) = 0
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- The column offset of the one partial load at point t is 512 t; its row offset is zero. -/
theorem arr_off1 : ∀ t : Fin cfg1.N, k1_off1 (grid1.coords t) (0 : Fin 2) = 0 ∧ k1_off1 (grid1.coords t) (1 : Fin 2) = 512 * t.val :=
  (by decide +kernel : ∀ t : Fin grid1.N, _)

/-- A pair of offsets both zero is the zero function. -/
theorem arr_zero_off2 {f : Fin 2 → Nat} (h0 : f 0 = 0) (h1 : f 1 = 0) : f = fun _ => 0 :=
  funext fun a => match a with | ⟨0, _⟩ => h0 | ⟨1, _⟩ => h1

/-! ## Region 0 -/

/-- Region 0's first input block at point t is rows [512 t, 512 t + 512) of the first argument: entry (r, col) of the
    block is entry (512 t + r, col) of the array. -/
theorem iblk0_0_apply (c : Dev nD) (t : Fin cfg0.N) (r : Fin 512) (col : Fin 4096) :
    (iblk0 V c 0 t : Vec F S512x4096 .f32) (ix2 r col)
      = (V c main_arg0 : Vec F S4096x4096 .f32) (ix2 ⟨512 * t.val + r.val, row0_lt t r⟩ col) := by
  obtain ⟨e0, e1, -⟩ := arr_idx0 t
  unfold iblk0
  rw [View.read_apply]
  show V c main_arg0 _ = V c main_arg0 _
  congr 1
  funext a; apply Fin.ext
  match a with
  | ⟨0, _⟩ => show win0_0.index t (0 : Fin 2) * 512 + 1 * r.val = 512 * t.val + r.val; rw [e0]; omega
  | ⟨1, _⟩ => show win0_0.index t (1 : Fin 2) * 4096 + 1 * col.val = col.val; rw [e1]; omega

/-- The same for the second input block and the second argument. -/
theorem iblk0_1_apply (c : Dev nD) (t : Fin cfg0.N) (r : Fin 512) (col : Fin 4096) :
    (iblk0 V c 1 t : Vec F S512x4096 .f32) (ix2 r col)
      = (V c main_arg1 : Vec F S4096x4096 .f32) (ix2 ⟨512 * t.val + r.val, row0_lt t r⟩ col) := by
  obtain ⟨-, -, e0, e1, -⟩ := arr_idx0 t
  unfold iblk0
  rw [View.read_apply]
  show V c main_arg1 _ = V c main_arg1 _
  congr 1
  funext a; apply Fin.ext
  match a with
  | ⟨0, _⟩ => show win0_1.index t (0 : Fin 2) * 512 + 1 * r.val = 512 * t.val + r.val; rw [e0]; omega
  | ⟨1, _⟩ => show win0_1.index t (1 : Fin 2) * 4096 + 1 * col.val = col.val; rw [e1]; omega

/-- Two points' output slabs share no index. -/
theorem arr_disjoint0_2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (arr_idx0_2_inj t t' h)

/-- Where lane 0 of point t's slab sits in the 8 x 1 x 128 array: at (t, 0, 0). -/
theorem arr_slab_emb (t : Fin cfg0.N) :
    ((cfg0.win 2).blk t).view.emb (ix3 (0 : Fin 1) (0 : Fin 1) (0 : Fin 128) : S1x1x128.Idx)
      = (ix3 ⟨t.val, pt0_lt t⟩ (0 : Fin 1) (0 : Fin 128) : S8x1x128.Idx) := by
  obtain ⟨-, -, -, -, e0, e1, e2⟩ := arr_idx0 t
  funext a; apply Fin.ext
  match a with
  | ⟨0, _⟩ => show win0_2.index t (0 : Fin 3) * 1 + 1 * 0 = t.val; rw [e0]; omega
  | ⟨1, _⟩ => show win0_2.index t (1 : Fin 3) * 1 + 1 * 0 = 0; rw [e1]
  | ⟨2, _⟩ => show win0_2.index t (2 : Fin 3) * 128 + 1 * 0 = 0; rw [e2]

/-- After region 0, lane 0 of slab t of the 8 x 1 x 128 result holds lane 0 of what point t stored: the slabs are
    pairwise apart, so no other point overwrites it. -/
theorem out0_apply (c : Dev nD) (t : Fin cfg0.N) :
    ((dat0 V c).arrAt 2 cfg0.N : Vec F S8x1x128 .f32) (ix3 ⟨t.val, pt0_lt t⟩ (0 : Fin 1) (0 : Fin 128))
      = (k0_pay1 (iblk0 V c 0 t) (iblk0 V c 1 t) : Vec F S1x1x128 .f32) (ix3 (0 : Fin 1) (0 : Fin 1) (0 : Fin 128)) := by
  have h := (dat0 V c).arrAt_emb_eq_flushed 2 arr_disjoint0_2 t (flush0_2 t) (ix3 (0 : Fin 1) (0 : Fin 1) (0 : Fin 128) : S1x1x128.Idx)
  rw [arr_slab_emb t] at h
  refine h.trans ?_
  show (cfg0.win 2).cut (grid0.coords t) ((dat0 V c).after 2 t) _ = _
  rw [after0_2]
  rfl

/-! ## Region 1 -/

/-- Region 1's first input block at point t is rows [512 t, 512 t + 512) of the 2048 x 2048 argument. -/
theorem iblk1_0_apply (c : Dev nD) (t : Fin cfg1.N) (r : Fin 512) (k : Fin 2048) :
    (iblk1 V c 0 t : Vec F S512x2048 .f32) (ix2 r k)
      = (V c main_arg3 : Vec F S2048x2048 .f32) (ix2 ⟨512 * t.val + r.val, row1_lt t r⟩ k) := by
  obtain ⟨e0, e1, -⟩ := arr_idx1 t
  unfold iblk1
  rw [View.read_apply]
  show V c main_arg3 _ = V c main_arg3 _
  congr 1
  funext a; apply Fin.ext
  match a with
  | ⟨0, _⟩ => show win1_0.index t (0 : Fin 2) * 512 + 1 * r.val = 512 * t.val + r.val; rw [e0]; omega
  | ⟨1, _⟩ => show win1_0.index t (1 : Fin 2) * 2048 + 1 * k.val = k.val; rw [e1]; omega

/-- The first 0/1 table is handed to the kernel whole at every point: a block at index (0, 0) of the array's own size
    is the array. -/
theorem iblk1_1_eq (c : Dev nD) (t : Fin cfg1.N) :
    (iblk1 V c 1 t : Vec F S128x2048 .f32) = (V c main_v11 : Vec F S128x2048 .f32) := by
  obtain ⟨-, -, ⟨e0, e1⟩, -⟩ := arr_idx1 t
  have hz : (fun a => win1_1.index t a * main_v11.ty.shape.size a) = fun _ => 0 :=
    arr_zero_off2 (by show win1_1.index t (0 : Fin 2) * _ = 0; rw [e0, Nat.zero_mul]) (by show win1_1.index t (1 : Fin 2) * _ = 0; rw [e1, Nat.zero_mul])
  unfold iblk1
  exact Memref.read_access_unit_zero (Elt F) main_v11 hz (fun a => by rw [congrFun hz a]; simp) (V c main_v11)

/-- The matrix S is handed over whole at every point. -/
theorem iblk1_2_eq (c : Dev nD) (t : Fin cfg1.N) :
    (iblk1 V c 2 t : Vec F S2048x1024 .f32) = (V c main_arg4 : Vec F S2048x1024 .f32) := by
  obtain ⟨-, -, -, ⟨e0, e1⟩, -⟩ := arr_idx1 t
  have hz : (fun a => win1_2.index t a * main_arg4.ty.shape.size a) = fun _ => 0 :=
    arr_zero_off2 (by show win1_2.index t (0 : Fin 2) * _ = 0; rw [e0, Nat.zero_mul]) (by show win1_2.index t (1 : Fin 2) * _ = 0; rw [e1, Nat.zero_mul])
  unfold iblk1
  exact Memref.read_access_unit_zero (Elt F) main_arg4 hz (fun a => by rw [congrFun hz a]; simp) (V c main_arg4)

/-- The second 0/1 table is handed over whole at every point. -/
theorem iblk1_3_eq (c : Dev nD) (t : Fin cfg1.N) :
    (iblk1 V c 3 t : Vec F S128x2048 .f32) = (V c main_v17 : Vec F S128x2048 .f32) := by
  obtain ⟨-, -, -, -, ⟨e0, e1⟩, -⟩ := arr_idx1 t
  have hz : (fun a => win1_3.index t a * main_v17.ty.shape.size a) = fun _ => 0 :=
    arr_zero_off2 (by show win1_3.index t (0 : Fin 2) * _ = 0; rw [e0, Nat.zero_mul]) (by show win1_3.index t (1 : Fin 2) * _ = 0; rw [e1, Nat.zero_mul])
  unfold iblk1
  exact Memref.read_access_unit_zero (Elt F) main_v17 hz (fun a => by rw [congrFun hz a]; simp) (V c main_v17)

/-- The 128 x 128 mask is handed over whole at every point. -/
theorem iblk1_4_eq (c : Dev nD) (t : Fin cfg1.N) :
    (iblk1 V c 4 t : Vec F S128x128 .f32) = (V c main_v23 : Vec F S128x128 .f32) := by
  obtain ⟨-, -, -, -, -, ⟨e0, e1⟩, -⟩ := arr_idx1 t
  have hz : (fun a => win1_4.index t a * main_v23.ty.shape.size a) = fun _ => 0 :=
    arr_zero_off2 (by show win1_4.index t (0 : Fin 2) * _ = 0; rw [e0, Nat.zero_mul]) (by show win1_4.index t (1 : Fin 2) * _ = 0; rw [e1, Nat.zero_mul])
  unfold iblk1
  exact Memref.read_access_unit_zero (Elt F) main_v23 hz (fun a => by rw [congrFun hz a]; simp) (V c main_v23)

/-- The 128 x 512 slice of a 128 x 2048 table taken at point t is its columns [512 t, 512 t + 512): entry (x, r) of
    the slice is entry (x, 512 t + r) of the table. -/
theorem oiSlice_apply (t : Fin cfg1.N) (oi : Vec F S128x2048 .f32) (x : Fin 128) (r : Fin 512) :
    oiSlice (grid1.coords t) oi (ix2 x r) = oi (ix2 x ⟨512 * t.val + r.val, row1_lt t r⟩) := by
  obtain ⟨e0, e1⟩ := arr_off1 t
  unfold oiSlice
  show oi _ = oi _
  congr 1
  funext a; apply Fin.ext
  match a with
  | ⟨0, _⟩ => show k1_off1 (grid1.coords t) (0 : Fin 2) + 1 * x.val = x.val; rw [e0]; omega
  | ⟨1, _⟩ => show k1_off1 (grid1.coords t) (1 : Fin 2) + 1 * r.val = 512 * t.val + r.val; rw [e1]; omega

/-- The last point, the only one at which the two 1 x 1 outputs are written back. -/
abbrev arr_tLast : Fin cfg1.N := ⟨3, last1_lt⟩

/-- The one entry of a 1 x 1 array lies in the block the last point writes back (window 5). -/
theorem arr_cover5 (i : S1x1.Idx) : ∃ t : Fin cfg1.N, (cfg1.win 5).flush t = true ∧ i ∈ ((cfg1.win 5).blk t).view.set := by
  obtain ⟨-, -, -, -, -, -, ⟨e0, e1⟩, -⟩ := arr_idx1 arr_tLast
  refine ⟨arr_tLast, (flush1_5 arr_tLast).mpr rfl, ?_⟩
  show i ∈ ((View.whole main_v24_0).slice (win1_5.rect arr_tLast)).set
  rw [View.set_slice_whole, Rect.mem_set_unit]
  intro a
  have h0 : (i 0).val < 1 := (i 0).isLt
  have h1 : (i 1).val < 1 := (i 1).isLt
  match a with
  | ⟨0, _⟩ => show win1_5.index arr_tLast (0 : Fin 2) * 1 ≤ (i 0).val ∧ (i 0).val < win1_5.index arr_tLast (0 : Fin 2) * 1 + 1; rw [e0]; omega
  | ⟨1, _⟩ => show win1_5.index arr_tLast (1 : Fin 2) * 1 ≤ (i 1).val ∧ (i 1).val < win1_5.index arr_tLast (1 : Fin 2) * 1 + 1; rw [e1]; omega

/-- The same for window 6. -/
theorem arr_cover6 (i : S1x1.Idx) : ∃ t : Fin cfg1.N, (cfg1.win 6).flush t = true ∧ i ∈ ((cfg1.win 6).blk t).view.set := by
  obtain ⟨-, -, -, -, -, -, -, ⟨e0, e1⟩⟩ := arr_idx1 arr_tLast
  refine ⟨arr_tLast, (flush1_6 arr_tLast).mpr rfl, ?_⟩
  show i ∈ ((View.whole main_v24_1).slice (win1_6.rect arr_tLast)).set
  rw [View.set_slice_whole, Rect.mem_set_unit]
  intro a
  have h0 : (i 0).val < 1 := (i 0).isLt
  have h1 : (i 1).val < 1 := (i 1).isLt
  match a with
  | ⟨0, _⟩ => show win1_6.index arr_tLast (0 : Fin 2) * 1 ≤ (i 0).val ∧ (i 0).val < win1_6.index arr_tLast (0 : Fin 2) * 1 + 1; rw [e0]; omega
  | ⟨1, _⟩ => show win1_6.index arr_tLast (1 : Fin 2) * 1 ≤ (i 1).val ∧ (i 1).val < win1_6.index arr_tLast (1 : Fin 2) * 1 + 1; rw [e1]; omega

/-- A point that writes a 1 x 1 output back is the last point. -/
theorem arr_eq_tLast_of_mod (t : Fin cfg1.N) (h : t.val % 4 = 3) : t = arr_tLast := by
  have := pt1_lt t
  exact Fin.ext (by show t.val = 3; omega)

/-- After region 1 the first 1 x 1 output holds the running sum of squares as it stood after the last point: the
    array is one block, written back once, at point 3. -/
theorem out5_eq (c : Dev nD) :
    ((dat1 V c).arrAt 5 cfg1.N : Vec F S1x1 .f32) = accS V c 3 last1_lt := by
  refine (dat1 V c).arrAt_eq_of_cover 5 (accS V c 3 last1_lt) (fun t hf => ?_) arr_cover5
  obtain rfl : t = arr_tLast := arr_eq_tLast_of_mod t ((flush1_5 t).mp hf)
  obtain ⟨-, -, -, -, -, -, ⟨e0, e1⟩, -⟩ := arr_idx1 arr_tLast
  have hz : (fun a => win1_5.index arr_tLast a * main_v24_0.ty.shape.size a) = fun _ => 0 :=
    arr_zero_off2 (by show win1_5.index arr_tLast (0 : Fin 2) * _ = 0; rw [e0, Nat.zero_mul]) (by show win1_5.index arr_tLast (1 : Fin 2) * _ = 0; rw [e1, Nat.zero_mul])
  show (cfg1.win 5).cut (grid1.coords arr_tLast) ((dat1 V c).after 5 arr_tLast) = _
  rw [after1_5]
  exact (Memref.read_access_unit_zero (Elt F) main_v24_0 hz (fun a => by rw [congrFun hz a]; simp) (accS V c 3 last1_lt)).symm

/-- After region 1 the second 1 x 1 output holds the pairwise term computed at the last point from S, the two tables,
    the mask (each read whole) and the 128 x 2048 running product as it stood after point 3. -/
theorem out6_eq (c : Dev nD) :
    ((dat1 V c).arrAt 6 cfg1.N : Vec F S1x1 .f32)
      = k1_pay5 (k1_pay6 (V c main_arg4 : Vec F S2048x1024 .f32) (V c main_v11 : Vec F S128x2048 .f32)
          (V c main_v17 : Vec F S128x2048 .f32) (V c main_v23 : Vec F S128x128 .f32) (accT V c 3 last1_lt)) := by
  refine (dat1 V c).arrAt_eq_of_cover 6 _ (fun t hf => ?_) arr_cover6
  obtain rfl : t = arr_tLast := arr_eq_tLast_of_mod t ((flush1_6 t).mp hf)
  obtain ⟨-, -, -, -, -, -, -, ⟨e0, e1⟩⟩ := arr_idx1 arr_tLast
  have hz : (fun a => win1_6.index arr_tLast a * main_v24_1.ty.shape.size a) = fun _ => 0 :=
    arr_zero_off2 (by show win1_6.index arr_tLast (0 : Fin 2) * _ = 0; rw [e0, Nat.zero_mul]) (by show win1_6.index arr_tLast (1 : Fin 2) * _ = 0; rw [e1, Nat.zero_mul])
  show (cfg1.win 6).cut (grid1.coords arr_tLast) ((dat1 V c).after 6 arr_tLast) = _
  rw [after1_6, iblk1_1_eq, iblk1_2_eq, iblk1_3_eq, iblk1_4_eq]
  exact (Memref.read_access_unit_zero (Elt F) main_v24_1 hz (fun a => by rw [congrFun hz a]; simp) _).symm

end Cert.KernelIdeal.Hand

end
-- ==== Proof.KIPayIdeal.lean ====
/-
  The values the two kernel bodies store, read one entry at a time over the extended reals.

  Each store of a kernel body writes a value that is a pure function of the vectors the body loaded before it. Over the
  extended reals nothing is rounded, so each such value, read at one index, is a plain finite sum:

    * the first kernel stores, in every lane of its output block, the sum over a 512 x 4096 block of (a - b)^2;
    * the second kernel first clears its running total and its 128 x 2048 accumulator (both stores are zero);
    * then adds to the running total the sum over a 512 x 2048 block of relu(P)^2,
    * and adds to the accumulator, at (x, k), the product of row x of the 0/1 table's slice with column k of the block of P.

  The two facts used throughout: a sum over all entries of a matrix taken through a leading unit axis is the double sum
  over rows and columns, and a matrix product accumulated into zeros is, entry by entry, the sum over the shared
  coordinate of the products.
-/
import proofs.«425603_j57767310131732_3_alg».proof.Proof.Gen.KernelIdeal.Skeleton
import proofs.«425603_j57767310131732_3_alg».proof.Proof.Spec
import Idealize.ShloMosaic.Lib.ValueLayout
import Idealize.ShloMosaic.Lib.StackMember
import Idealize.ShloMosaic.PureOps.Ideal.Laws

noncomputable section

open scoped BigOperators

namespace Cert.KernelIdeal.PayIdeal

open Idealize.ShloMosaic Idealize.ShloMosaic.ValueIdx Cert.KernelIdeal Cert.KernelIdeal.Gen Cert.Spec

/-! ## Sums over a rank-3 index set, and the total of a matrix taken through a leading unit axis -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of ALL entries of an a x b matrix, as the kernels take it: the matrix is viewed as one 1 x a x b slab, the
    slab is summed over its last two axes into a one-entry vector, and that entry is read back through a 1 x 1 x 1 view.
    Nothing but the double sum over rows and columns is left of this. -/
theorem total_apply {a b : ℕ} (v : FVec Ideal ⟨2, ![a, b]⟩ .f32)
    (hc : (⟨2, ![a, b]⟩ : Shape).ShapeCasts ⟨3, ![1, a, b]⟩)
    (hr : (⟨3, ![1, a, b]⟩ : Shape).Reduces [1, 2] ⟨1, ![1]⟩)
    (hφ : FKind.Formats .f32) (hacc : (0x00000000#32 : BitVec 32) = FKind.add.neutral .f32 hφ)
    (hc' : (⟨1, ![1]⟩ : Shape).ShapeCasts ⟨3, ![1, 1, 1]⟩)
    (hp : ∀ ax, (![0, 0, 0] : Fin 3 → Nat) ax < (⟨3, ![1, 1, 1]⟩ : Shape).size ax) :
    extractAt ![0, 0, 0]
        (shapeCast ⟨3, ![1, 1, 1]⟩
          (multiReduction .add [1, 2] ⟨1, ![1]⟩ (shapeCast ⟨3, ![1, a, b]⟩ v hc) 0x00000000#32 hr hφ hacc) hc') hp
      = ∑ r : Fin a, ∑ c : Fin b, v (ix2 r c) := by
  unfold extractAt
  refine (shapeCast_apply _ hc' _ (ix1 (0 : Fin 1)) ?_).trans ?_
  · rw [Shape.rowMajor_val_one, Shape.rowMajor_val_three]
    rfl
  refine (Ideal.multiReduction_add_total _ _ hr (fun ax => ?_) hφ hacc _).trans ?_
  · match ax with
    | ⟨0, _⟩ => rfl
  rw [sum_idx3, Fin.sum_univ_one]
  exact Finset.sum_congr rfl fun r _ => Finset.sum_congr rfl fun c _ => shapeCast_ab_1ab_apply v hc 0 r c

/-! ## A matrix product into a zero accumulator -/

/-- A product of an m x k by a k x n matrix, contracted over the shared axis and accumulated into zeros, read at
    (a, b): the sum over the shared coordinate of the products of the entries. Such a product is the host's plain
    matrix product, whose entries the library reads off. -/
theorem matmul_plain_apply {m k n : ℕ} (d : DotDims ⟨2, ![m, k]⟩ ⟨2, ![k, n]⟩ ⟨2, ![m, n]⟩) (hd : d = DotDims.plain m k n)
    (prec : Option ContractPrecision) (A : FVec Ideal ⟨2, ![m, k]⟩ .f32) (B : FVec Ideal ⟨2, ![k, n]⟩ .f32)
    (a : Fin m) (b : Fin n) :
    matmul d prec A B (constant (F := Ideal) ⟨2, ![m, n]⟩ .f32 0x00000000#32) (ix2 a b)
      = ∑ c : Fin k, A (ix2 a c) * B (ix2 c b) := by
  subst hd
  rw [matmul_zero_eq_dotGeneral]
  exact StackMember.dotGeneral_plain_apply prec A B a b

/-! ## The first kernel -/

/-- The first kernel's stored block: every lane holds the sum of the squared differences over the block. -/
theorem pay0 (x0 x1 : Vec Ideal S512x4096 .f32) (l : Fin 128) :
    k0_pay1 (F := Ideal) x0 x1 (ix3 (0 : Fin 1) (0 : Fin 1) l)
      = ∑ r : Fin 512, ∑ c : Fin 4096, (x0 (ix2 r c) - x1 (ix2 r c)) * (x0 (ix2 r c) - x1 (ix2 r c)) := by
  unfold k0_pay1
  refine (broadcast_apply _ _).trans ?_
  refine (total_apply (mulf (subf x0 x1) (subf x0 x1)) _ _ _ _ _ _).trans ?_
  refine Finset.sum_congr rfl fun r _ => Finset.sum_congr rfl fun c _ => ?_
  refine (mulf_apply _ _ _).trans ?_
  exact congrArg₂ (· * ·) (subf_apply x0 x1 (ix2 r c)) (subf_apply x0 x1 (ix2 r c))

/-! ## The second kernel: the two clearing stores -/

/-- The running total is cleared to zero. -/
theorem pay1 : k1_pay1 (F := Ideal) (ix2 (0 : Fin 1) (0 : Fin 1)) = 0 := by
  unfold k1_pay1
  exact Ideal.ofBits_zero_f32

/-- The accumulator is cleared to zero. -/
theorem pay2 (x : Fin 128) (k : Fin 2048) : k1_pay2 (F := Ideal) (ix2 x k) = 0 := by
  unfold k1_pay2
  refine (congrFun (shapeCast_self _ _) (ix2 x k)).trans ?_
  exact Ideal.ofBits_zero_f32

/-! ## The second kernel: the two accumulating stores -/

/-- A maximum with the zero word, read at an index: the entry clipped at zero. -/
theorem relu_apply {s : Shape} (p : FVec Ideal s .f32) (i : s.Idx) :
    maximumf p (broadcast s (Scalar.ofBits (F := Ideal) .f32 0x00000000#32)) i = max (p i) 0 := by
  refine (maximumf_apply _ _ i).trans ?_
  exact congrArg (max (p i)) Ideal.ofBits_zero_f32

/-- The running total grows by the sum over the block of relu(P)^2. -/
theorem pay3 (p : Vec Ideal S512x2048 .f32) (prev : Vec Ideal S1x1 .f32) :
    k1_pay3 (F := Ideal) p prev (ix2 (0 : Fin 1) (0 : Fin 1))
      = prev (ix2 0 0) + ∑ r : Fin 512, ∑ c : Fin 2048, max (p (ix2 r c)) 0 * max (p (ix2 r c)) 0 := by
  unfold k1_pay3
  refine (addf_apply _ _ _).trans ?_
  refine congrArg₂ (· + ·) (congrFun (shapeCast_self prev _) _) ?_
  refine (broadcast_apply _ _).trans ?_
  refine (total_apply _ _ _ _ _ _ _).trans ?_
  refine Finset.sum_congr rfl fun r _ => Finset.sum_congr rfl fun c _ => ?_
  refine (mulf_apply _ _ _).trans ?_
  exact congrArg₂ (· * ·) (relu_apply p (ix2 r c)) (relu_apply p (ix2 r c))

/-- The accumulator grows, at (x, k), by row x of the table's slice times column k of the block of P. -/
theorem pay4 (p : Vec Ideal S512x2048 .f32) (sl : Vec Ideal S128x512 .f32) (prev : Vec Ideal S128x2048 .f32)
    (x : Fin 128) (k : Fin 2048) :
    k1_pay4 (F := Ideal) p sl prev (ix2 x k) = prev (ix2 x k) + ∑ r : Fin 512, sl (ix2 x r) * p (ix2 r k) := by
  unfold k1_pay4
  refine (congrFun (shapeCast_self _ _) (ix2 x k)).trans ?_
  refine (addf_apply _ _ _).trans ?_
  refine congrArg (prev (ix2 x k) + ·) ?_
  refine (matmul_plain_apply _ rfl _ _ p x k).trans ?_
  exact Finset.sum_congr rfl fun r _ => congrArg (· * p (ix2 r k)) (congrFun (shapeCast_self sl _) (ix2 x r))

end Cert.KernelIdeal.PayIdeal

end
-- ==== Proof.Algebra.lean ====
/-
  From blocks, running totals and products with 0/1 tables to the specification's sums.

  The loss is specified with plain sums over all rows, a gather of rows by number, and the distance of two rows as the
  sum of squared differences. A blocked computation instead
    * sums the rows 512 at a time and adds the block totals one after the other, starting from zero;
    * selects row number w of a matrix by multiplying with the table that holds a single one in column w;
    * expands |u - v|^2 as |u|^2 + |v|^2 - 2 u.v, clips it at zero, and multiplies the root by 1 - [the two numbers coincide].
  Over the extended reals each of these agrees with the specification: sums are sums in a commutative monoid, 0 * y = 0
  for every y (so a table of zeros and ones selects without any finiteness), and the expansion of the distance is an
  identity of real numbers once every entry of S is real.
-/
import proofs.«425603_j57767310131732_3_alg».proof.Proof.Spec
import Mathlib.Logic.Equiv.Fin.Basic
import Mathlib.Algebra.BigOperators.Fin
import Mathlib.Data.EReal.Operations
import Mathlib.Tactic.Ring

noncomputable section

open scoped BigOperators

namespace Cert.Algebra

open Idealize.ShloMosaic Idealize.ShloMosaic.ValueIdx Cert.Spec

/-! ## Sums over blocks of 512 rows -/

/-- Eight blocks of 512 consecutive numbers make up the 4096 numbers. -/
theorem sum_blocks8 (f : Fin 4096 → EReal) :
    ∑ t : Fin 8, ∑ r : Fin 512, f ⟨512 * t.val + r.val, by omega⟩ = ∑ R : Fin 4096, f R := by
  rw [← Fintype.sum_prod_type']
  refine Fintype.sum_equiv (finProdFinEquiv (m := 8) (n := 512)) _ _ (fun p => ?_)
  exact congrArg f (Fin.ext (by simp [finProdFinEquiv]; omega))

/-- Four blocks of 512 consecutive numbers make up the 2048 numbers. -/
theorem sum_blocks4 (f : Fin 2048 → EReal) :
    ∑ t : Fin 4, ∑ r : Fin 512, f ⟨512 * t.val + r.val, by omega⟩ = ∑ R : Fin 2048, f R := by
  rw [← Fintype.sum_prod_type']
  refine Fintype.sum_equiv (finProdFinEquiv (m := 4) (n := 512)) _ _ (fun p => ?_)
  exact congrArg f (Fin.ext (by simp [finProdFinEquiv]; omega))

/-- Four additions to a running total that starts at zero give the sum of the four increments. -/
theorem fold4 (s acc : ℕ → EReal) (h0 : acc 0 = 0 + s 0) (hs : ∀ n, n + 1 < 4 → acc (n + 1) = acc n + s (n + 1)) :
    acc 3 = ∑ t : Fin 4, s t.val := by
  have h1 : acc 1 = acc 0 + s 1 := hs 0 (by norm_num)
  have h2 : acc 2 = acc 1 + s 2 := hs 1 (by norm_num)
  have h3 : acc 3 = acc 2 + s 3 := hs 2 (by norm_num)
  rw [Fin.sum_univ_four, h3, h2, h1, h0, zero_add]
  rfl

/-- The squared entries of a - b, summed block by block. -/
theorem sqDiff_blocks (a b : Mat 4096 4096) :
    ∑ t : Fin 8, (∑ r : Fin 512, ∑ c : Fin 4096,
        (a (ix2 (⟨512 * t.val + r.val, by omega⟩ : Fin 4096) c) - b (ix2 (⟨512 * t.val + r.val, by omega⟩ : Fin 4096) c))
          * (a (ix2 (⟨512 * t.val + r.val, by omega⟩ : Fin 4096) c) - b (ix2 (⟨512 * t.val + r.val, by omega⟩ : Fin 4096) c)))
      = sqDiff a b :=
  sum_blocks8 (fun R => ∑ c : Fin 4096, (a (ix2 R c) - b (ix2 R c)) * (a (ix2 R c) - b (ix2 R c)))

/-- The squared entries of relu(P), summed block by block onto zero. -/
theorem reluSq_blocks (P : Mat 2048 2048) :
    0 + ∑ t : Fin 4, (∑ r : Fin 512, ∑ c : Fin 2048,
        max (P (ix2 (⟨512 * t.val + r.val, by omega⟩ : Fin 2048) c)) 0 * max (P (ix2 (⟨512 * t.val + r.val, by omega⟩ : Fin 2048) c)) 0)
      = reluSq P := by
  rw [zero_add]
  exact sum_blocks4 (fun R => ∑ c : Fin 2048, max (P (ix2 R c)) 0 * max (P (ix2 R c)) 0)

/-- The same as a running total: it starts at zero plus the first block's sum, every later block's sum is added to it,
    and after the fourth block it is the sum over the whole of relu(P)^2. -/
theorem reluSq_fold (P : Mat 2048 2048) (s acc : ℕ → EReal)
    (hsum : ∀ t : Fin 4, s t.val = ∑ r : Fin 512, ∑ c : Fin 2048,
        max (P (ix2 (⟨512 * t.val + r.val, by omega⟩ : Fin 2048) c)) 0 * max (P (ix2 (⟨512 * t.val + r.val, by omega⟩ : Fin 2048) c)) 0)
    (h0 : acc 0 = 0 + s 0) (hs : ∀ n, n + 1 < 4 → acc (n + 1) = acc n + s (n + 1)) :
    acc 3 = reluSq P :=
  (fold4 s acc h0 hs).trans ((Finset.sum_congr rfl (fun t _ => hsum t)).trans
    (sum_blocks4 (fun R => ∑ c : Fin 2048, max (P (ix2 R c)) 0 * max (P (ix2 R c)) 0)))

/-! ## Selecting with a table of zeros and ones -/

/-- Among the numbers below 2048, a word in range is the word of exactly one: its row. -/
theorem word_eq_iff (v : BitVec 32) (hv : InRange v) (k : Fin 2048) : v = BitVec.ofNat 32 k.val ↔ k = rowOf v := by
  have hk := k.isLt
  have hlt := v.isLt
  -- a word whose signed value is in [0, 2048) has that value as its unsigned value
  have hnat : v.toInt = (v.toNat : ℤ) ∧ v.toNat < 2048 := by
    have h := BitVec.toInt_eq_toNat_cond v
    obtain ⟨h0, h1⟩ := hv
    split_ifs at h with hc <;> omega
  rw [← BitVec.toNat_inj, BitVec.toNat_ofNat, Fin.ext_iff]
  simp only [rowOf]
  omega

/-- Row x of the table holds a one in the column its word names and zeros elsewhere. -/
theorem onehot_apply (ww : Words) (x : Fin 128) (hx : InRange (ww (ix1 x))) (k : Fin 2048) :
    onehot ww (ix2 x k) = if k = rowOf (ww (ix1 x)) then 1 else 0 := by
  show (if ww (ix1 x) = BitVec.ofNat 32 k.val then (1 : EReal) else 0) = _
  by_cases h : k = rowOf (ww (ix1 x))
  · rw [if_pos ((word_eq_iff _ hx k).2 h), if_pos h]
  · rw [if_neg (fun h' => h ((word_eq_iff _ hx k).1 h')), if_neg h]

/-- A sum weighted by row x of the table is the one term its word names. -/
theorem onehot_sum (ww : Words) (x : Fin 128) (hx : InRange (ww (ix1 x))) (g : Fin 2048 → EReal) :
    ∑ k : Fin 2048, onehot ww (ix2 x k) * g k = g (rowOf (ww (ix1 x))) := by
  rw [Finset.sum_eq_single (rowOf (ww (ix1 x)))]
  · rw [onehot_apply ww x hx, if_pos rfl, one_mul]
  · intro k _ hk
    rw [onehot_apply ww x hx, if_neg hk, zero_mul]
  · intro h
    exact absurd (Finset.mem_univ _) h

/-- The same with the table as the right factor. -/
theorem onehot_sum' (ww : Words) (x : Fin 128) (hx : InRange (ww (ix1 x))) (g : Fin 2048 → EReal) :
    ∑ k : Fin 2048, g k * onehot ww (ix2 x k) = g (rowOf (ww (ix1 x))) := by
  rw [← onehot_sum ww x hx g]
  exact Finset.sum_congr rfl (fun k _ => mul_comm _ _)

/-- The product of the table with S holds, in row x, the row of S that word x names. -/
theorem rowsK_onehot (ww : Words) (S : Mat 2048 1024) (x : Fin 128) (hx : InRange (ww (ix1 x))) (d : Fin 1024) :
    rowsK (onehot ww) S x d = S (ix2 (rowOf (ww (ix1 x))) d) :=
  onehot_sum ww x hx (fun k => S (ix2 k d))

/-- The rows of P gathered block by block: the running total of (table restricted to 512 columns) times (the matching
    512 rows of P), started at zero, holds after the fourth block the row of P that word x names. -/
theorem acc_rows (P : Mat 2048 2048) (ii : Words) (hii : ∀ x, InRange (ii x)) (x : Fin 128) (k : Fin 2048)
    (s T : ℕ → EReal)
    (hsum : ∀ t : Fin 4, s t.val = ∑ r : Fin 512,
        onehot ii (ix2 x (⟨512 * t.val + r.val, by omega⟩ : Fin 2048)) * P (ix2 (⟨512 * t.val + r.val, by omega⟩ : Fin 2048) k))
    (h0 : T 0 = 0 + s 0) (hs : ∀ n, n + 1 < 4 → T (n + 1) = T n + s (n + 1)) :
    T 3 = P (ix2 (rowOf (ii (ix1 x))) k) :=
  (fold4 s T h0 hs).trans ((Finset.sum_congr rfl (fun t _ => hsum t)).trans
    ((sum_blocks4 (fun R => onehot ii (ix2 x R) * P (ix2 R k))).trans
      (onehot_sum ii x (hii (ix1 x)) (fun R => P (ix2 R k)))))

/-! ## The distance of two rows -/

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- |u|^2 + |v|^2 - 2 u.v, clipped at zero, is the squared distance of the rows u, v of a real matrix. -/
theorem dist_expand (S : Mat 2048 1024) (hS : Finite S) (i j : Fin 2048) :
    max (((∑ d : Fin 1024, S (ix2 i d) * S (ix2 i d)) + (∑ d : Fin 1024, S (ix2 j d) * S (ix2 j d)))
        - 2 * ∑ d : Fin 1024, S (ix2 i d) * S (ix2 j d)) 0 = dist2 S i j := by
  choose u hu using fun d : Fin 1024 => hS (ix2 i d)
  choose v hv using fun d : Fin 1024 => hS (ix2 j d)
  have h2 : (2 : EReal) = ((2 : ℝ) : EReal) := rfl
  simp only [dist2, hu, hv, h2, ← EReal.coe_mul, ← EReal.coe_sub, ← coe_sum, ← EReal.coe_add]
  -- the identity of real numbers, and a sum of squares is not negative
  have hreal : (∑ d : Fin 1024, u d * u d) + (∑ d : Fin 1024, v d * v d) - 2 * ∑ d : Fin 1024, u d * v d
      = ∑ d : Fin 1024, (u d - v d) * (u d - v d) := by
    rw [Finset.mul_sum, ← Finset.sum_add_distrib, ← Finset.sum_sub_distrib]
    exact Finset.sum_congr rfl (fun d _ => by ring)
  rw [hreal]
  exact max_eq_left (EReal.coe_nonneg.2 (Finset.sum_nonneg (fun d _ => mul_self_nonneg _)))

/-- A row of a real matrix is at distance zero from itself. -/
theorem dist2_self (S : Mat 2048 1024) (hS : Finite S) (i : Fin 2048) : dist2 S i i = 0 := by
  choose u hu using fun d : Fin 1024 => hS (ix2 i d)
  simp only [dist2, hu, ← EReal.coe_sub, sub_self, EReal.coe_zero, mul_zero, Finset.sum_const_zero]

/-- The root of zero is zero. -/
theorem sqrt_zero : Ideal.sqrt 0 = 0 := by
  rw [← EReal.coe_zero, Ideal.sqrt_coe, if_neg (lt_irrefl 0), Real.sqrt_zero]

/-! ## The pairwise term -/

/-- Computed through products with the 0/1 tables, from the gathered rows of P, the pairwise term is the specification's. -/
theorem pairK_eq (P : Mat 2048 2048) (S : Mat 2048 1024) (ii jj : Words) (hii : ∀ x, InRange (ii x))
    (hjj : ∀ x, InRange (jj x)) (hS : Finite S) (acc : Mat 128 2048)
    (hacc : ∀ (x : Fin 128) (k : Fin 2048), acc (ix2 x k) = P (ix2 (rowOf (ii (ix1 x))) k)) :
    pairK S (onehot ii) (onehot jj) (eqmask ii jj) acc = pairPen P S ii jj := by
  unfold pairK pairPen
  refine Finset.sum_congr rfl (fun x _ => Finset.sum_congr rfl (fun y _ => ?_))
  have hx := hii (ix1 x)
  have hy := hjj (ix1 y)
  -- the selected entry of P, the selected rows of S, and the expansion of their distance
  rw [onehot_sum' jj y hy (fun k => acc (ix2 x k)), hacc]
  simp only [rowsK_onehot ii S x hx, rowsK_onehot jj S y hy]
  rw [dist_expand S hS]
  congr 1
  show Ideal.sqrt _ * (1 - (if ii (ix1 x) = jj (ix1 y) then (1 : EReal) else 0)) = _
  by_cases h : ii (ix1 x) = jj (ix1 y)
  · -- the two words coincide: both sides are the root of a row's distance to itself
    rw [if_pos h, h, dist2_self S hS, sqrt_zero, zero_mul]
  · rw [if_neg h, sub_zero, mul_one]

/-! ## The loss from its three pieces -/

/-- The root of the first piece plus lam times (the root of the second plus the third) is the loss. -/
theorem total_of (a b : Mat 4096 4096) (lam : EReal) (P : Mat 2048 2048) (S : Mat 2048 1024) (ii jj : Words)
    (A B C : EReal) (hA : A = sqDiff a b) (hB : B = reluSq P) (hC : C = pairPen P S ii jj) :
    Ideal.sqrt A + lam * (Ideal.sqrt B + C) = total a b lam P S ii jj := by
  subst hA hB hC
  rfl

end Cert.Algebra

end
-- ==== Proof.KIValData.lean ====
import proofs.«425603_j57767310131732_3_alg».proof.Proof.KIValCommon
import proofs.«425603_j57767310131732_3_alg».proof.Proof.KIArrays
import proofs.«425603_j57767310131732_3_alg».proof.Proof.KIPayIdeal
import proofs.«425603_j57767310131732_3_alg».proof.Proof.Algebra

/-! # The first term and the weight, as the run leaves them

Two of the four numbers the last stretch of operations combines. The first root is the root of the sum of the eight
partial sums the first kernel region left; partial sum number t is the sum of (a - b)^2 over rows 512 t .. 512 t + 511
of the two operands; and eight blocks of 512 rows are all 4096 rows. The weight is the scalar argument, untouched. -/

noncomputable section

open scoped BigOperators

namespace Cert.KernelIdeal.Value1

open Idealize.ShloMosaic Idealize.ShloMosaic.TcCoe Idealize.ShloMosaic.ValueIdx
open Cert.KernelIdeal Cert.KernelIdeal.Gen
open Cert.KernelIdeal.Hand (W0 W1 W2 W3 W4 dat0 dat1)

variable (m : (ℓ : Loc nD τ sig) → Buf (Elt Ideal) ℓ) (ρ : Dev nD → PrngReg) (c : Dev nD)

/-- The two 4096 x 4096 operands as the launch memory holds them, -/
abbrev opA : Cert.Spec.Mat 4096 4096 := m ((c.tc : Thread nD τ).loc main_arg0)
abbrev opB : Cert.Spec.Mat 4096 4096 := m ((c.tc : Thread nD τ).loc main_arg1)
/-- and the 8 x 1 x 128 array of partial sums as the first kernel region's write-backs leave it. -/
abbrev partials0 : S8x1x128.Idx → EReal := (dat0 (Hand.V0 m ρ) c).arrAt 2 cfg0.N

/-- Partial sum number t, read at lane 0 of its slab: the sum over block t of the squared differences of the two
    operands as launched. The slab holds what grid point t stored; that is the body's payload at the two blocks of
    point t; over the extended reals the payload is the plain double sum; and entry (r, col) of block t is entry
    (512 t + r, col) of the operand. -/
theorem partial_eq (t : Fin 8) :
    partials0 m ρ c (ix3 t (0 : Fin 1) (0 : Fin 128))
      = ∑ r : Fin 512, ∑ col : Fin 4096,
          (opA m c (ix2 (⟨512 * t.val + r.val, by omega⟩ : Fin 4096) col) - opB m c (ix2 (⟨512 * t.val + r.val, by omega⟩ : Fin 4096) col))
          * (opA m c (ix2 (⟨512 * t.val + r.val, by omega⟩ : Fin 4096) col) - opB m c (ix2 (⟨512 * t.val + r.val, by omega⟩ : Fin 4096) col)) := by
  have ht : t.val < cfg0.N := by rw [show cfg0.N = 8 from N_0]; exact t.isLt
  refine (Hand.out0_apply (Hand.V0 m ρ) c ⟨t.val, ht⟩).trans ?_
  refine (PayIdeal.pay0 _ _ (0 : Fin 128)).trans ?_
  refine Finset.sum_congr rfl fun r _ => Finset.sum_congr rfl fun col _ => ?_
  exact congrArg₂ (fun u v : EReal => (u - v) * (u - v))
    (Hand.iblk0_0_apply (Hand.V0 m ρ) c ⟨t.val, ht⟩ r col) (Hand.iblk0_1_apply (Hand.V0 m ρ) c ⟨t.val, ht⟩ r col)

/-- The first root, after the whole run up to the last stretch: the root of the sum of the squared entries of a - b. -/
theorem rootA_eq :
    (W3 m ρ c (Proc.devRef .tc main_v4) : S_.Idx → EReal) ix0
      = Ideal.sqrt (Cert.Spec.sqDiff (m ((c.tc : Thread nD τ).loc main_arg0)) (m ((c.tc : Thread nD τ).loc main_arg1))) := by
  have h1 : (W3 m ρ c (Proc.devRef .tc main_v4) : S_.Idx → EReal) ix0
      = Ideal.sqrt (∑ t : Fin 8, partials0 m ρ c (ix3 t (0 : Fin 1) (0 : Fin 128))) := by
    rw [W3_v4, W2_v4]
  rw [h1, ← Cert.Algebra.sqDiff_blocks]
  exact congrArg Ideal.sqrt (Finset.sum_congr rfl fun t _ => partial_eq m ρ c t)

/-- The weight, at the same moment: the scalar argument as launched. -/
theorem weight_eq : W3 m ρ c (Proc.devRef .tc main_arg2) = m ((c.tc : Thread nD τ).loc main_arg2) :=
  W3_arg2 m ρ c

end Cert.KernelIdeal.Value1

end
-- ==== Proof.KIValSq.lean ====
/-
  The first scalar the second call leaves is the sum of the squared positive parts of P.

  The call runs over four grid points. At point t it reads the block of rows [512 t, 512 t + 512) of P and adds the sum
  of max(p, 0)^2 over that block to a running total, which it cleared to zero at the first point. So the total after
  the fourth point is zero plus the four block sums added one after the other, and four blocks of 512 rows are all the
  2048 rows of P.
-/
import proofs.«425603_j57767310131732_3_alg».proof.Proof.KIRegion1
import proofs.«425603_j57767310131732_3_alg».proof.Proof.KIArrays
import proofs.«425603_j57767310131732_3_alg».proof.Proof.KIValCommon
import proofs.«425603_j57767310131732_3_alg».proof.Proof.KIPayIdeal
import proofs.«425603_j57767310131732_3_alg».proof.Proof.Algebra

noncomputable section

open scoped BigOperators

namespace Cert.KernelIdeal.Value1

open Idealize.ShloMosaic Idealize.ShloMosaic.TcCoe Idealize.ShloMosaic.ValueIdx
open Cert.KernelIdeal Cert.KernelIdeal.Gen Cert.KernelIdeal.Hand Cert.Spec

/-- The sum of max(p, 0)^2 over a 512 x 2048 block. -/
def blockSq (p : Vec Ideal S512x2048 .f32) : EReal :=
  ∑ r : Fin 512, ∑ k : Fin 2048, max (p (ix2 r k)) 0 * max (p (ix2 r k)) 0

/-- The running total after the fourth point, from any contents V whose blocks of window 0 are the blocks of rows of a
    matrix P: it is the sum over the whole of relu(P)^2. -/
theorem accS_last_eq (V : (c : Dev nD) → (b : Ref sig .tc) → Buf (Elt Ideal) ((c : Thread nD τ).loc b)) (c : Dev nD)
    (P : Mat 2048 2048)
    (hblk : ∀ (t : Fin cfg1.N) (r : Fin 512) (k : Fin 2048),
      (iblk1 V c 0 t : S512x2048.Idx → EReal) (ix2 r k)
        = P (ix2 (⟨512 * t.val + r.val, by have := t.isLt; have h4 : cfg1.N = 4 := rfl; omega⟩ : Fin 2048) k)) :
    (accS V c 3 (by decide) : S1x1.Idx → EReal) (ix2 (0 : Fin 1) (0 : Fin 1)) = reluSq P := by
  -- the running total and the block sums as functions of the number of the point
  let acc : ℕ → EReal := fun n =>
    if h : n < cfg1.N then (accS V c n h : S1x1.Idx → EReal) (ix2 (0 : Fin 1) (0 : Fin 1)) else 0
  let s : ℕ → EReal := fun n => if h : n < cfg1.N then blockSq (iblk1 V c 0 ⟨n, h⟩) else 0
  have hacc : ∀ n (h : n < cfg1.N),
      acc n = (accS V c n h : S1x1.Idx → EReal) (ix2 (0 : Fin 1) (0 : Fin 1)) := fun n h => dif_pos h
  have hs' : ∀ n (h : n < cfg1.N), s n = blockSq (iblk1 V c 0 ⟨n, h⟩) := fun n h => dif_pos h
  rw [← hacc 3 (by decide)]
  refine Cert.Algebra.reluSq_fold P s acc (fun t => ?_) ?_ (fun n hn => ?_)
  · -- a block of window 0 is a block of rows of P
    rw [hs' t.val t.isLt]
    unfold blockSq
    refine Finset.sum_congr rfl fun r _ => Finset.sum_congr rfl fun k _ => ?_
    exact congrArg (fun y : EReal => max y 0 * max y 0) (hblk ⟨t.val, t.isLt⟩ r k)
  · -- the first point adds its block sum to the cleared total
    rw [hacc 0 (by decide), hs' 0 (by decide), accS_zero]
    refine (PayIdeal.pay3 _ _).trans ?_
    rw [PayIdeal.pay1]
    rfl
  · -- every later point adds its block sum to what the point before left
    have hn' : n + 1 < cfg1.N := hn
    rw [hacc (n + 1) hn', hacc n (Nat.lt_of_succ_lt hn'), hs' (n + 1) hn', accS_succ]
    exact PayIdeal.pay3 _ _

variable (m : (ℓ : Loc nD τ sig) → Buf (Elt Ideal) ℓ) (ρ : Dev nD → PrngReg) (c : Dev nD)

/-- After the second call its first result is the sum over the whole of relu(P)^2: the result's array is what the last
    write-back left, which is the running total after the fourth point, and the blocks the call read are blocks of rows
    of the argument P, which nothing before the call has written. -/
theorem outSq_eq :
    (W3 m ρ c (Proc.devRef .tc main_v24_0) : S1x1.Idx → EReal) (ix2 (0 : Fin 1) (0 : Fin 1))
      = Cert.Spec.reluSq (m ((c.tc : Thread nD τ).loc main_arg3) : Mat 2048 2048) := by
  refine (congrFun (W3_v24_0 m ρ c) _).trans ?_
  refine (congrFun (Hand.out5_eq (Hand.V2 m ρ) c) _).trans ?_
  refine accS_last_eq (Hand.V2 m ρ) c _ (fun t r k => ?_)
  refine (Hand.iblk1_0_apply (Hand.V2 m ρ) c t r k).trans ?_
  exact congrFun (V2_arg3 m ρ c) _

end Cert.KernelIdeal.Value1

end
-- ==== Proof.KIValAcc.lean ====
/-
  The carried 128 x 2048 buffer after the last block holds the selected rows of P.

  The second call runs over four grid points. At point t it reads the block of rows [512 t, 512 t + 512) of P and
  columns [512 t, 512 t + 512) of the first 0/1 table, and adds their product to a 128 x 2048 buffer it cleared to zero
  at the first point. So entry (x, k) of the buffer after the fourth point is zero plus, block after block, the sum over
  the block's 512 rows R of table(x, R) * P(R, k). Four blocks of 512 rows are all 2048 rows, and row x of the table
  holds a single one, in the column that word x of the first list names: what is left is P at that row and column k.
-/
import proofs.«425603_j57767310131732_3_alg».proof.Proof.KIRegion1
import proofs.«425603_j57767310131732_3_alg».proof.Proof.KIArrays
import proofs.«425603_j57767310131732_3_alg».proof.Proof.KIRun
import proofs.«425603_j57767310131732_3_alg».proof.Proof.KIPayIdeal
import proofs.«425603_j57767310131732_3_alg».proof.Proof.Algebra
import proofs.«425603_j57767310131732_3_alg».proof.Proof.KIValCommon

noncomputable section

open scoped BigOperators

namespace Cert.KernelIdeal.Value1

open Idealize.ShloMosaic Idealize.ShloMosaic.TcCoe Idealize.ShloMosaic.ValueIdx
open Cert.KernelIdeal Cert.KernelIdeal.Gen Cert.KernelIdeal.Hand Cert.Spec

/-- What point t adds to entry (x, k) of the buffer: row x of the table's 128 x 512 slice times column k of the block
    of P. -/
def blockDot (V : (c : Dev nD) → (b : Ref sig .tc) → Buf (Elt Ideal) ((c : Thread nD τ).loc b)) (c : Dev nD)
    (t : Fin cfg1.N) (x : Fin 128) (k : Fin 2048) : EReal :=
  ∑ r : Fin 512, (oiSlice (grid1.coords t) (iblk1 V c 1 t) : Vec Ideal S128x512 .f32) (ix2 x r)
    * (iblk1 V c 0 t : Vec Ideal S512x2048 .f32) (ix2 r k)

/-- The buffer after the fourth point, from any contents V whose blocks of window 0 are the blocks of rows of a matrix
    P and whose window 1 is the 0/1 table of a list of words in range: entry (x, k) is P at the row word x names. -/
theorem accT_last_eq (V : (c : Dev nD) → (b : Ref sig .tc) → Buf (Elt Ideal) ((c : Thread nD τ).loc b)) (c : Dev nD)
    (P : Mat 2048 2048) (ii : Words) (hii : ∀ x, InRange (ii x))
    (hblk : ∀ (t : Fin cfg1.N) (r : Fin 512) (k : Fin 2048),
      (iblk1 V c 0 t : S512x2048.Idx → EReal) (ix2 r k) = P (ix2 (⟨512 * t.val + r.val, row1_lt t r⟩ : Fin 2048) k))
    (htab : ∀ (t : Fin cfg1.N) (x : Fin 128) (k : Fin 2048),
      (iblk1 V c 1 t : S128x2048.Idx → EReal) (ix2 x k) = onehot ii (ix2 x k))
    (x : Fin 128) (k : Fin 2048) :
    (accT V c 3 last1_lt : S128x2048.Idx → EReal) (ix2 x k) = P (ix2 (rowOf (ii (ix1 x))) k) := by
  -- entry (x, k) of the buffer and the blocks' contributions as functions of the number of the point
  let T : ℕ → EReal := fun n => if h : n < cfg1.N then (accT V c n h : S128x2048.Idx → EReal) (ix2 x k) else 0
  let s : ℕ → EReal := fun n => if h : n < cfg1.N then blockDot V c ⟨n, h⟩ x k else 0
  have hT : ∀ n (h : n < cfg1.N), T n = (accT V c n h : S128x2048.Idx → EReal) (ix2 x k) := fun n h => dif_pos h
  have hs' : ∀ n (h : n < cfg1.N), s n = blockDot V c ⟨n, h⟩ x k := fun n h => dif_pos h
  have h4 : cfg1.N = 4 := N_1
  rw [← hT 3 last1_lt]
  refine Cert.Algebra.acc_rows P ii hii x k s T (fun t => ?_) ?_ (fun n hn => ?_)
  · -- the slice is the table's columns of this block, the block of window 0 is P's rows of this block
    have ht : t.val < cfg1.N := by have := t.isLt; omega
    rw [hs' t.val ht]
    unfold blockDot
    refine Finset.sum_congr rfl fun r _ => ?_
    exact congrArg₂ (· * ·) ((oiSlice_apply ⟨t.val, ht⟩ _ x r).trans (htab ⟨t.val, ht⟩ x _)) (hblk ⟨t.val, ht⟩ r k)
  · -- the first point adds its contribution to the cleared buffer
    have h0 : 0 < cfg1.N := by omega
    rw [hT 0 h0, hs' 0 h0, accT_zero]
    refine (PayIdeal.pay4 _ _ _ x k).trans ?_
    rw [PayIdeal.pay2]
    rfl
  · -- every later point adds its contribution to what the point before left
    have hn' : n + 1 < cfg1.N := by omega
    rw [hT (n + 1) hn', hT n (Nat.lt_of_succ_lt hn'), hs' (n + 1) hn', accT_succ]
    exact PayIdeal.pay4 _ _ _ x k

/-- The same at the contents the second call is entered with, once two things are known of them: the 2048 x 2048 array
    is still the launch's P, and the first table is the 0/1 table of the launch's first list of words. -/
theorem accT_rows_of (m : (ℓ : Loc nD τ sig) → Buf (Elt Ideal) ℓ) (ρ : Dev nD → PrngReg) (c : Dev nD)
    (hii : ∀ x, InRange ((m ((c.tc : Thread nD τ).loc main_arg5) : Words) x))
    (hP : (V2 m ρ c main_arg3 : Mat 2048 2048) = (m ((c.tc : Thread nD τ).loc main_arg3) : Mat 2048 2048))
    (hoh : ∀ (x : Fin 128) (k : Fin 2048),
      (V2 m ρ c main_v11 : S128x2048.Idx → EReal) (ix2 x k) = onehot (m ((c.tc : Thread nD τ).loc main_arg5) : Words) (ix2 x k))
    (x : Fin 128) (k : Fin 2048) :
    (accT (V2 m ρ) c 3 last1_lt : Vec Ideal S128x2048 .f32) (ix2 x k)
      = (m ((c.tc : Thread nD τ).loc main_arg3) : Mat 2048 2048)
          (ix2 (rowOf ((m ((c.tc : Thread nD τ).loc main_arg5) : Words) (ix1 x))) k) := by
  refine accT_last_eq (V2 m ρ) c (m ((c.tc : Thread nD τ).loc main_arg3) : Mat 2048 2048)
    (m ((c.tc : Thread nD τ).loc main_arg5) : Words) hii (fun t r k' => ?_) (fun t x' k' => ?_) x k
  · exact (iblk1_0_apply (V2 m ρ) c t r k').trans (congrFun hP _)
  · exact (congrFun (iblk1_1_eq (V2 m ρ) c t) (ix2 x' k')).trans (hoh x' k')

/-- The carried buffer after the last block, in the run of the whole program: entry (x, k) is the launch's P at the row
    that word x of the launch's first list names, and column k. -/
theorem accT_rows (m : (ℓ : Loc nD τ sig) → Buf (Elt Ideal) ℓ) (ρ : Dev nD → PrngReg) (c : Dev nD)
    (hii : ∀ x, InRange ((m ((c.tc : Thread nD τ).loc main_arg5) : Words) x))
    (x : Fin 128) (k : Fin 2048) :
    (accT (V2 m ρ) c 3 last1_lt : Vec Ideal S128x2048 .f32) (ix2 x k)
      = (m ((c.tc : Thread nD τ).loc main_arg3) : Mat 2048 2048)
          (ix2 (rowOf ((m ((c.tc : Thread nD τ).loc main_arg5) : Words) (ix1 x))) k) :=
  accT_rows_of m ρ c hii (V2_arg3 m ρ c) (fun x' k' => congrFun (V2_v11 m ρ c) (ix2 x' k')) x k

end Cert.KernelIdeal.Value1

end
-- ==== Proof.KIPayPairStages.lean ====
/-
  Small facts about reading vectors one entry at a time over the extended reals, used to read the pairwise term.

  The pairwise term is assembled from lane sums of matrices (the squared norms of rows), from vectors turned into
  one-column matrices and one-column matrices repeated along their rows (so that a norm per row can be added to a norm
  per column), and from the two float constants 1 and 2. Over the extended reals each of these reads, at an index given
  by its coordinates, as the obvious entry or finite sum; the constants are the numbers their bit patterns denote.
-/
import Idealize.ShloMosaic.Lib.ValueLayout
import Idealize.ShloMosaic.PureOps.Ideal.Laws

noncomputable section

open scoped BigOperators

namespace Cert.KernelIdeal.PayIdeal

open Idealize.ShloMosaic Idealize.ShloMosaic.ValueIdx

/-! ## The two constants -/

/-- The pattern with sign 0, biased exponent 127 and significand 0 denotes 2^23 * 2^(127 - 127 - 23) = 1. -/
theorem word_one : Ideal.ofBits .f32 0x3F800000#32 = 1 := by
  simp [Ideal.ofBits, Ideal.ieee]
  rw [← EReal.coe_mul]
  norm_num

/-- The pattern with sign 0, biased exponent 128 and significand 0 denotes 2^23 * 2^(128 - 127 - 23) = 2. -/
theorem word_two : Ideal.ofBits .f32 0x40000000#32 = 2 := by
  simp [Ideal.ofBits, Ideal.ieee]
  rw [← EReal.coe_mul]
  norm_num
  rfl

/-! ## A lane sum -/

/-- The sum of an a x b matrix along its rows, read at row x: the sum over the columns of the entries of that row. -/
theorem laneSum_apply {a b : ℕ} (v : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ) (x : Fin a) :
    multiReduction .add [1] ⟨1, ![a]⟩ v 0x00000000#32 hr hφ hacc (ix1 x) = ∑ d : Fin b, v (ix2 x d) := by
  refine (Ideal.multiReduction_add_single v _ hr hφ hacc (ix1 x)).trans ?_
  refine Finset.sum_congr rfl fun d _ => congrArg v (funext fun ax => Fin.ext ?_)
  match ax with
  | ⟨0, _⟩ => rfl
  | ⟨1, _⟩ => rfl

/-! ## A vector as a one-column matrix, and a one-column matrix repeated along its rows -/

/-- A vector of length a viewed as an a x 1 matrix reads, at (x, u), the vector at x: position x of the vector and
    position (x, u) of the matrix are the same place in row-major order, since u can only be 0. -/
theorem colCast_apply {α : Type} {a : ℕ} (v : (⟨1, ![a]⟩ : Shape).Idx → α) (h : (⟨1, ![a]⟩ : Shape).ShapeCasts ⟨2, ![a, 1]⟩)
    (x : Fin a) (u : Fin 1) : shapeCast ⟨2, ![a, 1]⟩ v h (ix2 x u) = v (ix1 x) := by
  refine shapeCast_apply v h _ _ ?_
  have hu : u.val = 0 := by omega
  rw [Shape.rowMajor_val_two, Shape.rowMajor_val_one]
  show x.val = x.val * 1 + u.val
  rw [hu, Nat.mul_one, Nat.add_zero]

/-- An a x 1 matrix repeated to a x b reads, at (x, y), its one column at row x. -/
theorem colBroadcast_apply {α : Type} {a b : ℕ} (v : (⟨2, ![a, 1]⟩ : Shape).Idx → α) (h : (⟨2, ![a, 1]⟩ : Shape).Broadcasts ⟨2, ![a, b]⟩)
    (x : Fin a) (y : Fin b) : broadcastTo ⟨2, ![a, b]⟩ v h (ix2 x y) = v (ix2 x (0 : Fin 1)) := by
  refine broadcastTo_apply v h (ix2 x y) (ix2 x (0 : Fin 1)) fun ax => ?_
  match ax with
  | ⟨0, _⟩ =>
    show x.val = if a = 1 then 0 else x.val
    split
    · have := x.isLt; omega
    · rfl
  | ⟨1, _⟩ => rfl

end Cert.KernelIdeal.PayIdeal

end
-- ==== Proof.KIPayPair.lean ====
/-
  The value the second kernel stores at its last step, read over the extended reals.

  At the last grid point the kernel has in hand S (2048 x 1024), the two 0/1 tables oi and oj (128 x 2048 each, one
  row per word of a list, a one in the column the word names), the table eq of coincidences (128 x 128) and the finished
  accumulator acc (128 x 2048), which by then is the first table times relu(P). It computes

      u = oi * S,   v = oj * S                       (the rows of S the two lists name, 128 x 1024 each),
      n(x, y) = |u_x|^2 + |v_y|^2 - 2 u_x . v_y      (the squared distance of row x of u from row y of v),
      w(x, y) = max (acc * oj^T)(x, y) 0             (relu(P) at the pair of rows the words x and y name),

  and stores the sum over all pairs (x, y) of  w(x, y) * ( sqrt (max n(x, y) 0) * (1 - eq(x, y)) ).

  Nothing is rounded over the extended reals, so the stored value is this sum as it stands; the specification's
  pairK is the same expression with the matrix products written as sums over the shared coordinate.
-/
import proofs.«425603_j57767310131732_3_alg».proof.Proof.KIPayIdeal
import proofs.«425603_j57767310131732_3_alg».proof.Proof.KIPayPairStages

noncomputable section

open scoped BigOperators

namespace Cert.KernelIdeal.PayIdeal

open Idealize.ShloMosaic Idealize.ShloMosaic.ValueIdx Cert.KernelIdeal Cert.KernelIdeal.Gen Cert.Spec

/-! ## Reading a square root at an index -/

/-- A square root of a vector, read at an index, is the square root of the entry. -/
theorem sqrt_apply {s : Shape} (v : FVec Ideal s .f32) (i : s.Idx) : sqrt v i = Ideal.sqrt (v i) := rfl

/-! ## The rows a 0/1 table selects -/

/-- The product of a 128 x 2048 table with S, accumulated into zeros and read at (x, d): the sum over k of the table's
    entry (x, k) times S at (k, d). With a 0/1 table this is row number "the k with a one" of S. -/
theorem rows_apply (t : FVec Ideal S128x2048 .f32) (s : FVec Ideal S2048x1024 .f32) (h : S128x2048.ShapeCasts S128x2048)
    (x : Fin 128) (d : Fin 1024) :
    matmul dot_S128x2048_S2048x1024_S128x1024_1_0_0_1_n_n (some .fp32) (shapeCast S128x2048 t h) s
        (constant (F := Ideal) S128x1024 .f32 0x00000000#32) (ix2 x d)
      = rowsK t s x d := by
  unfold rowsK
  exact (matmul_plain_apply _ rfl _ _ s x d).trans
    (Finset.sum_congr rfl fun k _ => congrArg (· * s (ix2 k d)) (congrFun (shapeCast_self t _) _))

/-! ## The last step's stored value -/

/-- The value stored at the last step, read at its one index: the sum over the 128 x 128 pairs (x, y) of

      max (sum_k acc(x, k) * oj(y, k)) 0  *  ( sqrt (max (|u_x|^2 + |v_y|^2 - 2 u_x . v_y) 0) * (1 - eq(x, y)) ),

    where u_x and v_y are the rows of S the two tables select. Every operation of the computation is read at the pair
    (x, y): the sum over both axes first, then the pointwise operations one by one, each matrix product as a sum over its
    shared coordinate, each transpose by exchanging the coordinates, each broadcast by dropping the coordinate it
    repeats, each lane sum as a sum over the lane. -/
theorem pay56 (s : Vec Ideal S2048x1024 .f32) (oi oj : Vec Ideal S128x2048 .f32) (eq : Vec Ideal S128x128 .f32)
    (acc : Vec Ideal S128x2048 .f32) :
    k1_pay5 (F := Ideal) (k1_pay6 (F := Ideal) s oi oj eq acc) (ix2 (0 : Fin 1) (0 : Fin 1))
      = Cert.Spec.pairK s oi oj eq acc := by
  unfold k1_pay5 k1_pay6 Cert.Spec.pairK
  refine (broadcast_apply _ _).trans ?_
  refine (total_apply _ _ _ _ _ _ _).trans ?_
  refine Finset.sum_congr rfl fun x _ => Finset.sum_congr rfl fun y _ => ?_
  refine (mulf_apply _ _ _).trans (congrArg₂ (· * ·) ?sel ?dist)
  case sel =>
    -- the selected entry of relu(P): acc times the second table transposed, clipped at zero
    refine (maximumf_apply _ _ _).trans (congrArg₂ max ?_ Ideal.ofBits_zero_f32)
    refine (matmul_plain_apply _ rfl _ _ _ x y).trans (Finset.sum_congr rfl fun k _ => congrArg (acc (ix2 x k) * ·) ?_)
    exact (transpose_ix2_apply _ _ k y).trans (congrFun (shapeCast_self oj _) _)
  case dist =>
    refine (mulf_apply _ _ _).trans (congrArg₂ (· * ·) ?root ?mask)
    case mask =>
      -- one minus the coincidence table
      exact (subf_apply _ _ _).trans (congrArg₂ (· - ·) word_one (congrFun (shapeCast_self eq _) _))
    case root =>
      refine (sqrt_apply _ _).trans (congrArg Ideal.sqrt ?_)
      refine (maximumf_apply _ _ _).trans (congrArg₂ max ?_ Ideal.ofBits_zero_f32)
      refine (subf_apply _ _ _).trans (congrArg₂ (· - ·) ?norms ?cross)
      case cross =>
        -- twice the inner product of the two selected rows
        refine (mulf_apply _ _ _).trans (congrArg₂ (· * ·) word_two ?_)
        refine (matmul_plain_apply _ rfl _ _ _ x y).trans (Finset.sum_congr rfl fun d _ => congrArg₂ (· * ·) ?_ ?_)
        · exact rows_apply oi s _ x d
        · exact (transpose_ix2_apply _ _ d y).trans (rows_apply oj s _ y d)
      case norms =>
        refine (addf_apply _ _ _).trans (congrArg₂ (· + ·) ?ni ?nj)
        case ni =>
          -- the squared norm of row x of the first selection, repeated along the columns
          refine (colBroadcast_apply _ _ x y).trans ?_
          refine (colCast_apply _ _ x 0).trans ?_
          refine (laneSum_apply _ _ _ _ x).trans (Finset.sum_congr rfl fun d _ => ?_)
          exact (mulf_apply _ _ _).trans (congrArg₂ (· * ·) (rows_apply oi s _ x d) (rows_apply oi s _ x d))
        case nj =>
          -- the squared norm of row y of the second selection, turned into a row and repeated along the rows
          refine (broadcastTo_1b_ab_apply _ _ x y).trans ?_
          refine (transpose_ix2_apply _ _ (0 : Fin 1) y).trans ?_
          refine (colCast_apply _ _ y 0).trans ?_
          refine (laneSum_apply _ _ _ _ y).trans (Finset.sum_congr rfl fun d _ => ?_)
          exact (mulf_apply _ _ _).trans (congrArg₂ (· * ·) (rows_apply oj s _ y d) (rows_apply oj s _ y d))

end Cert.KernelIdeal.PayIdeal

end
-- ==== Proof.KIValPair.lean ====
/-
  The second scalar the second call leaves is the pairwise term.

  At its last point the call stores one value, computed from S, from the two 0/1 tables of the word lists, from the
  table of coincidences and from its own 128 x 2048 buffer. Read over the extended reals that value is the pairwise
  term in the form a matrix unit computes it. When the three tables are the ones the word lists define and row x of the
  buffer is the row of P that word x of the first list names, that form is the specification's pairwise term.
-/
import proofs.«425603_j57767310131732_3_alg».proof.Proof.KIArrays
import proofs.«425603_j57767310131732_3_alg».proof.Proof.KIValCommon
import proofs.«425603_j57767310131732_3_alg».proof.Proof.KIValAcc
import proofs.«425603_j57767310131732_3_alg».proof.Proof.KIPayPair
import proofs.«425603_j57767310131732_3_alg».proof.Proof.Algebra

noncomputable section

open scoped BigOperators

namespace Cert.KernelIdeal.Value1

open Idealize.ShloMosaic Idealize.ShloMosaic.TcCoe Idealize.ShloMosaic.ValueIdx
open Cert.KernelIdeal Cert.KernelIdeal.Gen Cert.KernelIdeal.Hand Cert.Spec

/-- A 128 x 2048 table that agrees entry by entry with the 0/1 table of a word list is that table. -/
theorem table_eq_onehot (oi : Mat 128 2048) (ww : Words)
    (h : ∀ (x : Fin 128) (k : Fin 2048), oi (ix2 x k) = onehot ww (ix2 x k)) : oi = onehot ww := by
  funext j
  obtain ⟨a, b, rfl⟩ : ∃ a b, j = ix2 a b := ⟨j 0, j 1, eq_ix2 j⟩
  exact h a b

/-- A 128 x 128 table that agrees entry by entry with the table of coincidences of two word lists is that table. -/
theorem table_eq_eqmask (eq : Mat 128 128) (ii jj : Words)
    (h : ∀ (x y : Fin 128), eq (ix2 x y) = eqmask ii jj (ix2 x y)) : eq = eqmask ii jj := by
  funext j
  obtain ⟨a, b, rfl⟩ : ∃ a b, j = ix2 a b := ⟨j 0, j 1, eq_ix2 j⟩
  exact h a b

/-- The pairwise term in the matrix unit's form, from S, tables that are the word lists' own, and a buffer whose row x
    is the row of P that word x of the first list names: the specification's pairwise term. -/
theorem pairK_tables_eq (P : Mat 2048 2048) (S : Mat 2048 1024) (ii jj : Words) (hii : ∀ x, InRange (ii x))
    (hjj : ∀ x, InRange (jj x)) (hS : Finite S)
    (oi oj : Mat 128 2048) (eq : Mat 128 128) (acc : Mat 128 2048)
    (hoi : ∀ (x : Fin 128) (k : Fin 2048), oi (ix2 x k) = onehot ii (ix2 x k))
    (hoj : ∀ (x : Fin 128) (k : Fin 2048), oj (ix2 x k) = onehot jj (ix2 x k))
    (heq : ∀ (x y : Fin 128), eq (ix2 x y) = eqmask ii jj (ix2 x y))
    (hacc : ∀ (x : Fin 128) (k : Fin 2048), acc (ix2 x k) = P (ix2 (rowOf (ii (ix1 x))) k)) :
    pairK S oi oj eq acc = pairPen P S ii jj := by
  obtain rfl := table_eq_onehot oi ii hoi
  obtain rfl := table_eq_onehot oj jj hoj
  obtain rfl := table_eq_eqmask eq ii jj heq
  exact Cert.Algebra.pairK_eq P S ii jj hii hjj hS acc hacc

variable (m : (ℓ : Loc nD τ sig) → Buf (Elt Ideal) ℓ) (ρ : Dev nD → PrngReg) (c : Dev nD)

/-- After the second call its second result is the pairwise term: the result's array is the value stored at the last
    point, computed from S, the three tables and the call's own buffer; S and the tables are what the argument lists
    define, and row x of the buffer is the row of P that word x of the first list names. -/
theorem outPair_eq
    (hii : ∀ x, Cert.Spec.InRange ((m ((c.tc : Thread nD τ).loc main_arg5) : Cert.Spec.Words) x))
    (hjj : ∀ x, Cert.Spec.InRange ((m ((c.tc : Thread nD τ).loc main_arg6) : Cert.Spec.Words) x))
    (hS : Cert.Spec.Finite (m ((c.tc : Thread nD τ).loc main_arg4) : Cert.Spec.Mat 2048 1024)) :
    (W3 m ρ c (Proc.devRef .tc main_v24_1) : S1x1.Idx → EReal) (ix2 (0 : Fin 1) (0 : Fin 1))
      = Cert.Spec.pairPen (m ((c.tc : Thread nD τ).loc main_arg3)) (m ((c.tc : Thread nD τ).loc main_arg4))
          (m ((c.tc : Thread nD τ).loc main_arg5)) (m ((c.tc : Thread nD τ).loc main_arg6)) := by
  refine (congrFun (W3_v24_1 m ρ c) _).trans ?_
  refine (congrFun (Hand.out6_eq (Hand.V2 m ρ) c) _).trans ?_
  refine (PayIdeal.pay56 _ _ _ _ _).trans ?_
  rw [V2_arg4 m ρ c]
  exact pairK_tables_eq _ _ _ _ hii hjj hS _ _ _ _
    (fun x k => congrFun (V2_v11 m ρ c) _) (fun x k => congrFun (V2_v17 m ρ c) _)
    (fun x y => congrFun (V2_v23 m ρ c) _) (fun x k => accT_rows m ρ c hii x k)

end Cert.KernelIdeal.Value1

end
-- ==== Proof.KIValue.lean ====
import proofs.«425603_j57767310131732_3_alg».proof.Proof.KIValCommon
import proofs.«425603_j57767310131732_3_alg».proof.Proof.KIValData
import proofs.«425603_j57767310131732_3_alg».proof.Proof.KIValSq
import proofs.«425603_j57767310131732_3_alg».proof.Proof.KIValPair
import proofs.«425603_j57767310131732_3_alg».proof.Proof.Algebra

/-! # The kernel program's result is the loss

The last stretch of operations computes, from the four numbers it finds, (first root) + (weight) * (root of the sum of
relu(P)^2 + pairwise term). Each of the four has been identified with its piece of the specification: the first root
with the root of the sum of squared differences, the weight with the scalar argument, the two results of the second
kernel region with the sum of relu(P)^2 and with the pairwise term. Put together they are the loss. -/

noncomputable section

namespace Cert.KernelIdeal.Value1

open Idealize.ShloMosaic Idealize.ShloMosaic.TcCoe Idealize.ShloMosaic.ValueIdx
open Cert.KernelIdeal Cert.KernelIdeal.Gen Cert.KernelIdeal.HostVal
open Cert.KernelIdeal.Hand (W0 W1 W2 W3 W4)

/-- At the end of the run the result buffer holds the loss of the arguments as launched, provided the two lists hold
    row numbers of a 2048-row matrix and S has real entries. -/
theorem kernel_value (m : (ℓ : Loc nD τ sig) → Buf (Elt Ideal) ℓ) (ρ : Dev nD → PrngReg) (c : Dev nD)
    (hii : ∀ x, Cert.Spec.InRange ((m ((c.tc : Thread nD τ).loc main_arg5) : Cert.Spec.Words) x))
    (hjj : ∀ x, Cert.Spec.InRange ((m ((c.tc : Thread nD τ).loc main_arg6) : Cert.Spec.Words) x))
    (hS : Cert.Spec.Finite (m ((c.tc : Thread nD τ).loc main_arg4) : Cert.Spec.Mat 2048 1024)) :
    (W4 m ρ c (Proc.devRef .tc main_v30) : S_.Idx → EReal)
      = fun _ => Cert.Spec.total (m ((c.tc : Thread nD τ).loc main_arg0)) (m ((c.tc : Thread nD τ).loc main_arg1))
          ((m ((c.tc : Thread nD τ).loc main_arg2) : S_.Idx → EReal) ix0)
          (m ((c.tc : Thread nD τ).loc main_arg3)) (m ((c.tc : Thread nD τ).loc main_arg4))
          (m ((c.tc : Thread nD τ).loc main_arg5)) (m ((c.tc : Thread nD τ).loc main_arg6)) := by
  refine (W4_v30 m ρ c).trans (funext fun _ => ?_)
  refine (congrArg (fun u : EReal => u + weight (W0 m ρ c) ix0
      * (Ideal.sqrt (outSq (W3 m ρ c) (ix2 (0 : Fin 1) (0 : Fin 1))) + outPair (W3 m ρ c) (ix2 (0 : Fin 1) (0 : Fin 1))))
    (rootA_eq m ρ c)).trans ?_
  exact Cert.Algebra.total_of _ _ _ _ _ _ _ _ _ _ rfl (outSq_eq m ρ c) (outPair_eq m ρ c hii hjj hS)

end Cert.KernelIdeal.Value1

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibGatherRows.lean ====
/-
  THE HOST'S GATHER OF WHOLE ROWS READ AT AN INDEX.

  What x[idx] of a matrix x : [P, C] at a column idx : [N, 1] of row numbers lowers to: a gather with offset axes [1],
  collapsed slice axes [0], no batching axes, start index map [0], the index vector on axis 1 and slices of one row
  (slice sizes [1, C]). Result element (n, ch) is x at row idx[n, 0] — read signed and clamped into [0, P - 1], as
  the gather clamps every start index — and column ch (gather_rows_apply).

  The operand index of a gather is, on each operand axis, the clamped start plus the batching coordinate plus the
  offset coordinate. On axis 0 (collapsed, named by the start index map) only the start is there; on axis 1 (kept, not
  named) only the offset coordinate, which is the result index's coordinate on the one offset axis. The start index is
  read at the start-indices index [n, 0] (siIdx_rows): the result's one batch axis carries n, and the index vector's
  axis has extent one.

  The extents P, C, N and the index width w are variables; the dimension numbers are known only through the equations
  on their lists.
-/
import Idealize.ShloMosaic.PureOps.ShapeOps
import Idealize.ShloMosaic.Lib.ValueIdx
import proofs.«425603_j57767310131732_3_alg».proof.Proof.LibScatterSum

namespace Idealize.ShloMosaic.GatherRows

open Idealize.ShloMosaic Idealize.ShloMosaic.ValueIdx Idealize.ShloMosaic.ScatterSum

section Rows
variable {α : Type} {P C N w : Nat}

/-- Result index (n, ch) reads its start index at [n, 0]. -/
theorem siIdx_rows (d : GatherDims (⟨2, ![P, C]⟩ : Shape) (⟨2, ![N, 1]⟩ : Shape) (⟨2, ![N, C]⟩ : Shape))
    (hod : d.offsetDims = [1]) (hiv : d.indexVectorDim = 1) (n : Fin N) (ch : Fin C)
    (c : Fin d.startIndexMap.length) : d.siIdx (ix2 n ch) c = ix2 n (0 : Fin 1) := by
  have hbd : d.batchDims = [0] := by
    show Shape.kept _ d.offsetDims = [0]
    rw [hod]; rfl
  funext b
  refine Fin.ext ?_
  match b with
  | ⟨0, hb⟩ =>
    unfold GatherDims.siIdx
    rw [dif_neg (by rw [hiv]; exact Nat.zero_ne_one)]
    unfold GatherDims.siCoord
    exact congrArg (fun e => (ix2 n ch e).val) (getElem_of_eq_singleton hbd _ _)
  | ⟨1, hb⟩ =>
    have h1 : (d.siIdx (ix2 n ch) c ⟨1, hb⟩).val < 1 := (d.siIdx (ix2 n ch) c ⟨1, hb⟩).isLt
    show (d.siIdx (ix2 n ch) c ⟨1, hb⟩).val = 0
    omega

/-- THE GATHER READ AT (n, ch): the operand at the row idx[n, 0] names, read signed and clamped into [0, P - 1], and
    column ch. -/
theorem gather_rows_apply (hP : 0 < P)
    (d : GatherDims (⟨2, ![P, C]⟩ : Shape) (⟨2, ![N, 1]⟩ : Shape) (⟨2, ![N, C]⟩ : Shape))
    (hod : d.offsetDims = [1]) (hcd : d.collapsedSliceDims = [0]) (hob : d.operandBatchingDims = [])
    (hsm : d.startIndexMap = [0]) (hiv : d.indexVectorDim = 1) (hss : d.sliceSizes 0 = 1)
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  have h0mem : (0 : Fin 2) ∈ d.startIndexMap := by rw [hsm]; exact List.mem_singleton.2 rfl
  have h1nmem : (1 : Fin 2) ∉ d.startIndexMap := by
    rw [hsm]; exact fun h => h10 (List.mem_singleton.1 h)
  have hnb : ∀ a : Fin 2, a ∉ d.operandBatchingDims := by
    intro a; rw [hob]; exact List.not_mem_nil
  have h0k : (0 : Fin 2) ∉ d.sKept := fun h =>
    ((d.mem_sKept _).1 h).1 (by rw [hcd]; exact List.mem_singleton.2 rfl)
  have h1k : (1 : Fin 2) ∈ d.sKept :=
    (d.mem_sKept _).2 ⟨by rw [hcd]; exact fun h => h10 (List.mem_singleton.1 h), hnb 1⟩
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    unfold GatherDims.start
    rw [dif_pos h0mem, siIdx_rows d hod hiv n ch, hss]
    rfl
  | ⟨1, _⟩ =>
    show d.start (ix2 n ch) idx 1 + d.batchCoord (ix2 n ch) 1 + d.offCoord (ix2 n ch) 1 = ch.val
    rw [d.batchCoord_eq_zero _ _ (hnb 1)]
    unfold GatherDims.start GatherDims.offCoord
    rw [dif_neg h1nmem, dif_pos h1k]
    show 0 + 0 + ((ix2 n ch) (d.offsetDims[d.sKept.idxOf 1]'_)).val = ch.val
    simp only [Nat.zero_add]
    exact congrArg (fun e => (ix2 n ch e).val) (getElem_of_eq_singleton hod _ _)

end Rows

end Idealize.ShloMosaic.GatherRows
-- ==== Proof.LibGatherPairs.lean ====
/-
  THE HOST'S GATHER OF SINGLE ELEMENTS OF A MATRIX AT PAIRS OF INDICES, READ AT AN INDEX.

  What x[i, j] of a matrix x : [P, Q] at two broadcast integer arrays lowers to: the two index arrays are joined along
  a new last axis into idx : [R, C, 2], and the gather has no offset axes, collapsed slice axes [0, 1], no batching
  axes, start index map [0, 1], the index vector on axis 2 and slices of one element (slice sizes [1, 1]). Result
  element (r, c) is x at row idx[r, c, 0] and column idx[r, c, 1], each read signed and clamped into the operand's
  extent on its axis, as the gather clamps every start index (gather_pairs_apply).

  The operand index of a gather is, on each operand axis, the clamped start plus the batching coordinate plus the
  offset coordinate. Both operand axes are collapsed and named by the start index map, so only the start is there:
  component k of the start index, read at the start-indices index [r, c, k] (the result's two batch axes carry r and
  c, the index vector's axis carries k).

  The extents P, Q, R, C and the index width w are variables: nothing here evaluates a size.
-/
import Idealize.ShloMosaic.PureOps.ShapeOps
import Idealize.ShloMosaic.Lib.ValueIdx

namespace Idealize.ShloMosaic.GatherPairs

open Idealize.ShloMosaic Idealize.ShloMosaic.ValueIdx

section Pairs
variable {α : Type}

/-- Those dimension numbers for an operand [P, Q], start indices [R, C, 2] and result [R, C]; their conditions are
    decided on a program's literal shapes. -/
abbrev pairDims (P Q R C : Nat)
    (wf : GatherDims.WF ⟨2, ![P, Q]⟩ ⟨3, ![R, C, 2]⟩ ⟨2, ![R, C]⟩ [] [0, 1] [] [0, 1] [] 2 ![1, 1]) :
    GatherDims ⟨2, ![P, Q]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

/-- THE GATHER READ AT (r, c): the operand at row idx[r, c, 0] and column idx[r, c, 1], each read signed and clamped
    into its axis. -/
theorem gather_pairs_apply {P Q R C w : Nat} (hP : 0 < P) (hQ : 0 < Q)
    (wf : GatherDims.WF ⟨2, ![P, Q]⟩ ⟨3, ![R, C, 2]⟩ ⟨2, ![R, C]⟩ [] [0, 1] [] [0, 1] [] 2 ![1, 1])
    (x : (⟨2, ![P, Q]⟩ : Shape).Idx → α) (idx : IVec ⟨3, ![R, C, 2]⟩ w) (r : Fin R) (c : Fin C) :
    Host.gather (pairDims P Q R C wf) x idx (ix2 r c)
      = x (ix2 (⟨min (idx (ix3 r c (0 : Fin 2))).toInt.toNat (P - 1), by omega⟩ : Fin P)
            (⟨min (idx (ix3 r c (1 : Fin 2))).toInt.toNat (Q - 1), by omega⟩ : Fin Q)) := by
  have hnk : ∀ a : Fin 2, a ∉ (pairDims P Q R C wf).sKept := by
    intro a h
    have := ((GatherDims.mem_sKept _ _).mp h).1
    apply this
    match a with
    | ⟨0, _⟩ => exact List.mem_cons_self
    | ⟨1, _⟩ => exact List.mem_cons_of_mem _ List.mem_cons_self
  unfold Host.gather
  congr 1
  funext a
  refine Fin.ext ?_
  match a with
  | ⟨0, _⟩ =>
    show (pairDims P Q R C wf).start (ix2 r c) idx 0 + (pairDims P Q R C wf).batchCoord (ix2 r c) 0
        + (pairDims P Q R C wf).offCoord (ix2 r c) 0 = _
    rw [GatherDims.batchCoord_eq_zero _ _ _ List.not_mem_nil, GatherDims.offCoord_eq_zero _ _ _ (hnk 0)]
    simp only [Nat.add_zero]
    unfold GatherDims.start
    rw [dif_pos (show (0 : Fin 2) ∈ (pairDims P Q R C wf).startIndexMap from List.mem_cons_self)]
    have hsi : (pairDims P Q R C wf).siIdx (ix2 r c) ⟨List.idxOf (0 : Fin 2) (pairDims P Q R C wf).startIndexMap,
        List.idxOf_lt_length_iff.2 List.mem_cons_self⟩ = ix3 r c (0 : Fin 2) := by
      funext b; refine Fin.ext ?_
      match b with
      | ⟨0, _⟩ => rfl
      | ⟨1, _⟩ => rfl
      | ⟨2, _⟩ => rfl
    rw [hsi]
    rfl
  | ⟨1, _⟩ =>
    show (pairDims P Q R C wf).start (ix2 r c) idx 1 + (pairDims P Q R C wf).batchCoord (ix2 r c) 1
        + (pairDims P Q R C wf).offCoord (ix2 r c) 1 = _
    rw [GatherDims.batchCoord_eq_zero _ _ _ List.not_mem_nil, GatherDims.offCoord_eq_zero _ _ _ (hnk 1)]
    simp only [Nat.add_zero]
    unfold GatherDims.start
    rw [dif_pos (show (1 : Fin 2) ∈ (pairDims P Q R C wf).startIndexMap from
      List.mem_cons_of_mem _ List.mem_cons_self)]
    have hsi : (pairDims P Q R C wf).siIdx (ix2 r c) ⟨List.idxOf (1 : Fin 2) (pairDims P Q R C wf).startIndexMap,
        List.idxOf_lt_length_iff.2 (List.mem_cons_of_mem _ List.mem_cons_self)⟩ = ix3 r c (1 : Fin 2) := by
      funext b; refine Fin.ext ?_
      match b with
      | ⟨0, _⟩ => rfl
      | ⟨1, _⟩ => rfl
      | ⟨2, _⟩ => rfl
    rw [hsi]
    rfl

end Pairs

end Idealize.ShloMosaic.GatherPairs
-- ==== Proof.RefValue.lean ====
/-
  The reference program computes the loss of the specification.

  Its result is read one operation at a time, each at a single index, down to one extended real, and identified with
  Cert.Spec.total:

      sqrt (sum (a - b)^2)  +  lam * ( sqrt (sum relu(P)^2)  +  sum_{x,y} relu(P)[ii x, jj y] * || S[ii x] - S[jj y] || ).

  The two Frobenius norms are a whole-array sum under a root. The pairwise term has three ingredients. The rows of S
  are gathered whole, at start indices that are clamped into [0, 2047]; a word in range is its own clamp, and the
  wrap-around of negative indices applied before each gather is the identity on such a word. The distance of two rows
  is computed with a root made safe at zero, sqrt (d if d > 0 else 1) * [d > 0]; for a real d ≥ 0 that is sqrt d (both
  sides are 0 at d = 0), and d is such a real because it is a finite sum of squares of differences of real entries:
  this is the one place where the entries of S must be real. relu(P) is gathered one element per pair, at the index
  vector (ii x, jj y) joined from the two lists along a last axis of extent two. Sums over an index set of rank two
  are the double sums over the coordinates.
-/
import proofs.«425603_j57767310131732_3_alg».proof.Proof.Gen.ReferenceIdeal.Run
import proofs.«425603_j57767310131732_3_alg».proof.Proof.Gen.ReferenceIdeal.Read
import proofs.«425603_j57767310131732_3_alg».proof.Proof.Spec
import proofs.«425603_j57767310131732_3_alg».proof.Proof.LibGatherRows
import proofs.«425603_j57767310131732_3_alg».proof.Proof.LibGatherPairs

noncomputable section

namespace Cert.ReferenceIdeal.RefValue

open Cert.ReferenceIdeal Cert.ReferenceIdeal.Gen Idealize.ShloMosaic Idealize.ShloMosaic.ValueIdx
open scoped BigOperators

/-! ## Scalars -/

/-- A real sum read in the extended reals. -/
theorem coe_sum {ι : Type} (s : Finset ι) (f : ι → ℝ) : ((∑ k ∈ s, f k : ℝ) : EReal) = ∑ k ∈ s, (f k : EReal) := by
  classical
  refine Finset.induction_on s (by simp) ?_
  intro k s hk ih
  rw [Finset.sum_insert hk, Finset.sum_insert hk, EReal.coe_add, ih]

/-- A row number already in range is not moved by the wrap-around of negative indices. -/
theorem wrap_id (w : BitVec 32) (h : Cert.Spec.InRange w) :
    Scalar.select (IntOp.cmpi .slt w 0#32) (IntOp.addi w 2048#32) w = w := by
  have hc : IntOp.cmpi .slt w 0#32 = 0#1 := by
    show BitVec.ofBool (w.slt 0#32) = 0#1
    have : w.slt 0#32 = false := by
      rw [BitVec.slt_eq_decide]
      exact decide_eq_false (by rw [BitVec.toInt_zero]; exact not_lt.2 h.1)
    rw [this]; rfl
  rw [hc]; exact select_zero _ _

/-- The zero-safe root: for a real d ≥ 0, sqrt (d if d > 0 else 1) times the indicator of d > 0 is sqrt d. -/
theorem safe_root (r : ℝ) (hr : 0 ≤ r) :
    Ideal.sqrt (Scalar.select (Ideal.cmp .ogt (r : EReal) 0) (r : EReal) 1)
        * ((((Ideal.cmp .ogt (r : EReal) 0).toNat : ℝ)) : EReal)
      = Ideal.sqrt (r : EReal) := by
  rcases hr.lt_or_eq with hpos | hz
  · have hc : Ideal.cmp .ogt (r : EReal) 0 = 1#1 := by
      show BitVec.ofBool (decide ((0 : EReal) < (r : EReal))) = 1#1
      rw [decide_eq_true (by exact_mod_cast hpos)]; rfl
    rw [hc, select_one]
    show Ideal.sqrt (r : EReal) * (((1 : ℕ) : ℝ) : EReal) = _
    simp
  · subst hz
    have hc : Ideal.cmp .ogt ((0 : ℝ) : EReal) 0 = 0#1 := by
      show BitVec.ofBool (decide ((0 : EReal) < ((0 : ℝ) : EReal))) = 0#1
      rw [decide_eq_false (by simp)]; rfl
    rw [hc, select_zero]
    have h0 : Ideal.sqrt ((0 : ℝ) : EReal) = 0 := by rw [Ideal.sqrt_coe]; simp
    have h1 : Ideal.sqrt 1 = 1 := by
      rw [show (1 : EReal) = ((1 : ℝ) : EReal) from rfl, Ideal.sqrt_coe]; simp
    show Ideal.sqrt 1 * (((0 : ℕ) : ℝ) : EReal) = Ideal.sqrt ((0 : ℝ) : EReal)
    rw [h0, h1]; simp

/-! ## The two Frobenius norms -/

/-- The norm of a - b: the root of the sum over all entries of the squared difference. -/
theorem norm_diff (a b : FVec Ideal S4096x4096 .f32) (i : S_.Idx) :
    Read.val_main_v51 (F := Ideal) a b i = Ideal.sqrt (Cert.Spec.sqDiff a b) := by
  rw [Read.val_main_v51_apply, Read.val_main_call2_v1_apply, Read.val_main_call2_cst_apply]
  simp only [Read.val_main_call2_v0_apply, Read.val_main_v50_apply, Ideal.ofBits_def, Ideal.mulf_def, Ideal.subf_def,
    Ideal.ofBits_zero_f32, zero_add]
  rw [sum_idx2]
  rfl

/-- The norm of relu(P). -/
theorem norm_relu (P : FVec Ideal S2048x2048 .f32) (i : S_.Idx) :
    Read.val_main_v2 (F := Ideal) P i = Ideal.sqrt (Cert.Spec.reluSq P) := by
  rw [Read.val_main_v2_apply, Read.val_main_call0_v1_apply, Read.val_main_call0_cst_apply]
  simp only [Read.val_main_call0_v0_apply, Read.val_main_v1_apply, Read.val_main_v0_apply, Read.val_main_cst_apply,
    Ideal.ofBits_def, Ideal.mulf_def, Ideal.maximumf_def, Ideal.ofBits_zero_f32, zero_add]
  rw [sum_idx2]
  rfl

/-! ## The rows of S the two lists name -/

/-- The index column handed to the first row gather holds the first list's own words. -/
theorem col_fst (ii : IVec S128 32) (hii : ∀ x, Cert.Spec.InRange (ii x)) (x : Fin 128) :
    Read.val_main_v8 (F := Ideal) ii (ix2 x (0 : Fin 1)) = ii (ix1 x) := by
  rw [Read.val_main_v8_apply, Read.val_main_v7_apply, Read.val_main_v4_apply, Read.val_main_v6_apply,
    Read.val_main_v3_apply, Read.val_main_v5_apply, Read.val_main_c_apply, Read.val_main_c_0_apply]
  have e : Read.idx_main_v8 (ix2 x (0 : Fin 1)) = ix1 x :=
    funext fun a => Fin.ext (by match a with | ⟨0, _⟩ => rfl)
  rw [e]
  exact wrap_id _ (hii _)

/-- The index column handed to the second row gather holds the second list's own words. -/
theorem col_snd (jj : IVec S128 32) (hjj : ∀ x, Cert.Spec.InRange (jj x)) (y : Fin 128) :
    Read.val_main_v15 (F := Ideal) jj (ix2 y (0 : Fin 1)) = jj (ix1 y) := by
  rw [Read.val_main_v15_apply, Read.val_main_v14_apply, Read.val_main_v11_apply, Read.val_main_v13_apply,
    Read.val_main_v10_apply, Read.val_main_v12_apply, Read.val_main_c_1_apply, Read.val_main_c_2_apply]
  have e : Read.idx_main_v15 (ix2 y (0 : Fin 1)) = ix1 y :=
    funext fun a => Fin.ext (by match a with | ⟨0, _⟩ => rfl)
  rw [e]
  exact wrap_id _ (hjj _)

/-- Entry (x, d) of the first gathered matrix is S at the row word x of the first list names. -/
theorem rows_fst (S : FVec Ideal S2048x1024 .f32) (ii : IVec S128 32) (hii : ∀ x, Cert.Spec.InRange (ii x))
    (x : Fin 128) (d : Fin 1024) :
    Read.val_main_v9 (F := Ideal) S ii (ix2 x d) = S (ix2 (Cert.Spec.rowOf (ii (ix1 x))) d) := by
  unfold Read.val_main_v9
  refine (GatherRows.gather_rows_apply (by decide) gather_S2048x1024_S128x1_S128x1024_1_0_n_n_0_1_11024
    rfl rfl rfl rfl rfl rfl S (Read.val_main_v8 (F := Ideal) ii) x d).trans ?_
  refine congrArg (fun r : Fin 2048 => S (ix2 r d)) (Fin.ext ?_)
  show min (BitVec.toInt (Read.val_main_v8 (F := Ideal) ii (ix2 x (0 : Fin 1)))).toNat (2048 - 1)
    = min (BitVec.toInt (ii (ix1 x))).toNat 2047
  rw [col_fst ii hii x]

/-- Entry (y, d) of the second gathered matrix is S at the row word y of the second list names. -/
theorem rows_snd (S : FVec Ideal S2048x1024 .f32) (jj : IVec S128 32) (hjj : ∀ x, Cert.Spec.InRange (jj x))
    (y : Fin 128) (d : Fin 1024) :
    Read.val_main_v16 (F := Ideal) S jj (ix2 y d) = S (ix2 (Cert.Spec.rowOf (jj (ix1 y))) d) := by
  unfold Read.val_main_v16
  refine (GatherRows.gather_rows_apply (by decide) gather_S2048x1024_S128x1_S128x1024_1_0_n_n_0_1_11024
    rfl rfl rfl rfl rfl rfl S (Read.val_main_v15 (F := Ideal) jj) y d).trans ?_
  refine congrArg (fun r : Fin 2048 => S (ix2 r d)) (Fin.ext ?_)
  show min (BitVec.toInt (Read.val_main_v15 (F := Ideal) jj (ix2 y (0 : Fin 1)))).toNat (2048 - 1)
    = min (BitVec.toInt (jj (ix1 y))).toNat 2047
  rw [col_snd jj hjj y]

/-! ## The distance of two rows -/

/-- The squared distance of the two named rows: the differences of the broadcast rows, squared and summed over the
    row's length. -/
theorem sq_dist (S : FVec Ideal S2048x1024 .f32) (ii jj : IVec S128 32) (hii : ∀ x, Cert.Spec.InRange (ii x))
    (hjj : ∀ x, Cert.Spec.InRange (jj x)) (x y : Fin 128) :
    Read.val_main_v23 (F := Ideal) S ii jj (ix2 x y)
      = Cert.Spec.dist2 S (Cert.Spec.rowOf (ii (ix1 x))) (Cert.Spec.rowOf (jj (ix1 y))) := by
  rw [Read.val_main_v23_apply, Read.val_main_cst_3_apply, Ideal.ofBits_def, Ideal.ofBits_zero_f32, zero_add]
  unfold Cert.Spec.dist2
  refine Finset.sum_congr rfl fun k _ => ?_
  have e1 : Read.idx_main_v17 (Read.idx_main_v19 (Read.idx_main_v23 (ix2 x y) k)) = ix2 x k :=
    funext fun a => Fin.ext (by match a with | ⟨0, _⟩ => rfl | ⟨1, _⟩ => rfl)
  have e2 : Read.idx_main_v18 (Read.idx_main_v20 (Read.idx_main_v23 (ix2 x y) k)) = ix2 y k :=
    funext fun a => Fin.ext (by match a with | ⟨0, _⟩ => rfl | ⟨1, _⟩ => rfl)
  rw [Read.val_main_v22_apply, Read.val_main_v21_apply, Read.val_main_v19_apply, Read.val_main_v17_apply,
    Read.val_main_v20_apply, Read.val_main_v18_apply, e1, e2, rows_fst S ii hii x k, rows_snd S jj hjj y k]
  rfl

/-- A squared distance of rows of real entries is a real number, and not negative. -/
theorem dist2_real (S : FVec Ideal S2048x1024 .f32) (hS : Cert.Spec.Finite S) (i j : Fin 2048) :
    ∃ r : ℝ, 0 ≤ r ∧ Cert.Spec.dist2 S i j = (r : EReal) := by
  choose f hf using hS
  refine ⟨∑ d : Fin 1024, (f (ix2 i d) - f (ix2 j d)) * (f (ix2 i d) - f (ix2 j d)),
    Finset.sum_nonneg fun _ _ => mul_self_nonneg _, ?_⟩
  unfold Cert.Spec.dist2
  rw [coe_sum]
  refine Finset.sum_congr rfl fun d _ => ?_
  rw [hf, hf, EReal.coe_mul, EReal.coe_sub]

/-- The word of the float one. -/
theorem word_one : Ideal.ofBits .f32 0x3F800000#32 = 1 := by
  simp [Ideal.ofBits, Ideal.ieee, -EReal.coe_mul]; norm_num

/-- The zero-safe norm of the difference of the two named rows is the root of their squared distance. -/
theorem row_dist (S : FVec Ideal S2048x1024 .f32) (ii jj : IVec S128 32) (hii : ∀ x, Cert.Spec.InRange (ii x))
    (hjj : ∀ x, Cert.Spec.InRange (jj x)) (hS : Cert.Spec.Finite S) (x y : Fin 128) :
    Read.val_main_v29 (F := Ideal) S ii jj (ix2 x y)
      = Ideal.sqrt (Cert.Spec.dist2 S (Cert.Spec.rowOf (ii (ix1 x))) (Cert.Spec.rowOf (jj (ix1 y)))) := by
  obtain ⟨r, hr, hd⟩ := dist2_real S hS (Cert.Spec.rowOf (ii (ix1 x))) (Cert.Spec.rowOf (jj (ix1 y)))
  rw [Read.val_main_v29_apply, Read.val_main_v27_apply, Read.val_main_v28_apply, Read.val_main_v26_apply,
    Read.val_main_v25_apply, Read.val_main_v24_apply, Read.val_main_cst_4_apply, Read.val_main_call1_v1_apply,
    Read.val_main_call1_v0_apply, Read.val_main_cst_5_apply, sq_dist S ii jj hii hjj x y, hd]
  show Ideal.sqrt (Scalar.select (Ideal.cmp .ogt (r : EReal) (Ideal.ofBits .f32 0x00000000#32)) (r : EReal)
      (Ideal.ofBits .f32 0x3F800000#32))
    * ((((Ideal.cmp .ogt (r : EReal) (Ideal.ofBits .f32 0x00000000#32)).toNat : ℝ)) : EReal) = _
  rw [Ideal.ofBits_zero_f32, word_one]
  exact safe_root r hr

/-! ## The index tensor of the two-index gather -/

/-- Component 0 of the index vector at (x, y) is word x of the first list. -/
theorem idx_pair_fst (ii jj : IVec S128 32) (hii : ∀ x, Cert.Spec.InRange (ii x)) (x y : Fin 128) :
    Read.val_main_v46 (F := Ideal) ii jj (ix3 x y (0 : Fin 2)) = ii (ix1 x) := by
  unfold Read.val_main_v46
  refine (concatenate_pair_apply_left (t := S128x128x2) (s₁ := S128x128x1) (s₂ := S128x128x1) (2 : Fin 3)
    (Read.val_main_v44 (F := Ideal) ii) (Read.val_main_v45 (F := Ideal) jj)
    concatenates_S128x128x1_S128x128x1_S128x128x2_d2 (ix3 x y (0 : Fin 2)) rfl (ix3 x y (0 : Fin 1))
    (fun b => by match b with | ⟨0, _⟩ => rfl | ⟨1, _⟩ => rfl | ⟨2, _⟩ => rfl)).trans ?_
  rw [Read.val_main_v44_apply, Read.val_main_v42_apply, Read.val_main_v36_apply, Read.val_main_v33_apply,
    Read.val_main_v35_apply, Read.val_main_v30_apply, Read.val_main_v32_apply, Read.val_main_v34_apply,
    Read.val_main_c_6_apply, Read.val_main_c_7_apply]
  have e : Read.idx_main_v30 (Read.idx_main_v42 (Read.idx_main_v44 (ix3 x y (0 : Fin 1)))) = ix1 x :=
    funext fun a => Fin.ext (by match a with | ⟨0, _⟩ => rfl)
  rw [e]
  exact wrap_id _ (hii _)

/-- Component 1 of the index vector at (x, y) is word y of the second list. -/
theorem idx_pair_snd (ii jj : IVec S128 32) (hjj : ∀ x, Cert.Spec.InRange (jj x)) (x y : Fin 128) :
    Read.val_main_v46 (F := Ideal) ii jj (ix3 x y (1 : Fin 2)) = jj (ix1 y) := by
  unfold Read.val_main_v46
  refine (concatenate_pair_apply_right (t := S128x128x2) (s₁ := S128x128x1) (s₂ := S128x128x1) (2 : Fin 3)
    (Read.val_main_v44 (F := Ideal) ii) (Read.val_main_v45 (F := Ideal) jj)
    concatenates_S128x128x1_S128x128x1_S128x128x2_d2 (ix3 x y (1 : Fin 2)) rfl rfl (ix3 x y (0 : Fin 1))
    (fun b hb => by
      match b with
      | ⟨0, _⟩ => rfl
      | ⟨1, _⟩ => rfl
      | ⟨2, _⟩ => exact absurd rfl hb)
    rfl).trans ?_
  rw [Read.val_main_v45_apply, Read.val_main_v43_apply, Read.val_main_v41_apply, Read.val_main_v38_apply,
    Read.val_main_v40_apply, Read.val_main_v31_apply, Read.val_main_v37_apply, Read.val_main_v39_apply,
    Read.val_main_c_8_apply, Read.val_main_c_9_apply]
  have e : Read.idx_main_v31 (Read.idx_main_v43 (Read.idx_main_v45 (ix3 x y (0 : Fin 1)))) = ix1 y :=
    funext fun a => Fin.ext (by match a with | ⟨0, _⟩ => rfl)
  rw [e]
  exact wrap_id _ (hjj _)

/-! ## relu(P) at the pairs, the pairwise term and the loss -/

/-- relu(P) gathered at the pair (x, y): at the row word x of the first list names and the column word y of the
    second list names. -/
theorem relu_at_pair (P : FVec Ideal S2048x2048 .f32) (ii jj : IVec S128 32) (hii : ∀ x, Cert.Spec.InRange (ii x))
    (hjj : ∀ x, Cert.Spec.InRange (jj x)) (x y : Fin 128) :
    Read.val_main_v47 (F := Ideal) P ii jj (ix2 x y)
      = max (P (ix2 (Cert.Spec.rowOf (ii (ix1 x))) (Cert.Spec.rowOf (jj (ix1 y))))) 0 := by
  unfold Read.val_main_v47
  have e : gather_S2048x2048_S128x128x2_S128x128_n_01_n_n_01_2_11
      = GatherPairs.pairDims 2048 2048 128 128 _ := rfl
  rw [e]
  refine (GatherPairs.gather_pairs_apply (by decide) (by decide) _ (Read.val_main_v1 (F := Ideal) P)
    (Read.val_main_v46 (F := Ideal) ii jj) x y).trans ?_
  rw [Read.val_main_v1_apply, Read.val_main_v0_apply, Read.val_main_cst_apply, Ideal.ofBits_def,
    Ideal.ofBits_zero_f32]
  refine congrArg₂ (fun r c : Fin 2048 => max (P (ix2 r c)) (0 : EReal)) (Fin.ext ?_) (Fin.ext ?_)
  · show min (BitVec.toInt (Read.val_main_v46 (F := Ideal) ii jj (ix3 x y (0 : Fin 2)))).toNat (2048 - 1)
      = min (BitVec.toInt (ii (ix1 x))).toNat 2047
    rw [idx_pair_fst ii jj hii x y]
  · show min (BitVec.toInt (Read.val_main_v46 (F := Ideal) ii jj (ix3 x y (1 : Fin 2)))).toNat (2048 - 1)
      = min (BitVec.toInt (jj (ix1 y))).toNat 2047
    rw [idx_pair_snd ii jj hjj x y]

/-- The pairwise term: the sum over all pairs of relu(P) at the pair times the distance of the two rows. -/
theorem pair_sum (P : FVec Ideal S2048x2048 .f32) (S : FVec Ideal S2048x1024 .f32) (ii jj : IVec S128 32)
    (hii : ∀ x, Cert.Spec.InRange (ii x)) (hjj : ∀ x, Cert.Spec.InRange (jj x)) (hS : Cert.Spec.Finite S)
    (i : S_.Idx) :
    Read.val_main_v49 (F := Ideal) P S ii jj i = Cert.Spec.pairPen P S ii jj := by
  rw [Read.val_main_v49_apply, Read.val_main_cst_10_apply, Ideal.ofBits_def, Ideal.ofBits_zero_f32, zero_add,
    sum_idx2]
  unfold Cert.Spec.pairPen
  refine Finset.sum_congr rfl fun x _ => Finset.sum_congr rfl fun y _ => ?_
  rw [Read.val_main_v48_apply, relu_at_pair P ii jj hii hjj x y, row_dist S ii jj hii hjj hS x y]
  rfl

/-- THE REFERENCE'S RESULT IS THE LOSS. -/
theorem ref_total (a b : FVec Ideal S4096x4096 .f32) (lam : FVec Ideal S_ .f32) (P : FVec Ideal S2048x2048 .f32)
    (S : FVec Ideal S2048x1024 .f32) (ii jj : IVec S128 32)
    (hii : ∀ x, Cert.Spec.InRange (ii x)) (hjj : ∀ x, Cert.Spec.InRange (jj x)) (hS : Cert.Spec.Finite S) :
    Cert.ReferenceIdeal.Read.val_main_v54 (F := Ideal) a b lam P S ii jj
      = fun _ => Cert.Spec.total a b (lam ix0) P S ii jj := by
  funext i
  obtain rfl : i = ix0 := eq_ix0 i
  rw [Read.val_main_v54_apply, Read.val_main_v53_apply, Read.val_main_v52_apply, norm_diff a b, norm_relu P,
    pair_sum P S ii jj hii hjj hS]
  rfl

end Cert.ReferenceIdeal.RefValue

end
-- ==== Proof.PreFacts.lean ====
/-
  The precondition, decoded. The printed predicate is a conjunction of nine tests joined by "and": every entry of
  a, b, P and S and the scalar lam has absolute value below +infinity, and every word of the two index lists is,
  read signed, at least 0 and below 2048. A conjunction that holds gives each of its tests; a test "all entries
  satisfy p" that holds gives p at every entry; an extended real x with max x (-x) < +infinity is neither
  infinity, so it is a real number; a signed comparison of words that holds is the comparison of their signed
  values.
-/
import proofs.«425603_j57767310131732_3_alg».proof.Pre_finite_inputs
import proofs.«425603_j57767310131732_3_alg».proof.Proof.Gen.Pre_finite_inputs
import proofs.«425603_j57767310131732_3_alg».proof.Proof.Spec
import Idealize.ShloMosaic.Lib.ReduceAll
import Idealize.ShloMosaic.Lib.StableHlo.Predicate

noncomputable section

namespace Cert.PreFacts

open Idealize.ShloMosaic Idealize.ShloMosaic.ValueIdx
open Cert.Pre_finite_inputs

/-- The scalar shape has one index. -/
instance subsingletonIdx0 : Subsingleton S_.Idx := ⟨fun a b => funext fun d => d.elim0⟩

/-- The pattern 0x7F800000 denotes +infinity. -/
theorem inf_eq_top : Ideal.ofBits .f32 0x7F800000#32 = (⊤ : EReal) := by simp [Ideal.ofBits, Ideal.ieee]

/-- An extended real whose absolute value max x (-x) is below +infinity is a real number: at either infinity the
    maximum is +infinity. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_eq_top] at h
  have hlt : max x (-x) < ⊤ := by
    simp only [Ideal.cmp] at h
    rwa [StableHlo.Predicate.ofBool_eq_one_iff, decide_eq_true_eq] at h
  induction x using EReal.rec with
  | bot => exact absurd hlt (by simp)
  | coe r => exact ⟨r, rfl⟩
  | top => exact absurd hlt (by simp)

/-- "All entries of x have absolute value below +infinity", when it holds, makes every entry of x a real number:
    the test at entry i compares max (x i) (-(x i)) with the scalar +infinity laid over the whole shape. -/
theorem real_of_all {s : Shape} {axes : List (Fin s.rank)} (x : FVec Ideal s .f32) (hb : S_.BroadcastsInDim s (![] : Fin 0 → Fin s.rank))
    (hr : s.ReducesTo axes S_) (hu : 0 < S_.numel) (init : IVec S_ 1)
    (e : Host.reduce IntOp.andi (cmpf .olt (Host.absf x) (broadcastInDim s ![] hb (constant (F := Ideal) S_ .f32 0x7F800000#32)))
      init hr hu ix0 = 1#1) (i : s.Idx) : ∃ r : ℝ, x i = (r : EReal) :=
  real_of_abs_lt_inf (x i) (Host.reduce_andi_all _ init hr hu ix0 e i)

/-- The same for the scalar, whose test is a reduction over no axis. -/
theorem real_of_all0 (x : FVec Ideal S_ .f32) (hr : S_.ReducesTo [] S_) (hu : 0 < S_.numel) (init : IVec S_ 1)
    (e : Host.reduce IntOp.andi (cmpf .olt (Host.absf x) (constant (F := Ideal) S_ .f32 0x7F800000#32)) init hr hu ix0 = 1#1) :
    ∃ r : ℝ, x ix0 = (r : EReal) :=
  real_of_abs_lt_inf (x ix0) (Host.reduce_andi_all _ init hr hu ix0 e ix0)

/-- "Every word is at least 0, signed", when it holds, gives it at each word. -/
theorem nonneg_of_all (w : IVec S128 32) (hb : S_.BroadcastsInDim S128 (![] : Fin 0 → Fin S128.rank)) (hr : S128.ReducesTo [0] S_)
    (hu : 0 < S_.numel) (init : IVec S_ 1)
    (e : Host.reduce IntOp.andi (cmpi .sge w (broadcastInDim S128 ![] hb (constantI S_ 32 0#32))) init hr hu ix0 = 1#1)
    (x : S128.Idx) : 0 ≤ (w x).toInt := by
  have hx : IntOp.cmpi .sge (w x) 0#32 = 1#1 := Host.reduce_andi_all _ init hr hu ix0 e x
  have h0 : (0#32 : BitVec 32).toInt = 0 := by decide
  rw [IntOp.cmpi_sge, h0] at hx
  exact hx

/-- "Every word is below 2048, signed", when it holds, gives it at each word. -/
theorem lt_of_all (w : IVec S128 32) (hb : S_.BroadcastsInDim S128 (![] : Fin 0 → Fin S128.rank)) (hr : S128.ReducesTo [0] S_)
    (hu : 0 < S_.numel) (init : IVec S_ 1)
    (e : Host.reduce IntOp.andi (cmpi .slt w (broadcastInDim S128 ![] hb (constantI S_ 32 2048#32))) init hr hu ix0 = 1#1)
    (x : S128.Idx) : (w x).toInt < 2048 := by
  have hx : IntOp.cmpi .slt (w x) 2048#32 = 1#1 := Host.reduce_andi_all _ init hr hu ix0 e x
  have h0 : (2048#32 : BitVec 32).toInt = 2048 := by decide
  rw [IntOp.cmpi_slt, h0] at hx
  exact hx

/-- The precondition holds exactly when its nine tests do; what they say of the inputs. -/
theorem pre_facts (a b : FVec Ideal S4096x4096 .f32) (lam : FVec Ideal S_ .f32) (P : FVec Ideal S2048x2048 .f32)
    (S : FVec Ideal S2048x1024 .f32) (ii jj : IVec S128 32)
    (h : Cert.Pre_finite_inputs.fn (F := Ideal) a b lam P S ii jj = fun _ => 1#1) :
    Cert.Spec.Finite a ∧ Cert.Spec.Finite b ∧ (∃ r : ℝ, lam ValueIdx.ix0 = (r : EReal)) ∧ Cert.Spec.Finite P
      ∧ Cert.Spec.Finite S ∧ (∀ x, Cert.Spec.InRange (ii x)) ∧ (∀ x, Cert.Spec.InRange (jj x)) := by
  have e := congrFun h ValueIdx.ix0
  dsimp only [fn, fn_part1, fn_part2] at e
  -- the value at the one index of an "and" of two one-entry tables is the "and" of their entries
  simp only [andi, IntOp.andi_eq_one] at e
  obtain ⟨⟨⟨⟨⟨⟨⟨⟨ha, hb⟩, hl⟩, hP⟩, hS⟩, hi0⟩, hi1⟩, hj0⟩, hj1⟩ := e
  exact ⟨fun i => real_of_all a _ _ _ _ ha i, fun i => real_of_all b _ _ _ _ hb i, real_of_all0 lam _ _ _ hl,
    fun i => real_of_all P _ _ _ _ hP i, fun i => real_of_all S _ _ _ _ hS i,
    fun x => ⟨nonneg_of_all ii _ _ _ _ hi0 x, lt_of_all ii _ _ _ _ hi1 x⟩,
    fun x => ⟨nonneg_of_all jj _ _ _ _ hj0 x, lt_of_all jj _ _ _ _ hj1 x⟩⟩

end Cert.PreFacts

end
-- ==== Proof.lean ====
/-
  The certificate of the loss

      sqrt (sum (actual - prediction)^2)  +  lamb * ( sqrt (sum relu(P)^2)  +  sum_{x,y} relu(P)[i x, j y] * || S[i x] - S[j y] || )

  computed by two kernel regions against its plain array reference, over the extended reals.

  Region 0 leaves, per block of 512 rows, the sum of the squared differences of that block; the host adds the eight
  partial sums and takes the root. Region 1 walks P in four blocks of 512 rows: it adds each block's sum of relu(P)^2 into a
  one-element result that stays in place, and adds the product of a 0/1 table's column block with the block of P into a
  128 x 2048 buffer it keeps from one block to the next, so that after the last block that buffer holds the 128 rows of P the
  i words name; then it selects the rows of S by products with the 0/1 tables, expands the squared distance of two rows as
  |u|^2 + |v|^2 - 2 u.v, clips it at zero, takes the root, masks it where the two words coincide (there the distance is that of a
  row to itself, zero), multiplies by relu of the selected entries of P and sums. The reference gathers rows and entries
  directly and takes the root of the sum of squared differences, guarded so that a zero distance gives zero. With every index
  word in [0, 2048) a 0/1 table selects exactly the row its word names, and with the entries of S real the expansion is the
  squared distance, which is not negative: both programs compute Cert.Spec.total.

  The frames of the two kernel programs are one text, read at the word-level instance and at the extended reals: each region's
  body run at every grid point, the buffer between the two regions carried in the region's invariant, the host stretches
  between and after them, the arguments never written. The reference's frame is its run with the result dropped. The
  idealization rewrote nothing, so there is nothing to preserve.
-/
import proofs.«425603_j57767310131732_3_alg».proof.Defs
import proofs.«425603_j57767310131732_3_alg».proof.Proof.Gen.Kernel
import proofs.«425603_j57767310131732_3_alg».proof.Proof.Gen.KernelIdeal
import proofs.«425603_j57767310131732_3_alg».proof.Proof.Gen.ReferenceIdeal
import proofs.«425603_j57767310131732_3_alg».proof.Proof.Gen.Pre_finite_inputs
import proofs.«425603_j57767310131732_3_alg».proof.Proof.Gen.ReferenceIdeal.Run
import proofs.«425603_j57767310131732_3_alg».proof.Proof.Gen.ReferenceIdeal.Read
import proofs.«425603_j57767310131732_3_alg».proof.Proof.KRun
import proofs.«425603_j57767310131732_3_alg».proof.Proof.KIRun
import proofs.«425603_j57767310131732_3_alg».proof.Proof.KIValue
import proofs.«425603_j57767310131732_3_alg».proof.Proof.RefValue
import proofs.«425603_j57767310131732_3_alg».proof.Proof.PreFacts

noncomputable section

namespace Cert.Proof

open Idealize.ShloMosaic Idealize.ShloMosaic.TcCoe Idealize.SL.Sem

/-- The word-level kernel program runs to the end and leaves its arguments as they were. -/
theorem frame_k : Cert.frame_Kernel := fun m ρ _ => Cert.Kernel.Hand.frame m ρ

/-- The same program read over the extended reals. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the loss of their (agreeing) arguments: the kernel program by its run through the two regions
    and the value of its last buffer, the reference by its run and the reading of its term; the precondition gives the index
    ranges and the real entries of S the two readings need. -/
theorem algebraic : Cert.algebraic_KernelIdeal_ReferenceIdeal := by
  intro m ρ m' ρ' hpre hagree
  have hf := fun c => Cert.PreFacts.pre_facts _ _ _ _ _ _ _ (hpre c)
  refine ⟨fun c => fun _ => Cert.Spec.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2) ValueIdx.ix0)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run_all (F := Ideal) m ρ)
    obtain ⟨-, -, -, -, hS, hii, hjj⟩ := hf c
    exact ⟨(h c _ (Cert.KernelIdeal.Hand.mem_uc Cert.KernelIdeal.main_v30 (by decide))).trans
        (Cert.KernelIdeal.Value1.kernel_value m ρ c hii hjj hS),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c)⟩
  · refine (θ_run Cert.ReferenceIdeal.defs _ _).mono (fun r h c => ⟨?_, (h c).2⟩)
      (Cert.ReferenceIdeal.Value.run (F := Ideal) m' ρ')
    obtain ⟨-, -, -, -, hS, hii, hjj⟩ := hf c
    rw [(h c).1, Cert.ReferenceIdeal.Read.val_main_v54_eq, (hagree c).1, (hagree c).2.1, (hagree c).2.2.1, (hagree c).2.2.2.1,
      (hagree c).2.2.2.2.1, (hagree c).2.2.2.2.2.1, (hagree c).2.2.2.2.2.2]
    exact Cert.ReferenceIdeal.RefValue.ref_total _ _ _ _ _ _ _ hii hjj hS

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
